-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S32x10 .f32) (main_arg10 : FVec F S10 .f32) (main_v33 : IVec S_ 1) : IVec S_ 1 :=
  let main_v34 : FVec F S32x10 .f32 := Host.absf main_arg9
  let main_cst_12 : FVec F S_ .f32 := constant S_ .f32 0x7F800000#32
  let main_v35 : FVec F S32x10 .f32 := broadcastInDim S32x10 ![] bcast_S_S32x10 main_cst_12
  let main_v36 : IVec S32x10 1 := cmpf .olt main_v34 main_v35
  let main_c_13 : IVec S_ 1 := constantI S_ 1 1#1
  let main_v37 : IVec S_ 1 := (fun x v => Host.reduce IntOp.andi x v reducesTo_S32x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S32x10 .f32) (main_arg10 : FVec F S10 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x32 .f32) (main_arg4 : FVec F S32 .f32) (main_arg5 : FVec F S32x32 .f32) (main_arg6 : FVec F S32 .f32) (main_arg7 : FVec F S32x32 .f32) (main_arg8 : FVec F S32 .f32) (main_arg9 : FVec F S32x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S4000x128 : Shape := ⟨2, ![4000, 128]⟩
abbrev S4000x32 : Shape := ⟨2, ![4000, 32]⟩
abbrev S3300000x32 : Shape := ⟨2, ![3300000, 32]⟩
abbrev S1x32 : Shape := ⟨2, ![1, 32]⟩
abbrev S100000x1 : Shape := ⟨2, ![100000, 1]⟩
abbrev S1x10 : Shape := ⟨2, ![1, 10]⟩
abbrev S512x10 : Shape := ⟨2, ![512, 10]⟩
abbrev S1000x1 : Shape := ⟨2, ![1000, 1]⟩
abbrev S1000x32 : Shape := ⟨2, ![1000, 32]⟩
abbrev S512x32 : Shape := ⟨2, ![512, 32]⟩
abbrev S512x1 : Shape := ⟨2, ![512, 1]⟩
abbrev S1000x512 : Shape := ⟨2, ![1000, 512]⟩

abbrev nBuf : Space → Nat
  | .hbm => 123
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x10, .f32⟩
  | .hbm, ⟨10, _⟩ => ⟨S10, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x32, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x32, .f32⟩
  | .hbm, ⟨64, _⟩ => ⟨S3300000x1, .f32⟩
  | .hbm, ⟨65, _⟩ => ⟨S3300000x32, .f32⟩
  | .hbm, ⟨66, _⟩ => ⟨S3300000x32, .f32⟩
  | .hbm, ⟨67, _⟩ => ⟨S_, .f32⟩
  | .hbm, ⟨68, _⟩ => ⟨S100000x32, .f32⟩
  | .hbm, ⟨69, _⟩ => ⟨S3300000x1, .i32⟩
  | .hbm, ⟨70, _⟩ => ⟨S100000x32, .f32⟩
  | .hbm, ⟨71, _⟩ => ⟨S1x32, .f32⟩
  | .hbm, ⟨72, _⟩ => ⟨S100000x32, .f32⟩
  | .hbm, ⟨73, _⟩ => ⟨S100000x32, .f32⟩
  | .hbm, ⟨74, _⟩ => ⟨S_, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000x32, .f32⟩
  | .hbm, ⟨87, _⟩ => ⟨S3300000x1, .f32⟩
  | .hbm, ⟨88, _⟩ => ⟨S3300000x32, .f32⟩
  | .hbm, ⟨89, _⟩ => ⟨S3300000x32, .f32⟩
  | .hbm, ⟨90, _⟩ => ⟨S_, .f32⟩
  | .hbm, ⟨91, _⟩ => ⟨S100000x32, .f32⟩
  | .hbm, ⟨92, _⟩ => ⟨S3300000x1, .i32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000x32, .f32⟩
  | .hbm, ⟨99, _⟩ => ⟨S100000x32, .f32⟩
  | .hbm, ⟨100, _⟩ => ⟨S100000x32, .f32⟩
  | .hbm, ⟨101, _⟩ => ⟨S_, .i32⟩
  | .hbm, ⟨102, _⟩ => ⟨S3300000, .i32⟩
  | .hbm, ⟨103, _⟩ => ⟨S3300000, .i1⟩
  | .hbm, ⟨104, _⟩ => ⟨S_, .i32⟩
  | .hbm, ⟨105, _⟩ => ⟨S3300000, .i32⟩
  | .hbm, ⟨106, _⟩ => ⟨S3300000, .i32⟩
  | .hbm, ⟨107, _⟩ => ⟨S3300000, .i32⟩
  | .hbm, ⟨108, _⟩ => ⟨S3300000x1, .i32⟩
  | .hbm, ⟨109, _⟩ => ⟨S3300000x32, .f32⟩
  | .hbm, ⟨110, _⟩ => ⟨S3300000x1, .f32⟩
  | .hbm, ⟨111, _⟩ => ⟨S3300000x32, .f32⟩
  | .hbm, ⟨112, _⟩ => ⟨S3300000x32, .f32⟩
  | .hbm, ⟨113, _⟩ => ⟨S_, .f32⟩
  | .hbm, ⟨114, _⟩ => ⟨S100000x32, .f32⟩
  | .hbm, ⟨115, _⟩ => ⟨S3300000x1, .i32⟩
  | .hbm, ⟨116, _⟩ => ⟨S100000x32, .f32⟩
  | .hbm, ⟨117, _⟩ => ⟨S1x32, .f32⟩
  | .hbm, ⟨118, _⟩ => ⟨S100000x32, .f32⟩
  | .hbm, ⟨119, _⟩ => ⟨S100000x32, .f32⟩
  | .hbm, ⟨120, _⟩ => ⟨S100000x1, .i32⟩
  | .hbm, ⟨121, _⟩ => ⟨S1x10, .f32⟩
  | .hbm, ⟨122, _⟩ => ⟨S512x10, .f32⟩
  | .local _ .vmem, ⟨0, _⟩ => ⟨S4000x128, .f32⟩
  | .local _ .vmem, ⟨1, _⟩ => ⟨S4000x128, .f32⟩
  | .local _ .vmem, ⟨2, _⟩ => ⟨S128x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S32x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S32x32, .f32⟩
  | .local _ .vmem, ⟨13, _⟩ => ⟨S4000x32, .f32⟩
  | .local _ .vmem, ⟨14, _⟩ => ⟨S4000x32, .f32⟩
  | .local _ .vmem, ⟨15, _⟩ => ⟨S1000x1, .i32⟩
  | .local _ .vmem, ⟨16, _⟩ => ⟨S1000x1, .i32⟩
  | .local _ .vmem, ⟨17, _⟩ => ⟨S1000x32, .f32⟩
  | .local _ .vmem, ⟨18, _⟩ => ⟨S1000x32, .f32⟩
  | .local _ .vmem, ⟨19, _⟩ => ⟨S32x10, .f32⟩
  | .local _ .vmem, ⟨20, _⟩ => ⟨S1x10, .f32⟩
  | .local _ .vmem, ⟨21, _⟩ => ⟨S512x10, .f32⟩
  | .local _ .vmem, ⟨22, _⟩ => ⟨S512x32, .f32⟩
  | .local _ .vmem, ⟨23, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_scratch0 : Ref sig .tc := ⟨.vmem, 22, rfl⟩
abbrev cc3_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v28 : BitVec 1 := Scalar.cmpi .eq arg0 c99_i32
  let v29 : BitVec 32 := Scalar.extui v28
  let c0_i32_14 : BitVec 32 := 0#32
  let v30 : BitVec 1 := Scalar.cmpi .ne v29 c0_i32_14
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S4000x32_S4000x32_0_0 : ∀ a, (![0, 0] : Fin 2 → Nat) a + S4000x32.size a ≤ S4000x32.size a
  h_S4000x32 : 0 < S4000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S4000x32_S4000x32 : S4000x32.ShapeCasts S4000x32
  inb_S32x32_S32x32_0_0 : ∀ a, (![0, 0] : Fin 2 → Nat) a + S32x32.size a ≤ S32x32.size a
  h_S32x32 : 0 < S32x32.numel
  shapeCasts_S100000_S100000x1 : S100000.ShapeCasts S100000x1
  shapeCasts_S10_S1x10 : S10.ShapeCasts S1x10
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1000x512_d1_w32 : S1000x512.Iotas .tc 32 [1]
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  natLt_1_32 : 1 < 32
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  broadcasts_S512x1_S512x32 : S512x1.Broadcasts S512x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x128_S128x32_S4000x32_1_0_0_1_n_n_wf : DotDims.WF S4000x128 S128x32 S4000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S4000x32_S32x32_S4000x32_1_0_0_1_n_n_wf : DotDims.WF S4000x32 S32x32 S4000x32 [1] [0] [0] [1] [] []
  dot_S1000x512_S1000x32_S512x32_0_0_1_1_n_n_wf : DotDims.WF S1000x512 S1000x32 S512x32 [0] [0] [1] [1] [] []
  dot_S1000x512_S1000x1_S512x1_0_0_1_1_n_n_wf : DotDims.WF S1000x512 S1000x1 S512x1 [0] [0] [1] [1] [] []
  dot_S512x32_S32x10_S512x10_1_0_0_1_n_n_wf : DotDims.WF S512x32 S32x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S100000x32.size a
  hwx2_2 : ∀ i : grid2.Coords, EltTy.bits .f32 = 32 ∨ (Rect.block (s := S100000x32) S4000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1.size a ≤ S100000x1.size a
  hwx3_0 : ∀ i : grid3.Coords, EltTy.bits .i32 = 32 ∨ (Rect.block (s := S100000x1) S1000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x32.size a ≤ S100000x32.size a
  hwx3_1 : ∀ i : grid3.Coords, EltTy.bits .f32 = 32 ∨ (Rect.block (s := S100000x32) S1000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x10.size a ≤ S32x10.size a
  hwx3_2 : ∀ i : grid3.Coords, EltTy.bits .f32 = 32 ∨ (Rect.block (s := S32x10) S32x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x10.size a ≤ S512x10.size a
  hwx3_4 : ∀ i : grid3.Coords, EltTy.bits .f32 = 32 ∨ (Rect.block (s := S512x10) S512x10.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S1000x512_S1000x32_S512x32_0_0_1_1_n_n : DotDims S1000x512 S1000x32 S512x32 where
  lhsContracting := [0]
  rhsContracting := [0]
  lhsNonContracting := [1]
  rhsNonContracting := [1]
  lhsBatch := []
  rhsBatch := []
  wf := dot_S1000x512_S1000x32_S512x32_0_0_1_1_n_n_wf
def dot_S1000x512_S1000x1_S512x1_0_0_1_1_n_n : DotDims S1000x512 S1000x1 S512x1 where
  lhsContracting := [0]
  rhsContracting := [0]
  lhsNonContracting := [1]
  rhsNonContracting := [1]
  lhsBatch := []
  rhsBatch := []
  wf := dot_S1000x512_S1000x1_S512x1_0_0_1_1_n_n_wf
def dot_S512x32_S32x10_S512x10_1_0_0_1_n_n : DotDims S512x32 S32x10 S512x10 where
  lhsContracting := [1]
  rhsContracting := [0]
  lhsNonContracting := [0]
  rhsNonContracting := [1]
  lhsBatch := []
  rhsBatch := []
  wf := dot_S512x32_S32x10_S512x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S4000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S1000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S32x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S512x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S512x32 : Shape := ⟨2, ![512, 32]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x10, .f32⟩
  | 10 => ⟨S10, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S100000x32, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x32, .f32⟩
  | 64 => ⟨S3300000x1, .f32⟩
  | 65 => ⟨S3300000x32, .f32⟩
  | 66 => ⟨S3300000x32, .f32⟩
  | 67 => ⟨S_, .f32⟩
  | 68 => ⟨S100000x32, .f32⟩
  | 69 => ⟨S3300000x1, .i32⟩
  | 70 => ⟨S100000x32, .f32⟩
  | 71 => ⟨S1x32, .f32⟩
  | 72 => ⟨S100000x32, .f32⟩
  | 73 => ⟨S100000x32, .f32⟩
  | 74 => ⟨S_, .f32⟩
  | 75 => ⟨S100000x32, .f32⟩
  | 76 => ⟨S100000x32, .f32⟩
  | 77 => ⟨S100000x32, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000x32, .f32⟩
  | 87 => ⟨S3300000x1, .f32⟩
  | 88 => ⟨S3300000x32, .f32⟩
  | 89 => ⟨S3300000x32, .f32⟩
  | 90 => ⟨S_, .f32⟩
  | 91 => ⟨S100000x32, .f32⟩
  | 92 => ⟨S3300000x1, .i32⟩
  | 93 => ⟨S100000x32, .f32⟩
  | 94 => ⟨S1x32, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x32, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x32, .f32⟩
  | 110 => ⟨S3300000x1, .f32⟩
  | 111 => ⟨S3300000x32, .f32⟩
  | 112 => ⟨S3300000x32, .f32⟩
  | 113 => ⟨S_, .f32⟩
  | 114 => ⟨S100000x32, .f32⟩
  | 115 => ⟨S3300000x1, .i32⟩
  | 116 => ⟨S100000x32, .f32⟩
  | 117 => ⟨S1x32, .f32⟩
  | 118 => ⟨S100000x32, .f32⟩
  | 119 => ⟨S100000x32, .f32⟩
  | 120 => ⟨S_, .f32⟩
  | 121 => ⟨S512x32, .f32⟩
  | 122 => ⟨S100000x1, .i32⟩
  | 123 => ⟨S512x32, .f32⟩
  | 124 => ⟨S_, .f32⟩
  | 125 => ⟨S100000, .f32⟩
  | 126 => ⟨S_, .f32⟩
  | 127 => ⟨S512, .f32⟩
  | _ => ⟨S100000x128, .f32⟩

abbrev hbmTy0_1 (i : Nat) : BufTy := match i % 128 with
  | 0 => ⟨S100000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x32, .f32⟩
  | 7 => ⟨S512x32, .f32⟩
  | 8 => ⟨S512x10, .f32⟩
  | 9 => ⟨S1x10, .f32⟩
  | 10 => ⟨S512x10, .f32⟩
  | 11 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S512x32 : S_.BroadcastsInDim S512x32 (![] : Fin 0 → Fin S512x32.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x10_S512x10_1_0_0_1_n_n_wf : DotDims.WF S512x32 S32x10 S512x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x10_S512x10_1_0_0_1_n_n : DotDims S512x32 S32x10 S512x10 where
  lhsContracting := [1]
  rhsContracting := [0]
  lhsNonContracting := [0]
  rhsNonContracting := [1]
  lhsBatch := []
  rhsBatch := []
  wf := dot_S512x32_S32x10_S512x10_1_0_0_1_n_n_wf

class Facts : Prop extends Facts₀ where

variable [Facts]
-- ==== Proof.K.Lin0.lean ====
/-
  The first dense layer's matrix product as a pipelined kernel region: 25 grid points, each of which takes a
  4000-row block of the activations and the whole 128 x 32 weight matrix and leaves the block's product in the
  output's staging buffer.  Stated at a PARAMETER `V`, the contents of the core's buffers when the region is
  entered: each window's block at a point is a read of `V`; what the body leaves in the output's buffer is the
  one store's payload over the two input blocks; the region's proof data, and the obligation that the body run
  from those blocks leaves exactly that.
-/
import proofs.«417128_j32650341384807_1_alg».proof.Proof.Gen.Kernel.Launch
import proofs.«417128_j32650341384807_1_alg».proof.Proof.Gen.Kernel.Skeleton
import proofs.«417128_j32650341384807_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shapes of the activations' block, of the weight matrix and of the output's block. -/
abbrev SX : Shape := S4000x128
abbrev SW : Shape := S128x32
abbrev SO : Shape := S4000x32

variable (V : (c : Dev nD) → (b : Ref sig .tc) → Buf (Elt F) ((c : Thread nD τ).loc b))

/-- Window `w`'s block at grid point `t`: the rows `4000 t … 4000 t + 3999` of the activations (window 0), the
    whole weight matrix (window 1), read off the arrays as the region finds them. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or the block
    index did not move since the last fetch. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect SX := Rect.unit (s := SX) ![0, 0] SX.size inb_S4000x128_S4000x128_0_0
abbrev rW : Rect SW := Rect.unit (s := SW) ![0, 0] SW.size inb_S128x32_S128x32_0_0
abbrev rO : Rect SO := Rect.unit (s := SO) ![0, 0] SO.size inb_S4000x32_S4000x32_0_0

/-- What the body leaves in the output's staging buffer: its one whole-buffer store of the product of the two
    loaded blocks. -/
def out2 (x0 : Vec F SX .f32) (x1 : Vec F SW .f32) : Vec F SO .f32 :=
  View.canon [⟨rO, k0_pay1 (View.ld x0 rX) (View.ld x1 rW)⟩]

/-- The one store covers the buffer. -/
theorem cover2 (p0 : Vec F SO .f32) (y : SO.Idx) :
    ∃ pc ∈ ([⟨rO, p0⟩] : List (View.Piece (Elt F) SO .f32)), y ∈ pc.1.set :=
  View.cover_of_tiled [⟨rO, p0⟩] SO.size (by rfl) y

set_option maxHeartbeats 1000000 in
/-- The body on whole staging buffers, the inputs' at `x0`, `x1` and the output's at anything, runs to its return
    with the inputs' buffers as they were and the output's at `out2 x0 x1`. -/
theorem sound_kernel (c : Dev nD) (E : Set ℕ) (i : grid0.Coords) (arg1 : Memref sig .tc .vmem SX .f32) (harg1 : arg1.IsWhole)
    (arg2 : Memref sig .tc .vmem SW .f32) (harg2 : arg2.IsWhole) (arg3 : Memref sig .tc .vmem SO .f32) (harg3 : arg3.IsWhole)
    (x0 : Vec F SX .f32) (x1 : Vec F SW .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at point `t` each
    input's buffer still at its block and the output's at the product of the two blocks; the invariant the scoped
    buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.Kernel.Lin0

end
-- ==== Proof.K.Lin1.lean ====
/-
  The second dense layer's matrix product as a pipelined kernel region: 25 grid points, each of which takes a
  4000-row block of the activations and the whole 32 x 32 weight matrix and leaves the block's product in the
  output's staging buffer.  Stated at a PARAMETER `V`, the contents of the core's buffers when the region is
  entered: each window's block at a point is a read of `V`; what the body leaves in the output's buffer is the
  one store's payload over the two input blocks; the region's proof data, and the obligation that the body run
  from those blocks leaves exactly that.
-/
import proofs.«417128_j32650341384807_1_alg».proof.Proof.Gen.Kernel.Launch
import proofs.«417128_j32650341384807_1_alg».proof.Proof.Gen.Kernel.Skeleton
import proofs.«417128_j32650341384807_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shapes of the activations' block, of the weight matrix and of the output's block. -/
abbrev SX : Shape := S4000x32
abbrev SW : Shape := S32x32
abbrev SO : Shape := S4000x32

variable (V : (c : Dev nD) → (b : Ref sig .tc) → Buf (Elt F) ((c : Thread nD τ).loc b))

/-- Window `w`'s block at grid point `t`: the rows `4000 t … 4000 t + 3999` of the activations (window 0), the
    whole weight matrix (window 1), read off the arrays as the region finds them. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or the block
    index did not move since the last fetch. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect SX := Rect.unit (s := SX) ![0, 0] SX.size inb_S4000x32_S4000x32_0_0
abbrev rW : Rect SW := Rect.unit (s := SW) ![0, 0] SW.size inb_S32x32_S32x32_0_0
abbrev rO : Rect SO := Rect.unit (s := SO) ![0, 0] SO.size inb_S4000x32_S4000x32_0_0

/-- What the body leaves in the output's staging buffer: its one whole-buffer store of the product of the two
    loaded blocks. -/
def out2 (x0 : Vec F SX .f32) (x1 : Vec F SW .f32) : Vec F SO .f32 :=
  View.canon [⟨rO, k1_pay1 (View.ld x0 rX) (View.ld x1 rW)⟩]

/-- The one store covers the buffer. -/
theorem cover2 (p0 : Vec F SO .f32) (y : SO.Idx) :
    ∃ pc ∈ ([⟨rO, p0⟩] : List (View.Piece (Elt F) SO .f32)), y ∈ pc.1.set :=
  View.cover_of_tiled [⟨rO, p0⟩] SO.size (by rfl) y

set_option maxHeartbeats 1000000 in
/-- The body on whole staging buffers, the inputs' at `x0`, `x1` and the output's at anything, runs to its return
    with the inputs' buffers as they were and the output's at `out2 x0 x1`. -/
theorem sound_kernel (c : Dev nD) (E : Set ℕ) (i : grid1.Coords) (arg1 : Memref sig .tc .vmem SX .f32) (harg1 : arg1.IsWhole)
    (arg2 : Memref sig .tc .vmem SW .f32) (harg2 : arg2.IsWhole) (arg3 : Memref sig .tc .vmem SO .f32) (harg3 : arg3.IsWhole)
    (x0 : Vec F SX .f32) (x1 : Vec F SW .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at point `t` each
    input's buffer still at its block and the output's at the product of the two blocks; the invariant the scoped
    buffers no window stages and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out2 (iblk V c 0 t) (iblk V c 1 t) := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.Kernel.Lin1

end
-- ==== Proof.K.Lin2.lean ====
/-
  The third dense layer's matrix product as a pipelined kernel region: 25 grid points, each of which takes a
  4000-row block of the activations and the whole 32 x 32 weight matrix and leaves the block's product in the
  output's staging buffer.  Stated at a PARAMETER `V`, the contents of the core's buffers when the region is
  entered: each window's block at a point is a read of `V`; what the body leaves in the output's buffer is the
  one store's payload over the two input blocks; the region's proof data, and the obligation that the body run
  from those blocks leaves exactly that.
-/
import proofs.«417128_j32650341384807_1_alg».proof.Proof.Gen.Kernel.Launch
import proofs.«417128_j32650341384807_1_alg».proof.Proof.Gen.Kernel.Skeleton
import proofs.«417128_j32650341384807_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shapes of the activations' block, of the weight matrix and of the output's block. -/
abbrev SX : Shape := S4000x32
abbrev SW : Shape := S32x32
abbrev SO : Shape := S4000x32

variable (V : (c : Dev nD) → (b : Ref sig .tc) → Buf (Elt F) ((c : Thread nD τ).loc b))

/-- Window `w`'s block at grid point `t`: the rows `4000 t … 4000 t + 3999` of the activations (window 0), the
    whole weight matrix (window 1), read off the arrays as the region finds them. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or the block
    index did not move since the last fetch. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect SX := Rect.unit (s := SX) ![0, 0] SX.size inb_S4000x32_S4000x32_0_0
abbrev rW : Rect SW := Rect.unit (s := SW) ![0, 0] SW.size inb_S32x32_S32x32_0_0
abbrev rO : Rect SO := Rect.unit (s := SO) ![0, 0] SO.size inb_S4000x32_S4000x32_0_0

/-- What the body leaves in the output's staging buffer: its one whole-buffer store of the product of the two
    loaded blocks. -/
def out2 (x0 : Vec F SX .f32) (x1 : Vec F SW .f32) : Vec F SO .f32 :=
  View.canon [⟨rO, k2_pay1 (View.ld x0 rX) (View.ld x1 rW)⟩]

/-- The one store covers the buffer. -/
theorem cover2 (p0 : Vec F SO .f32) (y : SO.Idx) :
    ∃ pc ∈ ([⟨rO, p0⟩] : List (View.Piece (Elt F) SO .f32)), y ∈ pc.1.set :=
  View.cover_of_tiled [⟨rO, p0⟩] SO.size (by rfl) y

set_option maxHeartbeats 1000000 in
/-- The body on whole staging buffers, the inputs' at `x0`, `x1` and the output's at anything, runs to its return
    with the inputs' buffers as they were and the output's at `out2 x0 x1`. -/
theorem sound_kernel (c : Dev nD) (E : Set ℕ) (i : grid2.Coords) (arg1 : Memref sig .tc .vmem SX .f32) (harg1 : arg1.IsWhole)
    (arg2 : Memref sig .tc .vmem SW .f32) (harg2 : arg2.IsWhole) (arg3 : Memref sig .tc .vmem SO .f32) (harg3 : arg3.IsWhole)
    (x0 : Vec F SX .f32) (x1 : Vec F SW .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at point `t` each
    input's buffer still at its block and the output's at the product of the two blocks; the invariant the scoped
    buffers no window stages and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out2 (iblk V c 0 t) (iblk V c 1 t) := by dsimp only [dat]

theorem before_0 (c : Dev nD) (t : Fin cfg2.N) (d) : (dat V c).before 0 t d = iblk V c 0 t :=
  before0_of V (dat V c) (A_eq V c 0) (after_0 V c) t d
theorem before_1 (c : Dev nD) (t : Fin cfg2.N) (d) : (dat V c).before 1 t d = iblk V c 1 t :=
  before1_of V (dat V c) (A_eq V c 1) (after_1 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W2, bigSep_W2]
  exact sound_body V c t

end Cert.Kernel.Lin2

end
-- ==== Proof.K.Pool.lean ====
/-
  The pooling region: 100 grid points, each of which takes a 1000-row block of the graph ids and of the node
  features, adds the block's per-graph feature sums and node counts into two scratch accumulators (cleared at the
  first point), and at the last point divides, applies the final linear layer and stores the result.
  Stated at a PARAMETER `V`, the contents of the core's buffers when the region is entered.
-/
import proofs.«417128_j32650341384807_1_alg».proof.Proof.Gen.Kernel.Launch
import proofs.«417128_j32650341384807_1_alg».proof.Proof.Gen.Kernel.Skeleton
import proofs.«417128_j32650341384807_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

/-- The zero offsets of a whole-buffer rectangle, however spelt. -/
theorem hz : (![0, 0] : Fin 2 → Nat) = fun _ => 0 := funext fun a => by fin_cases a <;> rfl

/-- A whole-buffer store leaves its payload, whatever the buffer held and whatever was stored before it. -/
theorem read_store_whole {sp : Space} {S : Shape} {e : EltTy} (v : View sig .tc sp S e) (g : v.ty.Contents (Elt F))
    {off : Fin S.rank → Nat} (h0 : off = fun _ => 0) (inb : ∀ a, off a + S.size a ≤ S.size a) (w : S.Idx → Elt F e)
    (L : List (View.Piece (Elt F) S e)) :
    v.read (Elt F) (v.writes (Elt F) g (⟨Rect.unit off S.size inb, w⟩ :: L)) = w := by
  rw [View.read_writes_eq_canon _ _ _ (fun y => ⟨_, List.mem_cons_self, View.mem_set_unit_zero h0 inb y⟩),
    View.canon_cons_unit_zero h0]

/-- A whole-buffer load reads the buffer's contents. -/
theorem readAt_whole {sp : Space} {S : Shape} {e : EltTy} (v : View sig .tc sp S e) (g : v.ty.Contents (Elt F))
    {off : Fin S.rank → Nat} (h0 : off = fun _ => 0) (inb : ∀ a, off a + S.size a ≤ S.size a) :
    v.readAt (Elt F) (Rect.unit off S.size inb).toLoadRect g = v.read (Elt F) g := by
  rw [View.readAt_eq_ld]; exact View.ld_unit_zero h0 inb _

/-! ## The body's two conditionals on the grid point -/

/-- The first conditional of the body: the grid point is the first. -/
abbrev isFirst (i : grid3.Coords) : Prop :=
  (Scalar.cmpi .ne (Scalar.extui (Scalar.cmpi .eq (BitVec.ofNat 32 (i 0).val) 0#32)) 0#32) = 1#1
/-- The second: the grid point is the last. -/
abbrev isLast (i : grid3.Coords) : Prop := k3_cond2 i = 1#1

theorem isFirst_iff : ∀ t : Fin cfg3.N, isFirst (grid3.coords t) ↔ t.val = 0 :=
  (by decide +kernel : ∀ t : Fin grid3.N, isFirst (grid3.coords t) ↔ t.val = 0)
theorem isLast_iff : ∀ t : Fin cfg3.N, isLast (grid3.coords t) ↔ t.val = 99 :=
  (by decide +kernel : ∀ t : Fin grid3.N, isLast (grid3.coords t) ↔ t.val = 99)

/-! ## The body on whole buffers, case by case

Three cases meet the grid: the first point (both accumulators cleared, then the block added), a middle point (the block
added), the last point (the block added, then the final layer over the finished accumulators stored into the output's
buffer). Every load and store is of a whole buffer, so a store leaves its payload and a later load reads it. -/

set_option maxHeartbeats 2000000 in
/-- A middle point: the inputs' buffers as they were, each accumulator at itself plus the block's contribution. -/
theorem runB (c : Dev nD) (E : Set ℕ) (i : grid3.Coords)
    (a1 : Memref sig .tc .vmem S1000x1 .i32) (h1 : a1.IsWhole) (a2 : Memref sig .tc .vmem S1000x32 .f32) (h2 : a2.IsWhole)
    (a3 : Memref sig .tc .vmem S32x10 .f32) (h3 : a3.IsWhole) (a4 : Memref sig .tc .vmem S1x10 .f32) (h4 : a4.IsWhole)
    (a5 : Memref sig .tc .vmem S512x10 .f32) (h5 : a5.IsWhole) (a6 : Memref sig .tc .vmem S512x32 .f32) (h6 : a6.IsWhole)
    (a7 : Memref sig .tc .vmem S512x1 .f32) (h7 : a7.IsWhole) (hc0 : ¬isFirst i) (hc1 : ¬isLast i)
    (x0 : Vec F S1000x1 .i32) (x1 : Vec F S1000x32 .f32) (s0 : Vec F S512x32 .f32) (s1 : Vec F S512x1 .f32)
    (K : PUnit → sProp 𝕄) :
    iprop(owns (c : Thread nD τ) a1 fullShare x0 ∗ owns (c : Thread nD τ) a2 fullShare x1
        ∗ owns (c : Thread nD τ) a6 fullShare s0 ∗ owns (c : Thread nD τ) a7 fullShare s1
        ∗ (iprop(owns (c : Thread nD τ) a1 fullShare x0 ∗ owns (c : Thread nD τ) a2 fullShare x1
            ∗ owns (c : Thread nD τ) a6 fullShare (k3_pay4 x0 x1 s0) ∗ owns (c : Thread nD τ) a7 fullShare (k3_pay5 x0 s1)) -∗ K ⟨⟩))
      ⊢ wp frame (wpE (defs₀ (F := F)) Variants.none c none) E (cc3__pool_kernel i a1 h1 a2 h2 a3 h3 a4 h4 a5 h5 a6 h6 a7 h7) K := by
  simp only [cc3__pool_kernel_eq_skeleton]; unfold cc3__pool_kernel_skel
  unfold owns
  iintro ⟨⟨%f0, %hf0, H0⟩, ⟨%f1, %hf1, H1⟩, ⟨%g0, %hg0, S0⟩, ⟨%g1, %hg1, S1⟩, Hk⟩
  subst hf0
  subst hf1
  subst hg0
  subst hg1
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    sl_unfold_run_names
    refine (read_store_whole _ _ hz _ _ _).trans ?_
    simp only [readAt_whole (S := S1000x1) _ _ hz, readAt_whole (S := S1000x32) _ _ hz, readAt_whole (S := S512x32) _ _ hz,
      View.readCov_unit_zero (S := S512x32) _ hz]
  iexists _; isplitr
  swap; · iexact S1
  ipureintro
  sl_unfold_run_names
  refine (read_store_whole _ _ hz _ _ _).trans ?_
  simp only [readAt_whole (S := S1000x1) _ _ hz, readAt_whole (S := S512x1) _ _ hz, View.readCov_unit_zero (S := S512x1) _ hz]

set_option maxHeartbeats 2000000 in
/-- The first point: whatever the accumulators held, they end at the cleared buffers plus the block's contribution. -/
theorem runA (c : Dev nD) (E : Set ℕ) (i : grid3.Coords)
    (a1 : Memref sig .tc .vmem S1000x1 .i32) (h1 : a1.IsWhole) (a2 : Memref sig .tc .vmem S1000x32 .f32) (h2 : a2.IsWhole)
    (a3 : Memref sig .tc .vmem S32x10 .f32) (h3 : a3.IsWhole) (a4 : Memref sig .tc .vmem S1x10 .f32) (h4 : a4.IsWhole)
    (a5 : Memref sig .tc .vmem S512x10 .f32) (h5 : a5.IsWhole) (a6 : Memref sig .tc .vmem S512x32 .f32) (h6 : a6.IsWhole)
    (a7 : Memref sig .tc .vmem S512x1 .f32) (h7 : a7.IsWhole) (hc0 : isFirst i) (hc1 : ¬isLast i)
    (x0 : Vec F S1000x1 .i32) (x1 : Vec F S1000x32 .f32)
    (K : PUnit → sProp 𝕄) :
    iprop(owns (c : Thread nD τ) a1 fullShare x0 ∗ owns (c : Thread nD τ) a2 fullShare x1
        ∗ (∃ d, owns (c : Thread nD τ) a6 fullShare d) ∗ (∃ d, owns (c : Thread nD τ) a7 fullShare d)
        ∗ (iprop(owns (c : Thread nD τ) a1 fullShare x0 ∗ owns (c : Thread nD τ) a2 fullShare x1
            ∗ owns (c : Thread nD τ) a6 fullShare (k3_pay4 x0 x1 (k3_pay1 (F := F))) ∗ owns (c : Thread nD τ) a7 fullShare (k3_pay5 x0 (k3_pay2 (F := F)))) -∗ K ⟨⟩))
      ⊢ wp frame (wpE (defs₀ (F := F)) Variants.none c none) E (cc3__pool_kernel i a1 h1 a2 h2 a3 h3 a4 h4 a5 h5 a6 h6 a7 h7) K := by
  simp only [cc3__pool_kernel_eq_skeleton]; unfold cc3__pool_kernel_skel
  unfold owns
  iintro ⟨⟨%f0, %hf0, H0⟩, ⟨%f1, %hf1, H1⟩, ⟨%d0, %g0, -, S0⟩, ⟨%d1, %g1, -, S1⟩, Hk⟩
  subst hf0
  subst hf1
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    sl_unfold_run_names
    refine (read_store_whole _ _ hz _ _ _).trans ?_
    simp only [readAt_whole (S := S1000x1) _ _ hz, readAt_whole (S := S1000x32) _ _ hz, readAt_whole (S := S512x32) _ _ hz,
      View.readCov_unit_zero (S := S512x32) _ hz]
  iexists _; isplitr
  swap; · iexact S1
  ipureintro
  sl_unfold_run_names
  refine (read_store_whole _ _ hz _ _ _).trans ?_
  simp only [readAt_whole (S := S1000x1) _ _ hz, readAt_whole (S := S512x1) _ _ hz, View.readCov_unit_zero (S := S512x1) _ hz]

set_option maxHeartbeats 2000000 in
/-- The last point: as a middle point, and the output's buffer at the final layer over the UPDATED accumulators. -/
theorem runC (c : Dev nD) (E : Set ℕ) (i : grid3.Coords)
    (a1 : Memref sig .tc .vmem S1000x1 .i32) (h1 : a1.IsWhole) (a2 : Memref sig .tc .vmem S1000x32 .f32) (h2 : a2.IsWhole)
    (a3 : Memref sig .tc .vmem S32x10 .f32) (h3 : a3.IsWhole) (a4 : Memref sig .tc .vmem S1x10 .f32) (h4 : a4.IsWhole)
    (a5 : Memref sig .tc .vmem S512x10 .f32) (h5 : a5.IsWhole) (a6 : Memref sig .tc .vmem S512x32 .f32) (h6 : a6.IsWhole)
    (a7 : Memref sig .tc .vmem S512x1 .f32) (h7 : a7.IsWhole) (hc0 : ¬isFirst i) (hc1 : isLast i)
    (x0 : Vec F S1000x1 .i32) (x1 : Vec F S1000x32 .f32) (x2 : Vec F S32x10 .f32) (x3 : Vec F S1x10 .f32)
    (s0 : Vec F S512x32 .f32) (s1 : Vec F S512x1 .f32)
    (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ owns (c : Thread nD τ) a6 fullShare s0 ∗ owns (c : Thread nD τ) a7 fullShare s1
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (k3_pay6 (k3_pay4 x0 x1 s0) (k3_pay5 x0 s1) x2 x3)
            ∗ owns (c : Thread nD τ) a6 fullShare (k3_pay4 x0 x1 s0) ∗ owns (c : Thread nD τ) a7 fullShare (k3_pay5 x0 s1)) -∗ K ⟨⟩))
      ⊢ wp frame (wpE (defs₀ (F := F)) Variants.none c none) E (cc3__pool_kernel i a1 h1 a2 h2 a3 h3 a4 h4 a5 h5 a6 h6 a7 h7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, Hk⟩
  subst hf0
  subst hf1
  subst hf2
  subst hf3
  subst hg0
  subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_store_whole _ _ hz _ _ _).trans ?_
    simp only [readAt_whole (S := S1000x1) _ _ hz, readAt_whole (S := S1000x32) _ _ hz, readAt_whole (S := S512x32) _ _ hz,
      readAt_whole (S := S512x1) _ _ hz, readAt_whole (S := S32x10) _ _ hz, readAt_whole (S := S1x10) _ _ hz,
      View.readCov_unit_zero (S := S512x32) _ hz, View.readCov_unit_zero (S := S512x1) _ hz]
  isplitl [S0]
  · iexists _; isplitr
    swap; · iexact S0
    ipureintro
    sl_unfold_run_names
    refine (read_store_whole _ _ hz _ _ _).trans ?_
    simp only [readAt_whole (S := S1000x1) _ _ hz, readAt_whole (S := S1000x32) _ _ hz, readAt_whole (S := S512x32) _ _ hz]
  iexists _; isplitr
  swap; · iexact S1
  ipureintro
  sl_unfold_run_names
  refine (read_store_whole _ _ hz _ _ _).trans ?_
  simp only [readAt_whole (S := S1000x1) _ _ hz, readAt_whole (S := S512x1) _ _ hz]

/-! ## The region's blocks, accumulators and result -/

variable (V : (c : Dev nD) → (b : Ref sig .tc) → Buf (Elt F) ((c : Thread nD τ).loc b))

/-- Window `w`'s block at grid point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input blocks at point `t` at their literal types: 1000 graph ids, 1000 feature rows, the final layer's weights and bias. -/
abbrev idsBlk (c : Dev nD) (t : Fin cfg3.N) : Vec F S1000x1 .i32 := iblk V c 0 t
abbrev featBlk (c : Dev nD) (t : Fin cfg3.N) : Vec F S1000x32 .f32 := iblk V c 1 t
abbrev wlBlk (c : Dev nD) (t : Fin cfg3.N) : Vec F S32x10 .f32 := iblk V c 2 t
abbrev blBlk (c : Dev nD) (t : Fin cfg3.N) : Vec F S1x10 .f32 := iblk V c 3 t

/-- THE ACCUMULATION: the two scratch buffers (feature sums, node counts) after the body at point `n`: at the first
    point the cleared buffers plus the first block's contribution, afterwards the point before's plus this block's. -/
def accAt (c : Dev nD) : (n : ℕ) → n < cfg3.N → Vec F S512x32 .f32 × Vec F S512x1 .f32
  | 0, h => (k3_pay4 (idsBlk V c ⟨0, h⟩) (featBlk V c ⟨0, h⟩) (k3_pay1 (F := F)), k3_pay5 (idsBlk V c ⟨0, h⟩) (k3_pay2 (F := F)))
  | n + 1, h => (k3_pay4 (idsBlk V c ⟨n + 1, h⟩) (featBlk V c ⟨n + 1, h⟩) (accAt c n (Nat.lt_of_succ_lt h)).1,
      k3_pay5 (idsBlk V c ⟨n + 1, h⟩) (accAt c n (Nat.lt_of_succ_lt h)).2)

/-- What the last point stores into the output's staging buffer: the final layer over the finished accumulators. -/
def result (c : Dev nD) : Vec F S512x10 .f32 :=
  k3_pay6 (accAt V c 99 (by rw [show cfg3.N = 100 from N_3]; omega)).1 (accAt V c 99 (by rw [show cfg3.N = 100 from N_3]; omega)).2
    (wlBlk V c ⟨99, by rw [show cfg3.N = 100 from N_3]; omega⟩) (blBlk V c ⟨99, by rw [show cfg3.N = 100 from N_3]; omega⟩)

/-- The accumulators after the first point. -/
theorem accAt_first (c : Dev nD) (t : Fin cfg3.N) (h : t.val = 0) :
    accAt V c t.val t.isLt = (k3_pay4 (idsBlk V c t) (featBlk V c t) (k3_pay1 (F := F)), k3_pay5 (idsBlk V c t) (k3_pay2 (F := F))) := by
  obtain ⟨n, hn⟩ := t
  cases n with
  | zero => rfl
  | succ n => exact absurd h (Nat.succ_ne_zero n)

/-- The accumulators after a later point: the point before's plus this block's contribution. -/
theorem accAt_next (c : Dev nD) (t : Fin cfg3.N) (h : t.val ≠ 0) :
    accAt V c t.val t.isLt = (k3_pay4 (idsBlk V c t) (featBlk V c t) (accAt V c (t.val - 1) (Nat.lt_of_le_of_lt (Nat.sub_le _ _) t.isLt)).1,
      k3_pay5 (idsBlk V c t) (accAt V c (t.val - 1) (Nat.lt_of_le_of_lt (Nat.sub_le _ _) t.isLt)).2) := by
  obtain ⟨n, hn⟩ := t
  cases n with
  | zero => exact absurd rfl h
  | succ n => rfl

/-- The result is the final layer over the accumulators after the last point and that point's weight and bias blocks. -/
theorem result_eq (c : Dev nD) (t : Fin cfg3.N) (h : t.val = 99) :
    result V c = k3_pay6 (accAt V c t.val t.isLt).1 (accAt V c t.val t.isLt).2 (wlBlk V c t) (blBlk V c t) := by
  obtain ⟨n, hn⟩ := t
  obtain rfl : n = 99 := h
  rfl

/-! ## The invariant between points -/

/-- The two scratch operands: whole scoped buffers of the kernel's own, passed beside the windows. -/
abbrev sc0 : Memref sig .tc .vmem S512x32 .f32 := Memref.whole cc3_scratch0
abbrev sc1 : Memref sig .tc .vmem S512x1 .f32 := Memref.whole cc3_scratch1

/-- The core's scoped buffers that are neither a staging buffer of this region nor one of its two accumulators (the
    other regions' staging buffers), each at some contents: the body never touches them. -/
def others (c : Dev nD) : sProp 𝕄 :=
  Pipeline.scopedRestBut (Ix := Unit) (Name := ℕ) (U := UR sig nD τ) (Lvl := ℕ) (Val := Elt F) spec3 c [cc3_scratch0, cc3_scratch1]

/-- What the launch hands the region, with the two accumulators split off as memrefs owned at some contents. -/
theorem PhiA_eq (c : Dev nD) :
    (Pipeline.ΦA spec3 c : sProp 𝕄)
      = iprop((((∃ d, owns (c : Thread nD τ) sc0 fullShare d) ∗ (∃ d, owns (c : Thread nD τ) sc1 fullShare d)) ∗ others c) ∗ (∃ r, prngReg c r)) := by
  unfold Pipeline.ΦA others
  rw [Pipeline.scopedRest_split_of_list spec3 c [cc3_scratch0, cc3_scratch1] (by decide) (by decide)]
  simp only [bigSepL_cons_cons, bigSepL_singleton, sc0, sc1, owns_whole]
  try rfl

/-- The invariant before position `n`: before the first point what the launch hands over (the accumulators at
    anything); afterwards the accumulators at what the point before left, the other scoped buffers and the generator
    register untouched. -/
def PhiS (c : Dev nD) : (n : ℕ) → n ≤ cfg3.N → sProp 𝕄
  | 0, _ => Pipeline.ΦA spec3 c
  | n + 1, hn => iprop((((owns (c : Thread nD τ) sc0 fullShare (accAt V c n hn).1) ∗ (owns (c : Thread nD τ) sc1 fullShare (accAt V c n hn).2)) ∗ others c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop((((owns (c : Thread nD τ) sc0 fullShare (accAt V c n hn).1) ∗ (owns (c : Thread nD τ) sc1 fullShare (accAt V c n hn).2)) ∗ others c) ∗ (∃ r, prngReg c r)) := rfl

theorem PhiS_pos (c : Dev nD) (n : ℕ) (h : n ≤ cfg3.N) (hz : n ≠ 0) :
    PhiS V c n h = iprop((((owns (c : Thread nD τ) sc0 fullShare (accAt V c (n - 1) (by omega)).1) ∗ (owns (c : Thread nD τ) sc1 fullShare (accAt V c (n - 1) (by omega)).2)) ∗ others c) ∗ (∃ r, prngReg c r)) := by
  cases n with
  | zero => exact absurd rfl hz
  | succ n => rfl

/-! ## The proof data -/

/-- The region's proof data on core `c`: the arrays are `V`'s; each input window's buffer is left at its block; the
    output window's buffer is `result`, what the last point (the one point that writes it back) stores into it (at the
    earlier points the window is idle, its buffer neither written back nor read, and the value is never consulted); the
    invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => result V c
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = result V c := by dsimp only [dat]

/-- The output window's buffer after the last point (the one point that writes it back). -/
theorem after_4_last (c : Dev nD) (t : Fin cfg3.N) (ht : t.val = 99) : (dat V c).after 4 t = result V c := after_4 V c t

/-- An input window's staging buffer holds its block at every point, whether the point fetched it or the block
    index did not move since the last fetch. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The invariant at a point's start, restated at the point's number. -/
theorem Phi_castSucc (c : Dev nD) (t : Fin cfg3.N) :
    (dat V c).Φ t.castSucc = PhiS V c t.val (Nat.le_of_lt t.isLt) := by
  dsimp only [dat]; simp only [Fin.coe_castSucc]

/-! ## Where the output window is idle -/

/-- The input windows are never idle. -/
theorem live_0 (t : Fin cfg3.N) : cfg3.idle 0 (grid3.coords t) = false := rfl
theorem live_1 (t : Fin cfg3.N) : cfg3.idle 1 (grid3.coords t) = false := rfl
theorem live_2 (t : Fin cfg3.N) : cfg3.idle 2 (grid3.coords t) = false := rfl
theorem live_3 (t : Fin cfg3.N) : cfg3.idle 3 (grid3.coords t) = false := rfl
/-- Before the last point the body stores nothing into the output's buffer, and the pipeline does not write it back; -/
theorem idle_4 : ∀ t : Fin cfg3.N, ¬isLast (grid3.coords t) → cfg3.idle 4 (grid3.coords t) = true :=
  (by decide +kernel : ∀ t : Fin grid3.N, ¬isLast (grid3.coords t) → idle3 4 (grid3.coords t) = true)
theorem noFlush_4 : ∀ t : Fin cfg3.N, ¬isLast (grid3.coords t) → (cfg3.win 4).flush t = false :=
  (by decide +kernel : ∀ t : Fin grid3.N, ¬isLast (grid3.coords t) → win3_4.flush t = false)
/-- at the last point it stores into it. -/
theorem live_4 : ∀ t : Fin cfg3.N, isLast (grid3.coords t) → cfg3.idle 4 (grid3.coords t) = false :=
  (by decide +kernel : ∀ t : Fin grid3.N, isLast (grid3.coords t) → idle3 4 (grid3.coords t) = false)

theorem leaves_0 (c : Dev nD) (t : Fin cfg3.N) : (dat V c).leavesExact 0 t = owns (c : Thread nD τ) (st3_0 t) fullShare (iblk V c 0 t) := by
  unfold Dat.leavesExact; rw [live_0 t, after_0]
theorem leaves_1 (c : Dev nD) (t : Fin cfg3.N) : (dat V c).leavesExact 1 t = owns (c : Thread nD τ) (st3_1 t) fullShare (iblk V c 1 t) := by
  unfold Dat.leavesExact; rw [live_1 t, after_1]
theorem leaves_2 (c : Dev nD) (t : Fin cfg3.N) : (dat V c).leavesExact 2 t = owns (c : Thread nD τ) (st3_2 t) fullShare (iblk V c 2 t) := by
  unfold Dat.leavesExact; rw [live_2 t, after_2]
theorem leaves_3 (c : Dev nD) (t : Fin cfg3.N) : (dat V c).leavesExact 3 t = owns (c : Thread nD τ) (st3_3 t) fullShare (iblk V c 3 t) := by
  unfold Dat.leavesExact; rw [live_3 t, after_3]
theorem leaves_4_last (c : Dev nD) (t : Fin cfg3.N) (h : isLast (grid3.coords t)) :
    (dat V c).leavesExact 4 t = owns (c : Thread nD τ) (st3_4 t) fullShare (result V c) := by
  unfold Dat.leavesExact; rw [live_4 t h, after_4]

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point: the inputs' buffers hold their blocks; the point's number says which case it is in; the
    invariant hands the body the accumulators at what the point before left (at anything at the first point) and takes
    them back at this point's; before the last point the output's buffer goes back as it came, at the last point it
    holds the result. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 100 := lt_of_lt_of_eq t.isLt (show cfg3.N = 100 from N_3)
  by_cases h0 : t.val = 0
  · have hf : isFirst (grid3.coords t) := (isFirst_iff t).mpr h0
    have hl : ¬isLast (grid3.coords t) := fun h => by have := (isLast_iff t).mp h; omega
    rw [Dat.leavesExact_idle (dat V c) 4 t (idle_4 t hl) (noFlush_4 t hl)]
    rw [accAt_first V c t h0]
    dsimp only
    rw [Phi_castSucc V c t, PhiS_zero V c _ _ h0, PhiA_eq]
    iintro ⟨⟨⟨⟨HS0, HS1⟩, Hr⟩, Hg⟩, Ho, ⟨%d0, H0⟩, ⟨%d1, H1⟩, ⟨%d2, H2⟩, ⟨%d3, H3⟩, H4⟩
    iapply (runA c Set.univ _ _ _ _ _ _ _ _ _ _ _ _ _ _ _ hf hl (idsBlk V c t) (featBlk V c t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexact H4
  · have hf : ¬isFirst (grid3.coords t) := fun h => h0 ((isFirst_iff t).mp h)
    rw [Phi_castSucc V c t, PhiS_pos V c _ _ h0]
    by_cases h9 : t.val = 99
    · have hl : isLast (grid3.coords t) := (isLast_iff t).mpr h9
      rw [leaves_4_last V c t hl, result_eq V c t h9, accAt_next V c t h0]
      dsimp only
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (runC c Set.univ _ _ _ _ _ _ _ _ _ _ _ _ _ _ _ hf hl (idsBlk V c t) (featBlk V c t) (wlBlk V c t) (blBlk V c t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · have hl : ¬isLast (grid3.coords t) := fun h => h9 ((isLast_iff t).mp h)
      rw [Dat.leavesExact_idle (dat V c) 4 t (idle_4 t hl) (noFlush_4 t hl)]
      rw [accAt_next V c t h0]
      dsimp only
      iintro ⟨⟨⟨⟨HS0, HS1⟩, Hr⟩, Hg⟩, Ho, ⟨%d0, H0⟩, ⟨%d1, H1⟩, ⟨%d2, H2⟩, ⟨%d3, H3⟩, H4⟩
      iapply (runB c Set.univ _ _ _ _ _ _ _ _ _ _ _ _ _ _ _ hf hl (idsBlk V c t) (featBlk V c t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4

/-- The pipeline library's body obligation, at every point. -/
theorem body_obligation (c : Dev nD) : BodyObligation (dat (F := F) V c) (defs₀ (F := F)) Variants.none () Set.univ := fun t => by
  rw [bigSep_W3, bigSep_W3]
  exact sound_body V c t

/-! ## Into and out of the invariant -/

/-- What the launch hands the region (the scoped buffers no window stages, each at something, and the generator register)
    is the invariant before the first point; -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point the invariant gives that back: what the accumulators hold is forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- and the invariant after the last point gives it back. -/
theorem hout (c : Dev nD) : (dat V c).Φ (Fin.last cfg3.N) ⊢ Pipeline.ΦA spec3 c :=
  Phi_out V c _ (by rw [Fin.val_last]; have : cfg3.N = 100 := N_3; omega)

/-- Nothing is owed to another core at any point, and every share is full (what the region record's side conditions cite). -/
theorem owed_zero (c : Dev nD) (t) : (dat V c).owed t = 0 := by dsimp only [dat]
theorem q_full (c : Dev nD) (w) : (dat V c).q w = fullShare := by dsimp only [dat]

end Cert.Kernel.Pool

end
-- ==== Proof.K.Run.lean ====
/-
  The whole run of the program: the contents of the core's buffers at every boundary between two items of the main
  function — a stretch of host operations rewrites the buffers it writes, a kernel region leaves its output array at what
  its write-backs make of it and every other buffer as it found it — and the launch: every weakly fair execution terminates,
  nothing faults, and every buffer that outlives the kernels ends at the last boundary's contents.
-/
import proofs.«417128_j32650341384807_1_alg».proof.Proof.K.Lin0
import proofs.«417128_j32650341384807_1_alg».proof.Proof.K.Lin1
import proofs.«417128_j32650341384807_1_alg».proof.Proof.K.Lin2
import proofs.«417128_j32650341384807_1_alg».proof.Proof.K.Pool
import proofs.«417128_j32650341384807_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first three stretches of host operations (the edge lists, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references: what region 0 is entered from. -/
abbrev V3 : (c : Dev nD) → (b : Ref sig .tc) → Buf (Elt F) ((c : Thread nD τ).loc b) := fun c b => W3 m c b
/-- After region 0: its arrays at what the pipeline leaves, every other buffer as entered. -/
def W4 (c : Dev nD) : Valuation τ sig (Elt F) :=
  Pipeline.withArrays spec0 c (W3 m c) fun w => (Lin0.dat (V3 m) c).arrAt w cfg0.N
abbrev W5 : Dev nD → Valuation τ sig (Elt F) := fun c => StableHlo.after hostOps1 (W4 m c)
abbrev W6 : Dev nD → Valuation τ sig (Elt F) := fun c => StableHlo.after hostOps1_1 (W5 m c)
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (Lin1.dat (V6 m) c).arrAt w cfg1.N
abbrev W8 : Dev nD → Valuation τ sig (Elt F) := fun c => StableHlo.after hostOps2 (W7 m c)
abbrev W9 : Dev nD → Valuation τ sig (Elt F) := fun c => StableHlo.after hostOps2_1 (W8 m c)
abbrev V9 : (c : Dev nD) → (b : Ref sig .tc) → Buf (Elt F) ((c : Thread nD τ).loc b) := fun c b => W9 m c b
def W10 (c : Dev nD) : Valuation τ sig (Elt F) :=
  Pipeline.withArrays spec2 c (W9 m c) fun w => (Lin2.dat (V9 m) c).arrAt w cfg2.N
abbrev W11 : Dev nD → Valuation τ sig (Elt F) := fun c => StableHlo.after hostOps3 (W10 m c)
abbrev V11 : (c : Dev nD) → (b : Ref sig .tc) → Buf (Elt F) ((c : Thread nD τ).loc b) := fun c b => W11 m c b
def W12 (c : Dev nD) : Valuation τ sig (Elt F) :=
  Pipeline.withArrays spec3 c (W11 m c) fun w => (Pool.dat (V11 m) c).arrAt w cfg3.N

/-! ## What a region changes: its output array only

An input window's array is never written back, so at the region's exit it holds what the region found; the output
window's array holds its write-backs folded over the points; a buffer that is no window's array is not touched. -/

theorem W4_out (c : Dev nD) : W4 m c main_v32 = (Lin0.dat (V3 m) c).arrAt 2 cfg0.N := by
  unfold W4; exact Pipeline.withArrays_arr spec0 launch0.win.arr_inj c _ _ 2
theorem W4_of (c : Dev nD) (b : Ref sig .tc) (hb : b ≠ main_v32) : W4 m c b = W3 m c b := by
  by_cases h0 : b = main_arg0
  · subst h0
    exact ((show W4 m c main_arg0 = (Lin0.dat (V3 m) c).arrAt 0 cfg0.N from by
      unfold W4; exact Pipeline.withArrays_arr spec0 launch0.win.arr_inj c _ _ 0).trans
        ((Lin0.dat (V3 m) c).arrAt_in 0 rfl _)).trans (Lin0.A_eq (V3 m) c 0)
  by_cases h1 : b = main_arg3
  · subst h1
    exact ((show W4 m c main_arg3 = (Lin0.dat (V3 m) c).arrAt 1 cfg0.N from by
      unfold W4; exact Pipeline.withArrays_arr spec0 launch0.win.arr_inj c _ _ 1).trans
        ((Lin0.dat (V3 m) c).arrAt_in 1 rfl _)).trans (Lin0.A_eq (V3 m) c 1)
  unfold W4
  refine Pipeline.withArrays_of_ne spec0 c _ _ b fun w => ?_
  fin_cases w
  · exact fun e => h0 e.symm
  · exact fun e => h1 e.symm
  · exact fun e => hb e.symm
theorem W7_out (c : Dev nD) : W7 m c main_v50 = (Lin1.dat (V6 m) c).arrAt 2 cfg1.N := by
  unfold W7; exact Pipeline.withArrays_arr spec1 launch1.win.arr_inj c _ _ 2
theorem W7_of (c : Dev nD) (b : Ref sig .tc) (hb : b ≠ main_v50) : W7 m c b = W6 m c b := by
  by_cases h0 : b = main_v49
  · subst h0
    exact ((show W7 m c main_v49 = (Lin1.dat (V6 m) c).arrAt 0 cfg1.N from by
      unfold W7; exact Pipeline.withArrays_arr spec1 launch1.win.arr_inj c _ _ 0).trans
        ((Lin1.dat (V6 m) c).arrAt_in 0 rfl _)).trans (Lin1.A_eq (V6 m) c 0)
  by_cases h1 : b = main_arg5
  · subst h1
    exact ((show W7 m c main_arg5 = (Lin1.dat (V6 m) c).arrAt 1 cfg1.N from by
      unfold W7; exact Pipeline.withArrays_arr spec1 launch1.win.arr_inj c _ _ 1).trans
        ((Lin1.dat (V6 m) c).arrAt_in 1 rfl _)).trans (Lin1.A_eq (V6 m) c 1)
  unfold W7
  refine Pipeline.withArrays_of_ne spec1 c _ _ b fun w => ?_
  fin_cases w
  · exact fun e => h0 e.symm
  · exact fun e => h1 e.symm
  · exact fun e => hb e.symm
theorem W10_out (c : Dev nD) : W10 m c main_v68 = (Lin2.dat (V9 m) c).arrAt 2 cfg2.N := by
  unfold W10; exact Pipeline.withArrays_arr spec2 launch2.win.arr_inj c _ _ 2
theorem W10_of (c : Dev nD) (b : Ref sig .tc) (hb : b ≠ main_v68) : W10 m c b = W9 m c b := by
  by_cases h0 : b = main_v67
  · subst h0
    exact ((show W10 m c main_v67 = (Lin2.dat (V9 m) c).arrAt 0 cfg2.N from by
      unfold W10; exact Pipeline.withArrays_arr spec2 launch2.win.arr_inj c _ _ 0).trans
        ((Lin2.dat (V9 m) c).arrAt_in 0 rfl _)).trans (Lin2.A_eq (V9 m) c 0)
  by_cases h1 : b = main_arg7
  · subst h1
    exact ((show W10 m c main_arg7 = (Lin2.dat (V9 m) c).arrAt 1 cfg2.N from by
      unfold W10; exact Pipeline.withArrays_arr spec2 launch2.win.arr_inj c _ _ 1).trans
        ((Lin2.dat (V9 m) c).arrAt_in 1 rfl _)).trans (Lin2.A_eq (V9 m) c 1)
  unfold W10
  refine Pipeline.withArrays_of_ne spec2 c _ _ b fun w => ?_
  fin_cases w
  · exact fun e => h0 e.symm
  · exact fun e => h1 e.symm
  · exact fun e => hb e.symm
theorem W12_out (c : Dev nD) : W12 m c main_v87 = (Pool.dat (V11 m) c).arrAt 4 cfg3.N := by
  unfold W12; exact Pipeline.withArrays_arr spec3 launch3.win.arr_inj c _ _ 4
theorem W12_of (c : Dev nD) (b : Ref sig .tc) (hb : b ≠ main_v87) : W12 m c b = W11 m c b := by
  by_cases h0 : b = main_v85
  · subst h0
    exact ((show W12 m c main_v85 = (Pool.dat (V11 m) c).arrAt 0 cfg3.N from by
      unfold W12; exact Pipeline.withArrays_arr spec3 launch3.win.arr_inj c _ _ 0).trans
        ((Pool.dat (V11 m) c).arrAt_in 0 rfl _)).trans (Pool.A_eq (V11 m) c 0)
  by_cases h1 : b = main_v84
  · subst h1
    exact ((show W12 m c main_v84 = (Pool.dat (V11 m) c).arrAt 1 cfg3.N from by
      unfold W12; exact Pipeline.withArrays_arr spec3 launch3.win.arr_inj c _ _ 1).trans
        ((Pool.dat (V11 m) c).arrAt_in 1 rfl _)).trans (Pool.A_eq (V11 m) c 1)
  by_cases h2 : b = main_arg9
  · subst h2
    exact ((show W12 m c main_arg9 = (Pool.dat (V11 m) c).arrAt 2 cfg3.N from by
      unfold W12; exact Pipeline.withArrays_arr spec3 launch3.win.arr_inj c _ _ 2).trans
        ((Pool.dat (V11 m) c).arrAt_in 2 rfl _)).trans (Pool.A_eq (V11 m) c 2)
  by_cases h3 : b = main_v86
  · subst h3
    exact ((show W12 m c main_v86 = (Pool.dat (V11 m) c).arrAt 3 cfg3.N from by
      unfold W12; exact Pipeline.withArrays_arr spec3 launch3.win.arr_inj c _ _ 3).trans
        ((Pool.dat (V11 m) c).arrAt_in 3 rfl _)).trans (Pool.A_eq (V11 m) c 3)
  unfold W12
  refine Pipeline.withArrays_of_ne spec3 c _ _ b fun w => ?_
  fin_cases w
  · exact fun e => h0 e.symm
  · exact fun e => h1 e.symm
  · exact fun e => h2 e.symm
  · exact fun e => h3 e.symm
  · exact fun e => hb e.symm

/-- A buffer no stretch of host operations writes and no region puts out reaches the end as launched. -/
theorem W12_launch (c : Dev nD) (b : Ref sig .tc)
    (h0 : b ∉ hostOps0_W) (h0_1 : b ∉ hostOps0_1_W) (h0_2 : b ∉ hostOps0_2_W) (hr0 : b ≠ main_v32)
    (h1 : b ∉ hostOps1_W) (h1_1 : b ∉ hostOps1_1_W) (hr1 : b ≠ main_v50)
    (h2 : b ∉ hostOps2_W) (h2_1 : b ∉ hostOps2_1_W) (hr2 : b ≠ main_v68)
    (h3 : b ∉ hostOps3_W) (hr3 : b ≠ main_v87) :
    W12 m c b = m ((c.tc : Thread nD τ).loc b) :=
  calc W12 m c b
    _ = W11 m c b := W12_of m c b hr3
    _ = W10 m c b := StableHlo.after_of_writes_sub hostOps3 _ hostOps3_writes h3
    _ = W9 m c b := W10_of m c b hr2
    _ = W8 m c b := StableHlo.after_of_writes_sub hostOps2_1 _ hostOps2_1_writes h2_1
    _ = W7 m c b := StableHlo.after_of_writes_sub hostOps2 _ hostOps2_writes h2
    _ = W6 m c b := W7_of m c b hr1
    _ = W5 m c b := StableHlo.after_of_writes_sub hostOps1_1 _ hostOps1_1_writes h1_1
    _ = W4 m c b := StableHlo.after_of_writes_sub hostOps1 _ hostOps1_writes h1
    _ = W3 m c b := W4_of m c b hr0
    _ = W2 m c b := StableHlo.after_of_writes_sub hostOps0_2 _ hostOps0_2_writes h0_2
    _ = W1 m c b := StableHlo.after_of_writes_sub hostOps0_1 _ hostOps0_1_writes h0_1
    _ = W0 m c b := StableHlo.after_of_writes_sub hostOps0 _ hostOps0_writes h0
    _ = m ((c.tc : Thread nD τ).loc b) := rfl

/-- No item writes an argument: each ends as launched. -/
theorem W12_arg (c : Dev nD) (b : Ref sig .tc)
    (hb : b ∈ ([main_arg0, main_arg1, main_arg2, main_arg3, main_arg4, main_arg5, main_arg6, main_arg7, main_arg8, main_arg9, main_arg10] : List (Ref sig .tc))) :
    W12 m c b = m ((c.tc : Thread nD τ).loc b) := by
  simp only [List.mem_cons, List.not_mem_nil, or_false] at hb
  rcases hb with rfl | rfl | rfl | rfl | rfl | rfl | rfl | rfl | rfl | rfl | rfl
  all_goals (apply W12_launch <;> decide)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data and the thread state -/

/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => Lin0.dat (V3 m) c
  | ⟨1, _⟩ => fun c => Lin1.dat (V6 m) c
  | ⟨2, _⟩ => fun c => Lin2.dat (V9 m) c
  | ⟨3, _⟩ => fun c => Pool.dat (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along: it
    ends with those references at the contents the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

/-! ## The regions as segments -/

/-- At region 0's exit each of its arrays holds what the pipeline leaves, and every other buffer what it held at entry. -/
theorem hF0 (c : Dev nD) (w : Fin cfg0.W) : (Lin0.dat (V3 m) c).arrAt w cfg0.N = W4 m c (Pipeline.arrRef spec0 w) := by
  unfold W4; exact (Pipeline.withArrays_arr spec0 launch0.win.arr_inj c (W3 m c) (fun w => (Lin0.dat (V3 m) c).arrAt w cfg0.N) w).symm
theorem hrest0 (c : Dev nD) : ∀ b : Ref sig .tc, b ∉ Finset.univ.image (Pipeline.arrRef spec0) → W4 m c b = W3 m c b :=
  fun b hb => by
    unfold W4
    exact Pipeline.withArrays_of_ne spec0 c _ _ b fun w e => hb (Finset.mem_image.mpr ⟨w, Finset.mem_univ _, e⟩)

set_option backward.isDefEq.respectTransparency.types false in
/-- Region 0 over the thread state: entered from every unscoped buffer at the contents before it, left at those after it.
    Its arrays are split out of the unscoped buffers and put back at the exit contents; the generator register goes into
    the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) (Lin0.A_eq (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves, and every other buffer what it held at entry. -/
theorem hF1 (c : Dev nD) (w : Fin cfg1.W) : (Lin1.dat (V6 m) c).arrAt w cfg1.N = W7 m c (Pipeline.arrRef spec1 w) := by
  unfold W7; exact (Pipeline.withArrays_arr spec1 launch1.win.arr_inj c (W6 m c) (fun w => (Lin1.dat (V6 m) c).arrAt w cfg1.N) w).symm
theorem hrest1 (c : Dev nD) : ∀ b : Ref sig .tc, b ∉ Finset.univ.image (Pipeline.arrRef spec1) → W7 m c b = W6 m c b :=
  fun b hb => by
    unfold W7
    exact Pipeline.withArrays_of_ne spec1 c _ _ b fun w e => hb (Finset.mem_image.mpr ⟨w, Finset.mem_univ _, e⟩)

set_option backward.isDefEq.respectTransparency.types false in
/-- Region 1 over the thread state: entered from every unscoped buffer at the contents before it, left at those after it.
    Its arrays are split out of the unscoped buffers and put back at the exit contents; the generator register goes into
    the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) (Lin1.A_eq (V6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (fun b => W7 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves, and every other buffer what it held at entry. -/
theorem hF2 (c : Dev nD) (w : Fin cfg2.W) : (Lin2.dat (V9 m) c).arrAt w cfg2.N = W10 m c (Pipeline.arrRef spec2 w) := by
  unfold W10; exact (Pipeline.withArrays_arr spec2 launch2.win.arr_inj c (W9 m c) (fun w => (Lin2.dat (V9 m) c).arrAt w cfg2.N) w).symm
theorem hrest2 (c : Dev nD) : ∀ b : Ref sig .tc, b ∉ Finset.univ.image (Pipeline.arrRef spec2) → W10 m c b = W9 m c b :=
  fun b hb => by
    unfold W10
    exact Pipeline.withArrays_of_ne spec2 c _ _ b fun w e => hb (Finset.mem_image.mpr ⟨w, Finset.mem_univ _, e⟩)

set_option backward.isDefEq.respectTransparency.types false in
/-- Region 2 over the thread state: entered from every unscoped buffer at the contents before it, left at those after it.
    Its arrays are split out of the unscoped buffers and put back at the exit contents; the generator register goes into
    the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) (Lin2.A_eq (V9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (fun b => W10 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves, and every other buffer what it held at entry. -/
theorem hF3 (c : Dev nD) (w : Fin cfg3.W) : (Pool.dat (V11 m) c).arrAt w cfg3.N = W12 m c (Pipeline.arrRef spec3 w) := by
  unfold W12; exact (Pipeline.withArrays_arr spec3 launch3.win.arr_inj c (W11 m c) (fun w => (Pool.dat (V11 m) c).arrAt w cfg3.N) w).symm
theorem hrest3 (c : Dev nD) : ∀ b : Ref sig .tc, b ∉ Finset.univ.image (Pipeline.arrRef spec3) → W12 m c b = W11 m c b :=
  fun b hb => by
    unfold W12
    exact Pipeline.withArrays_of_ne spec3 c _ _ b fun w e => hb (Finset.mem_image.mpr ⟨w, Finset.mem_univ _, e⟩)

set_option backward.isDefEq.respectTransparency.types false in
/-- Region 3 over the thread state: entered from every unscoped buffer at the contents before it, left at those after it.
    Its arrays are split out of the unscoped buffers and put back at the exit contents; the generator register goes into
    the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Pool.body_obligation (V11 m) c).loose
  hwaits := Pipeline.hwaits_of_owed_zero _ _ _ _ L lv 3 fun c t => Pool.owed_zero (V11 m) c t
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := Pipeline.arrays_of_unscopedBufs (p := 3) (pcfgs (F := F)) adm (pdats m) launch3.win launch3.arr_whole c
      ((pdats m 3 c).share_full (Pool.q_full (V11 m) c)) (V11 m c) (Pool.A_eq (V11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Pool.hin (V11 m) c)
    unfold Pipeline.ΦA
    iintro ⟨Hp, -, Hr⟩
    isplitl [Hr]; · iexact Hr
    iexact Hp
  hout c := by
    rw [Pipeline.ownSems0_none]
    refine (Pool.hout (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full (Pool.q_full (V11 m) c))
      (V11 m c) (fun b => W12 m c b) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

/-- The main function's 12 items in order: a host segment per stretch of host operations, entered from the contents at its
    boundary, and a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)),
    .region (reg3 m) ]

/-- The segments' programs are the main function's items. -/
theorem segs_prog : (segs m).map Pipeline.Seg.prog = [
    StableHlo.seq hostOps0,
    StableHlo.seq hostOps0_1,
    StableHlo.seq hostOps0_2,
    Prog.lift (.customCall (Pipeline.entry 0) ()),
    StableHlo.seq hostOps1,
    StableHlo.seq hostOps1_1,
    Prog.lift (.customCall (Pipeline.entry 1) ()),
    StableHlo.seq hostOps2,
    StableHlo.seq hostOps2_1,
    Prog.lift (.customCall (Pipeline.entry 2) ()),
    StableHlo.seq hostOps3,
    Prog.lift (.customCall (Pipeline.entry 3) ()) ] := rfl

/-- The main function is the run of the segments. -/
theorem main_run (c : Dev nD) : main (F := F) c = Pipeline.Seg.run (segs m) := by
  rw [main_chain c, Pipeline.Seg.run_eq_chain, segs_prog]

set_option backward.isDefEq.respectTransparency.types false in
/-- From any memory with zero counters every weakly fair execution of the main function terminates, nothing faulting, and
    every buffer that outlives the kernels ends at the last boundary's contents. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun _ h => h)

end Cert.Kernel.Run

end
-- ==== Proof.KI.Lin0.lean ====
/-
  The first dense layer's matrix product as a pipelined kernel region: 25 grid points, each of which takes a
  4000-row block of the activations and the whole 128 x 32 weight matrix and leaves the block's product in the
  output's staging buffer.  Stated at a PARAMETER `V`, the contents of the core's buffers when the region is
  entered: each window's block at a point is a read of `V`; what the body leaves in the output's buffer is the
  one store's payload over the two input blocks; the region's proof data, and the obligation that the body run
  from those blocks leaves exactly that.
-/
import proofs.«417128_j32650341384807_1_alg».proof.Proof.Gen.KernelIdeal.Launch
import proofs.«417128_j32650341384807_1_alg».proof.Proof.Gen.KernelIdeal.Skeleton
import proofs.«417128_j32650341384807_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shapes of the activations' block, of the weight matrix and of the output's block. -/
abbrev SX : Shape := S4000x128
abbrev SW : Shape := S128x32
abbrev SO : Shape := S4000x32

variable (V : (c : Dev nD) → (b : Ref sig .tc) → Buf (Elt F) ((c : Thread nD τ).loc b))

/-- Window `w`'s block at grid point `t`: the rows `4000 t … 4000 t + 3999` of the activations (window 0), the
    whole weight matrix (window 1), read off the arrays as the region finds them. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or the block
    index did not move since the last fetch. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect SX := Rect.unit (s := SX) ![0, 0] SX.size inb_S4000x128_S4000x128_0_0
abbrev rW : Rect SW := Rect.unit (s := SW) ![0, 0] SW.size inb_S128x32_S128x32_0_0
abbrev rO : Rect SO := Rect.unit (s := SO) ![0, 0] SO.size inb_S4000x32_S4000x32_0_0

/-- What the body leaves in the output's staging buffer: its one whole-buffer store of the product of the two
    loaded blocks. -/
def out2 (x0 : Vec F SX .f32) (x1 : Vec F SW .f32) : Vec F SO .f32 :=
  View.canon [⟨rO, k0_pay1 (View.ld x0 rX) (View.ld x1 rW)⟩]

/-- The one store covers the buffer. -/
theorem cover2 (p0 : Vec F SO .f32) (y : SO.Idx) :
    ∃ pc ∈ ([⟨rO, p0⟩] : List (View.Piece (Elt F) SO .f32)), y ∈ pc.1.set :=
  View.cover_of_tiled [⟨rO, p0⟩] SO.size (by rfl) y

set_option maxHeartbeats 1000000 in
/-- The body on whole staging buffers, the inputs' at `x0`, `x1` and the output's at anything, runs to its return
    with the inputs' buffers as they were and the output's at `out2 x0 x1`. -/
theorem sound_kernel (c : Dev nD) (E : Set ℕ) (i : grid0.Coords) (arg1 : Memref sig .tc .vmem SX .f32) (harg1 : arg1.IsWhole)
    (arg2 : Memref sig .tc .vmem SW .f32) (harg2 : arg2.IsWhole) (arg3 : Memref sig .tc .vmem SO .f32) (harg3 : arg3.IsWhole)
    (x0 : Vec F SX .f32) (x1 : Vec F SW .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at point `t` each
    input's buffer still at its block and the output's at the product of the two blocks; the invariant the scoped
    buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Lin0

end
-- ==== Proof.KI.Lin1.lean ====
/-
  The second dense layer's matrix product as a pipelined kernel region: 25 grid points, each of which takes a
  4000-row block of the activations and the whole 32 x 32 weight matrix and leaves the block's product in the
  output's staging buffer.  Stated at a PARAMETER `V`, the contents of the core's buffers when the region is
  entered: each window's block at a point is a read of `V`; what the body leaves in the output's buffer is the
  one store's payload over the two input blocks; the region's proof data, and the obligation that the body run
  from those blocks leaves exactly that.
-/
import proofs.«417128_j32650341384807_1_alg».proof.Proof.Gen.KernelIdeal.Launch
import proofs.«417128_j32650341384807_1_alg».proof.Proof.Gen.KernelIdeal.Skeleton
import proofs.«417128_j32650341384807_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shapes of the activations' block, of the weight matrix and of the output's block. -/
abbrev SX : Shape := S4000x32
abbrev SW : Shape := S32x32
abbrev SO : Shape := S4000x32

variable (V : (c : Dev nD) → (b : Ref sig .tc) → Buf (Elt F) ((c : Thread nD τ).loc b))

/-- Window `w`'s block at grid point `t`: the rows `4000 t … 4000 t + 3999` of the activations (window 0), the
    whole weight matrix (window 1), read off the arrays as the region finds them. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or the block
    index did not move since the last fetch. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect SX := Rect.unit (s := SX) ![0, 0] SX.size inb_S4000x32_S4000x32_0_0
abbrev rW : Rect SW := Rect.unit (s := SW) ![0, 0] SW.size inb_S32x32_S32x32_0_0
abbrev rO : Rect SO := Rect.unit (s := SO) ![0, 0] SO.size inb_S4000x32_S4000x32_0_0

/-- What the body leaves in the output's staging buffer: its one whole-buffer store of the product of the two
    loaded blocks. -/
def out2 (x0 : Vec F SX .f32) (x1 : Vec F SW .f32) : Vec F SO .f32 :=
  View.canon [⟨rO, k1_pay1 (View.ld x0 rX) (View.ld x1 rW)⟩]

/-- The one store covers the buffer. -/
theorem cover2 (p0 : Vec F SO .f32) (y : SO.Idx) :
    ∃ pc ∈ ([⟨rO, p0⟩] : List (View.Piece (Elt F) SO .f32)), y ∈ pc.1.set :=
  View.cover_of_tiled [⟨rO, p0⟩] SO.size (by rfl) y

set_option maxHeartbeats 1000000 in
/-- The body on whole staging buffers, the inputs' at `x0`, `x1` and the output's at anything, runs to its return
    with the inputs' buffers as they were and the output's at `out2 x0 x1`. -/
theorem sound_kernel (c : Dev nD) (E : Set ℕ) (i : grid1.Coords) (arg1 : Memref sig .tc .vmem SX .f32) (harg1 : arg1.IsWhole)
    (arg2 : Memref sig .tc .vmem SW .f32) (harg2 : arg2.IsWhole) (arg3 : Memref sig .tc .vmem SO .f32) (harg3 : arg3.IsWhole)
    (x0 : Vec F SX .f32) (x1 : Vec F SW .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at point `t` each
    input's buffer still at its block and the output's at the product of the two blocks; the invariant the scoped
    buffers no window stages and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out2 (iblk V c 0 t) (iblk V c 1 t) := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Lin1

end
-- ==== Proof.KI.Lin2.lean ====
/-
  The third dense layer's matrix product as a pipelined kernel region: 25 grid points, each of which takes a
  4000-row block of the activations and the whole 32 x 32 weight matrix and leaves the block's product in the
  output's staging buffer.  Stated at a PARAMETER `V`, the contents of the core's buffers when the region is
  entered: each window's block at a point is a read of `V`; what the body leaves in the output's buffer is the
  one store's payload over the two input blocks; the region's proof data, and the obligation that the body run
  from those blocks leaves exactly that.
-/
import proofs.«417128_j32650341384807_1_alg».proof.Proof.Gen.KernelIdeal.Launch
import proofs.«417128_j32650341384807_1_alg».proof.Proof.Gen.KernelIdeal.Skeleton
import proofs.«417128_j32650341384807_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shapes of the activations' block, of the weight matrix and of the output's block. -/
abbrev SX : Shape := S4000x32
abbrev SW : Shape := S32x32
abbrev SO : Shape := S4000x32

variable (V : (c : Dev nD) → (b : Ref sig .tc) → Buf (Elt F) ((c : Thread nD τ).loc b))

/-- Window `w`'s block at grid point `t`: the rows `4000 t … 4000 t + 3999` of the activations (window 0), the
    whole weight matrix (window 1), read off the arrays as the region finds them. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or the block
    index did not move since the last fetch. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rX : Rect SX := Rect.unit (s := SX) ![0, 0] SX.size inb_S4000x32_S4000x32_0_0
abbrev rW : Rect SW := Rect.unit (s := SW) ![0, 0] SW.size inb_S32x32_S32x32_0_0
abbrev rO : Rect SO := Rect.unit (s := SO) ![0, 0] SO.size inb_S4000x32_S4000x32_0_0

/-- What the body leaves in the output's staging buffer: its one whole-buffer store of the product of the two
    loaded blocks. -/
def out2 (x0 : Vec F SX .f32) (x1 : Vec F SW .f32) : Vec F SO .f32 :=
  View.canon [⟨rO, k2_pay1 (View.ld x0 rX) (View.ld x1 rW)⟩]

/-- The one store covers the buffer. -/
theorem cover2 (p0 : Vec F SO .f32) (y : SO.Idx) :
    ∃ pc ∈ ([⟨rO, p0⟩] : List (View.Piece (Elt F) SO .f32)), y ∈ pc.1.set :=
  View.cover_of_tiled [⟨rO, p0⟩] SO.size (by rfl) y

set_option maxHeartbeats 1000000 in
/-- The body on whole staging buffers, the inputs' at `x0`, `x1` and the output's at anything, runs to its return
    with the inputs' buffers as they were and the output's at `out2 x0 x1`. -/
theorem sound_kernel (c : Dev nD) (E : Set ℕ) (i : grid2.Coords) (arg1 : Memref sig .tc .vmem SX .f32) (harg1 : arg1.IsWhole)
    (arg2 : Memref sig .tc .vmem SW .f32) (harg2 : arg2.IsWhole) (arg3 : Memref sig .tc .vmem SO .f32) (harg3 : arg3.IsWhole)
    (x0 : Vec F SX .f32) (x1 : Vec F SW .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at point `t` each
    input's buffer still at its block and the output's at the product of the two blocks; the invariant the scoped
    buffers no window stages and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out2 (iblk V c 0 t) (iblk V c 1 t) := by dsimp only [dat]

theorem before_0 (c : Dev nD) (t : Fin cfg2.N) (d) : (dat V c).before 0 t d = iblk V c 0 t :=
  before0_of V (dat V c) (A_eq V c 0) (after_0 V c) t d
theorem before_1 (c : Dev nD) (t : Fin cfg2.N) (d) : (dat V c).before 1 t d = iblk V c 1 t :=
  before1_of V (dat V c) (A_eq V c 1) (after_1 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Lin2

end
-- ==== Proof.KI.Pool.lean ====
/-
  The pooling region: 100 grid points, each of which takes a 1000-row block of the graph ids and of the node
  features, adds the block's per-graph feature sums and node counts into two scratch accumulators (cleared at the
  first point), and at the last point divides, applies the final linear layer and stores the result.
  Stated at a PARAMETER `V`, the contents of the core's buffers when the region is entered.
-/
import proofs.«417128_j32650341384807_1_alg».proof.Proof.Gen.KernelIdeal.Launch
import proofs.«417128_j32650341384807_1_alg».proof.Proof.Gen.KernelIdeal.Skeleton
import proofs.«417128_j32650341384807_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

/-- The zero offsets of a whole-buffer rectangle, however spelt. -/
theorem hz : (![0, 0] : Fin 2 → Nat) = fun _ => 0 := funext fun a => by fin_cases a <;> rfl

/-- A whole-buffer store leaves its payload, whatever the buffer held and whatever was stored before it. -/
theorem read_store_whole {sp : Space} {S : Shape} {e : EltTy} (v : View sig .tc sp S e) (g : v.ty.Contents (Elt F))
    {off : Fin S.rank → Nat} (h0 : off = fun _ => 0) (inb : ∀ a, off a + S.size a ≤ S.size a) (w : S.Idx → Elt F e)
    (L : List (View.Piece (Elt F) S e)) :
    v.read (Elt F) (v.writes (Elt F) g (⟨Rect.unit off S.size inb, w⟩ :: L)) = w := by
  rw [View.read_writes_eq_canon _ _ _ (fun y => ⟨_, List.mem_cons_self, View.mem_set_unit_zero h0 inb y⟩),
    View.canon_cons_unit_zero h0]

/-- A whole-buffer load reads the buffer's contents. -/
theorem readAt_whole {sp : Space} {S : Shape} {e : EltTy} (v : View sig .tc sp S e) (g : v.ty.Contents (Elt F))
    {off : Fin S.rank → Nat} (h0 : off = fun _ => 0) (inb : ∀ a, off a + S.size a ≤ S.size a) :
    v.readAt (Elt F) (Rect.unit off S.size inb).toLoadRect g = v.read (Elt F) g := by
  rw [View.readAt_eq_ld]; exact View.ld_unit_zero h0 inb _

/-! ## The body's two conditionals on the grid point -/

/-- The first conditional of the body: the grid point is the first. -/
abbrev isFirst (i : grid3.Coords) : Prop :=
  (Scalar.cmpi .ne (Scalar.extui (Scalar.cmpi .eq (BitVec.ofNat 32 (i 0).val) 0#32)) 0#32) = 1#1
/-- The second: the grid point is the last. -/
abbrev isLast (i : grid3.Coords) : Prop := k3_cond2 i = 1#1

theorem isFirst_iff : ∀ t : Fin cfg3.N, isFirst (grid3.coords t) ↔ t.val = 0 :=
  (by decide +kernel : ∀ t : Fin grid3.N, isFirst (grid3.coords t) ↔ t.val = 0)
theorem isLast_iff : ∀ t : Fin cfg3.N, isLast (grid3.coords t) ↔ t.val = 99 :=
  (by decide +kernel : ∀ t : Fin grid3.N, isLast (grid3.coords t) ↔ t.val = 99)

/-! ## The body on whole buffers, case by case

Three cases meet the grid: the first point (both accumulators cleared, then the block added), a middle point (the block
added), the last point (the block added, then the final layer over the finished accumulators stored into the output's
buffer). Every load and store is of a whole buffer, so a store leaves its payload and a later load reads it. -/

set_option maxHeartbeats 2000000 in
/-- A middle point: the inputs' buffers as they were, each accumulator at itself plus the block's contribution. -/
theorem runB (c : Dev nD) (E : Set ℕ) (i : grid3.Coords)
    (a1 : Memref sig .tc .vmem S1000x1 .i32) (h1 : a1.IsWhole) (a2 : Memref sig .tc .vmem S1000x32 .f32) (h2 : a2.IsWhole)
    (a3 : Memref sig .tc .vmem S32x10 .f32) (h3 : a3.IsWhole) (a4 : Memref sig .tc .vmem S1x10 .f32) (h4 : a4.IsWhole)
    (a5 : Memref sig .tc .vmem S512x10 .f32) (h5 : a5.IsWhole) (a6 : Memref sig .tc .vmem S512x32 .f32) (h6 : a6.IsWhole)
    (a7 : Memref sig .tc .vmem S512x1 .f32) (h7 : a7.IsWhole) (hc0 : ¬isFirst i) (hc1 : ¬isLast i)
    (x0 : Vec F S1000x1 .i32) (x1 : Vec F S1000x32 .f32) (s0 : Vec F S512x32 .f32) (s1 : Vec F S512x1 .f32)
    (K : PUnit → sProp 𝕄) :
    iprop(owns (c : Thread nD τ) a1 fullShare x0 ∗ owns (c : Thread nD τ) a2 fullShare x1
        ∗ owns (c : Thread nD τ) a6 fullShare s0 ∗ owns (c : Thread nD τ) a7 fullShare s1
        ∗ (iprop(owns (c : Thread nD τ) a1 fullShare x0 ∗ owns (c : Thread nD τ) a2 fullShare x1
            ∗ owns (c : Thread nD τ) a6 fullShare (k3_pay4 x0 x1 s0) ∗ owns (c : Thread nD τ) a7 fullShare (k3_pay5 x0 s1)) -∗ K ⟨⟩))
      ⊢ wp frame (wpE (defs₀ (F := F)) Variants.none c none) E (cc3__pool_kernel i a1 h1 a2 h2 a3 h3 a4 h4 a5 h5 a6 h6 a7 h7) K := by
  simp only [cc3__pool_kernel_eq_skeleton]; unfold cc3__pool_kernel_skel
  unfold owns
  iintro ⟨⟨%f0, %hf0, H0⟩, ⟨%f1, %hf1, H1⟩, ⟨%g0, %hg0, S0⟩, ⟨%g1, %hg1, S1⟩, Hk⟩
  subst hf0
  subst hf1
  subst hg0
  subst hg1
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    sl_unfold_run_names
    refine (read_store_whole _ _ hz _ _ _).trans ?_
    simp only [readAt_whole (S := S1000x1) _ _ hz, readAt_whole (S := S1000x32) _ _ hz, readAt_whole (S := S512x32) _ _ hz,
      View.readCov_unit_zero (S := S512x32) _ hz]
  iexists _; isplitr
  swap; · iexact S1
  ipureintro
  sl_unfold_run_names
  refine (read_store_whole _ _ hz _ _ _).trans ?_
  simp only [readAt_whole (S := S1000x1) _ _ hz, readAt_whole (S := S512x1) _ _ hz, View.readCov_unit_zero (S := S512x1) _ hz]

set_option maxHeartbeats 2000000 in
/-- The first point: whatever the accumulators held, they end at the cleared buffers plus the block's contribution. -/
theorem runA (c : Dev nD) (E : Set ℕ) (i : grid3.Coords)
    (a1 : Memref sig .tc .vmem S1000x1 .i32) (h1 : a1.IsWhole) (a2 : Memref sig .tc .vmem S1000x32 .f32) (h2 : a2.IsWhole)
    (a3 : Memref sig .tc .vmem S32x10 .f32) (h3 : a3.IsWhole) (a4 : Memref sig .tc .vmem S1x10 .f32) (h4 : a4.IsWhole)
    (a5 : Memref sig .tc .vmem S512x10 .f32) (h5 : a5.IsWhole) (a6 : Memref sig .tc .vmem S512x32 .f32) (h6 : a6.IsWhole)
    (a7 : Memref sig .tc .vmem S512x1 .f32) (h7 : a7.IsWhole) (hc0 : isFirst i) (hc1 : ¬isLast i)
    (x0 : Vec F S1000x1 .i32) (x1 : Vec F S1000x32 .f32)
    (K : PUnit → sProp 𝕄) :
    iprop(owns (c : Thread nD τ) a1 fullShare x0 ∗ owns (c : Thread nD τ) a2 fullShare x1
        ∗ (∃ d, owns (c : Thread nD τ) a6 fullShare d) ∗ (∃ d, owns (c : Thread nD τ) a7 fullShare d)
        ∗ (iprop(owns (c : Thread nD τ) a1 fullShare x0 ∗ owns (c : Thread nD τ) a2 fullShare x1
            ∗ owns (c : Thread nD τ) a6 fullShare (k3_pay4 x0 x1 (k3_pay1 (F := F))) ∗ owns (c : Thread nD τ) a7 fullShare (k3_pay5 x0 (k3_pay2 (F := F)))) -∗ K ⟨⟩))
      ⊢ wp frame (wpE (defs₀ (F := F)) Variants.none c none) E (cc3__pool_kernel i a1 h1 a2 h2 a3 h3 a4 h4 a5 h5 a6 h6 a7 h7) K := by
  simp only [cc3__pool_kernel_eq_skeleton]; unfold cc3__pool_kernel_skel
  unfold owns
  iintro ⟨⟨%f0, %hf0, H0⟩, ⟨%f1, %hf1, H1⟩, ⟨%d0, %g0, -, S0⟩, ⟨%d1, %g1, -, S1⟩, Hk⟩
  subst hf0
  subst hf1
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    sl_unfold_run_names
    refine (read_store_whole _ _ hz _ _ _).trans ?_
    simp only [readAt_whole (S := S1000x1) _ _ hz, readAt_whole (S := S1000x32) _ _ hz, readAt_whole (S := S512x32) _ _ hz,
      View.readCov_unit_zero (S := S512x32) _ hz]
  iexists _; isplitr
  swap; · iexact S1
  ipureintro
  sl_unfold_run_names
  refine (read_store_whole _ _ hz _ _ _).trans ?_
  simp only [readAt_whole (S := S1000x1) _ _ hz, readAt_whole (S := S512x1) _ _ hz, View.readCov_unit_zero (S := S512x1) _ hz]

set_option maxHeartbeats 2000000 in
/-- The last point: as a middle point, and the output's buffer at the final layer over the UPDATED accumulators. -/
theorem runC (c : Dev nD) (E : Set ℕ) (i : grid3.Coords)
    (a1 : Memref sig .tc .vmem S1000x1 .i32) (h1 : a1.IsWhole) (a2 : Memref sig .tc .vmem S1000x32 .f32) (h2 : a2.IsWhole)
    (a3 : Memref sig .tc .vmem S32x10 .f32) (h3 : a3.IsWhole) (a4 : Memref sig .tc .vmem S1x10 .f32) (h4 : a4.IsWhole)
    (a5 : Memref sig .tc .vmem S512x10 .f32) (h5 : a5.IsWhole) (a6 : Memref sig .tc .vmem S512x32 .f32) (h6 : a6.IsWhole)
    (a7 : Memref sig .tc .vmem S512x1 .f32) (h7 : a7.IsWhole) (hc0 : ¬isFirst i) (hc1 : isLast i)
    (x0 : Vec F S1000x1 .i32) (x1 : Vec F S1000x32 .f32) (x2 : Vec F S32x10 .f32) (x3 : Vec F S1x10 .f32)
    (s0 : Vec F S512x32 .f32) (s1 : Vec F S512x1 .f32)
    (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ owns (c : Thread nD τ) a6 fullShare s0 ∗ owns (c : Thread nD τ) a7 fullShare s1
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (k3_pay6 (k3_pay4 x0 x1 s0) (k3_pay5 x0 s1) x2 x3)
            ∗ owns (c : Thread nD τ) a6 fullShare (k3_pay4 x0 x1 s0) ∗ owns (c : Thread nD τ) a7 fullShare (k3_pay5 x0 s1)) -∗ K ⟨⟩))
      ⊢ wp frame (wpE (defs₀ (F := F)) Variants.none c none) E (cc3__pool_kernel i a1 h1 a2 h2 a3 h3 a4 h4 a5 h5 a6 h6 a7 h7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, Hk⟩
  subst hf0
  subst hf1
  subst hf2
  subst hf3
  subst hg0
  subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_store_whole _ _ hz _ _ _).trans ?_
    simp only [readAt_whole (S := S1000x1) _ _ hz, readAt_whole (S := S1000x32) _ _ hz, readAt_whole (S := S512x32) _ _ hz,
      readAt_whole (S := S512x1) _ _ hz, readAt_whole (S := S32x10) _ _ hz, readAt_whole (S := S1x10) _ _ hz,
      View.readCov_unit_zero (S := S512x32) _ hz, View.readCov_unit_zero (S := S512x1) _ hz]
  isplitl [S0]
  · iexists _; isplitr
    swap; · iexact S0
    ipureintro
    sl_unfold_run_names
    refine (read_store_whole _ _ hz _ _ _).trans ?_
    simp only [readAt_whole (S := S1000x1) _ _ hz, readAt_whole (S := S1000x32) _ _ hz, readAt_whole (S := S512x32) _ _ hz]
  iexists _; isplitr
  swap; · iexact S1
  ipureintro
  sl_unfold_run_names
  refine (read_store_whole _ _ hz _ _ _).trans ?_
  simp only [readAt_whole (S := S1000x1) _ _ hz, readAt_whole (S := S512x1) _ _ hz]

/-! ## The region's blocks, accumulators and result -/

variable (V : (c : Dev nD) → (b : Ref sig .tc) → Buf (Elt F) ((c : Thread nD τ).loc b))

/-- Window `w`'s block at grid point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input blocks at point `t` at their literal types: 1000 graph ids, 1000 feature rows, the final layer's weights and bias. -/
abbrev idsBlk (c : Dev nD) (t : Fin cfg3.N) : Vec F S1000x1 .i32 := iblk V c 0 t
abbrev featBlk (c : Dev nD) (t : Fin cfg3.N) : Vec F S1000x32 .f32 := iblk V c 1 t
abbrev wlBlk (c : Dev nD) (t : Fin cfg3.N) : Vec F S32x10 .f32 := iblk V c 2 t
abbrev blBlk (c : Dev nD) (t : Fin cfg3.N) : Vec F S1x10 .f32 := iblk V c 3 t

/-- THE ACCUMULATION: the two scratch buffers (feature sums, node counts) after the body at point `n`: at the first
    point the cleared buffers plus the first block's contribution, afterwards the point before's plus this block's. -/
def accAt (c : Dev nD) : (n : ℕ) → n < cfg3.N → Vec F S512x32 .f32 × Vec F S512x1 .f32
  | 0, h => (k3_pay4 (idsBlk V c ⟨0, h⟩) (featBlk V c ⟨0, h⟩) (k3_pay1 (F := F)), k3_pay5 (idsBlk V c ⟨0, h⟩) (k3_pay2 (F := F)))
  | n + 1, h => (k3_pay4 (idsBlk V c ⟨n + 1, h⟩) (featBlk V c ⟨n + 1, h⟩) (accAt c n (Nat.lt_of_succ_lt h)).1,
      k3_pay5 (idsBlk V c ⟨n + 1, h⟩) (accAt c n (Nat.lt_of_succ_lt h)).2)

/-- What the last point stores into the output's staging buffer: the final layer over the finished accumulators. -/
def result (c : Dev nD) : Vec F S512x10 .f32 :=
  k3_pay6 (accAt V c 99 (by rw [show cfg3.N = 100 from N_3]; omega)).1 (accAt V c 99 (by rw [show cfg3.N = 100 from N_3]; omega)).2
    (wlBlk V c ⟨99, by rw [show cfg3.N = 100 from N_3]; omega⟩) (blBlk V c ⟨99, by rw [show cfg3.N = 100 from N_3]; omega⟩)

/-- The accumulators after the first point. -/
theorem accAt_first (c : Dev nD) (t : Fin cfg3.N) (h : t.val = 0) :
    accAt V c t.val t.isLt = (k3_pay4 (idsBlk V c t) (featBlk V c t) (k3_pay1 (F := F)), k3_pay5 (idsBlk V c t) (k3_pay2 (F := F))) := by
  obtain ⟨n, hn⟩ := t
  cases n with
  | zero => rfl
  | succ n => exact absurd h (Nat.succ_ne_zero n)

/-- The accumulators after a later point: the point before's plus this block's contribution. -/
theorem accAt_next (c : Dev nD) (t : Fin cfg3.N) (h : t.val ≠ 0) :
    accAt V c t.val t.isLt = (k3_pay4 (idsBlk V c t) (featBlk V c t) (accAt V c (t.val - 1) (Nat.lt_of_le_of_lt (Nat.sub_le _ _) t.isLt)).1,
      k3_pay5 (idsBlk V c t) (accAt V c (t.val - 1) (Nat.lt_of_le_of_lt (Nat.sub_le _ _) t.isLt)).2) := by
  obtain ⟨n, hn⟩ := t
  cases n with
  | zero => exact absurd rfl h
  | succ n => rfl

/-- The result is the final layer over the accumulators after the last point and that point's weight and bias blocks. -/
theorem result_eq (c : Dev nD) (t : Fin cfg3.N) (h : t.val = 99) :
    result V c = k3_pay6 (accAt V c t.val t.isLt).1 (accAt V c t.val t.isLt).2 (wlBlk V c t) (blBlk V c t) := by
  obtain ⟨n, hn⟩ := t
  obtain rfl : n = 99 := h
  rfl

/-! ## The invariant between points -/

/-- The two scratch operands: whole scoped buffers of the kernel's own, passed beside the windows. -/
abbrev sc0 : Memref sig .tc .vmem S512x32 .f32 := Memref.whole cc3_scratch0
abbrev sc1 : Memref sig .tc .vmem S512x1 .f32 := Memref.whole cc3_scratch1

/-- The core's scoped buffers that are neither a staging buffer of this region nor one of its two accumulators (the
    other regions' staging buffers), each at some contents: the body never touches them. -/
def others (c : Dev nD) : sProp 𝕄 :=
  Pipeline.scopedRestBut (Ix := Unit) (Name := ℕ) (U := UR sig nD τ) (Lvl := ℕ) (Val := Elt F) spec3 c [cc3_scratch0, cc3_scratch1]

/-- What the launch hands the region, with the two accumulators split off as memrefs owned at some contents. -/
theorem PhiA_eq (c : Dev nD) :
    (Pipeline.ΦA spec3 c : sProp 𝕄)
      = iprop((((∃ d, owns (c : Thread nD τ) sc0 fullShare d) ∗ (∃ d, owns (c : Thread nD τ) sc1 fullShare d)) ∗ others c) ∗ (∃ r, prngReg c r)) := by
  unfold Pipeline.ΦA others
  rw [Pipeline.scopedRest_split_of_list spec3 c [cc3_scratch0, cc3_scratch1] (by decide) (by decide)]
  simp only [bigSepL_cons_cons, bigSepL_singleton, sc0, sc1, owns_whole]
  try rfl

/-- The invariant before position `n`: before the first point what the launch hands over (the accumulators at
    anything); afterwards the accumulators at what the point before left, the other scoped buffers and the generator
    register untouched. -/
def PhiS (c : Dev nD) : (n : ℕ) → n ≤ cfg3.N → sProp 𝕄
  | 0, _ => Pipeline.ΦA spec3 c
  | n + 1, hn => iprop((((owns (c : Thread nD τ) sc0 fullShare (accAt V c n hn).1) ∗ (owns (c : Thread nD τ) sc1 fullShare (accAt V c n hn).2)) ∗ others c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop((((owns (c : Thread nD τ) sc0 fullShare (accAt V c n hn).1) ∗ (owns (c : Thread nD τ) sc1 fullShare (accAt V c n hn).2)) ∗ others c) ∗ (∃ r, prngReg c r)) := rfl

theorem PhiS_pos (c : Dev nD) (n : ℕ) (h : n ≤ cfg3.N) (hz : n ≠ 0) :
    PhiS V c n h = iprop((((owns (c : Thread nD τ) sc0 fullShare (accAt V c (n - 1) (by omega)).1) ∗ (owns (c : Thread nD τ) sc1 fullShare (accAt V c (n - 1) (by omega)).2)) ∗ others c) ∗ (∃ r, prngReg c r)) := by
  cases n with
  | zero => exact absurd rfl hz
  | succ n => rfl

/-! ## The proof data -/

/-- The region's proof data on core `c`: the arrays are `V`'s; each input window's buffer is left at its block; the
    output window's buffer is `result`, what the last point (the one point that writes it back) stores into it (at the
    earlier points the window is idle, its buffer neither written back nor read, and the value is never consulted); the
    invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => result V c
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = result V c := by dsimp only [dat]

/-- The output window's buffer after the last point (the one point that writes it back). -/
theorem after_4_last (c : Dev nD) (t : Fin cfg3.N) (ht : t.val = 99) : (dat V c).after 4 t = result V c := after_4 V c t

/-- An input window's staging buffer holds its block at every point, whether the point fetched it or the block
    index did not move since the last fetch. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The invariant at a point's start, restated at the point's number. -/
theorem Phi_castSucc (c : Dev nD) (t : Fin cfg3.N) :
    (dat V c).Φ t.castSucc = PhiS V c t.val (Nat.le_of_lt t.isLt) := by
  dsimp only [dat]; simp only [Fin.coe_castSucc]

/-! ## Where the output window is idle -/

/-- The input windows are never idle. -/
theorem live_0 (t : Fin cfg3.N) : cfg3.idle 0 (grid3.coords t) = false := rfl
theorem live_1 (t : Fin cfg3.N) : cfg3.idle 1 (grid3.coords t) = false := rfl
theorem live_2 (t : Fin cfg3.N) : cfg3.idle 2 (grid3.coords t) = false := rfl
theorem live_3 (t : Fin cfg3.N) : cfg3.idle 3 (grid3.coords t) = false := rfl
/-- Before the last point the body stores nothing into the output's buffer, and the pipeline does not write it back; -/
theorem idle_4 : ∀ t : Fin cfg3.N, ¬isLast (grid3.coords t) → cfg3.idle 4 (grid3.coords t) = true :=
  (by decide +kernel : ∀ t : Fin grid3.N, ¬isLast (grid3.coords t) → idle3 4 (grid3.coords t) = true)
theorem noFlush_4 : ∀ t : Fin cfg3.N, ¬isLast (grid3.coords t) → (cfg3.win 4).flush t = false :=
  (by decide +kernel : ∀ t : Fin grid3.N, ¬isLast (grid3.coords t) → win3_4.flush t = false)
/-- at the last point it stores into it. -/
theorem live_4 : ∀ t : Fin cfg3.N, isLast (grid3.coords t) → cfg3.idle 4 (grid3.coords t) = false :=
  (by decide +kernel : ∀ t : Fin grid3.N, isLast (grid3.coords t) → idle3 4 (grid3.coords t) = false)

theorem leaves_0 (c : Dev nD) (t : Fin cfg3.N) : (dat V c).leavesExact 0 t = owns (c : Thread nD τ) (st3_0 t) fullShare (iblk V c 0 t) := by
  unfold Dat.leavesExact; rw [live_0 t, after_0]
theorem leaves_1 (c : Dev nD) (t : Fin cfg3.N) : (dat V c).leavesExact 1 t = owns (c : Thread nD τ) (st3_1 t) fullShare (iblk V c 1 t) := by
  unfold Dat.leavesExact; rw [live_1 t, after_1]
theorem leaves_2 (c : Dev nD) (t : Fin cfg3.N) : (dat V c).leavesExact 2 t = owns (c : Thread nD τ) (st3_2 t) fullShare (iblk V c 2 t) := by
  unfold Dat.leavesExact; rw [live_2 t, after_2]
theorem leaves_3 (c : Dev nD) (t : Fin cfg3.N) : (dat V c).leavesExact 3 t = owns (c : Thread nD τ) (st3_3 t) fullShare (iblk V c 3 t) := by
  unfold Dat.leavesExact; rw [live_3 t, after_3]
theorem leaves_4_last (c : Dev nD) (t : Fin cfg3.N) (h : isLast (grid3.coords t)) :
    (dat V c).leavesExact 4 t = owns (c : Thread nD τ) (st3_4 t) fullShare (result V c) := by
  unfold Dat.leavesExact; rw [live_4 t h, after_4]

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point: the inputs' buffers hold their blocks; the point's number says which case it is in; the
    invariant hands the body the accumulators at what the point before left (at anything at the first point) and takes
    them back at this point's; before the last point the output's buffer goes back as it came, at the last point it
    holds the result. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 100 := lt_of_lt_of_eq t.isLt (show cfg3.N = 100 from N_3)
  by_cases h0 : t.val = 0
  · have hf : isFirst (grid3.coords t) := (isFirst_iff t).mpr h0
    have hl : ¬isLast (grid3.coords t) := fun h => by have := (isLast_iff t).mp h; omega
    rw [Dat.leavesExact_idle (dat V c) 4 t (idle_4 t hl) (noFlush_4 t hl)]
    rw [accAt_first V c t h0]
    dsimp only
    rw [Phi_castSucc V c t, PhiS_zero V c _ _ h0, PhiA_eq]
    iintro ⟨⟨⟨⟨HS0, HS1⟩, Hr⟩, Hg⟩, Ho, ⟨%d0, H0⟩, ⟨%d1, H1⟩, ⟨%d2, H2⟩, ⟨%d3, H3⟩, H4⟩
    iapply (runA c Set.univ _ _ _ _ _ _ _ _ _ _ _ _ _ _ _ hf hl (idsBlk V c t) (featBlk V c t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexact H4
  · have hf : ¬isFirst (grid3.coords t) := fun h => h0 ((isFirst_iff t).mp h)
    rw [Phi_castSucc V c t, PhiS_pos V c _ _ h0]
    by_cases h9 : t.val = 99
    · have hl : isLast (grid3.coords t) := (isLast_iff t).mpr h9
      rw [leaves_4_last V c t hl, result_eq V c t h9, accAt_next V c t h0]
      dsimp only
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (runC c Set.univ _ _ _ _ _ _ _ _ _ _ _ _ _ _ _ hf hl (idsBlk V c t) (featBlk V c t) (wlBlk V c t) (blBlk V c t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · have hl : ¬isLast (grid3.coords t) := fun h => h9 ((isLast_iff t).mp h)
      rw [Dat.leavesExact_idle (dat V c) 4 t (idle_4 t hl) (noFlush_4 t hl)]
      rw [accAt_next V c t h0]
      dsimp only
      iintro ⟨⟨⟨⟨HS0, HS1⟩, Hr⟩, Hg⟩, Ho, ⟨%d0, H0⟩, ⟨%d1, H1⟩, ⟨%d2, H2⟩, ⟨%d3, H3⟩, H4⟩
      iapply (runB c Set.univ _ _ _ _ _ _ _ _ _ _ _ _ _ _ _ hf hl (idsBlk V c t) (featBlk V c t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4

/-- The pipeline library's body obligation, at every point. -/
theorem body_obligation (c : Dev nD) : BodyObligation (dat (F := F) V c) (defs₀ (F := F)) Variants.none () Set.univ := fun t => by
  rw [bigSep_W3, bigSep_W3]
  exact sound_body V c t

/-! ## Into and out of the invariant -/

/-- What the launch hands the region (the scoped buffers no window stages, each at something, and the generator register)
    is the invariant before the first point; -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point the invariant gives that back: what the accumulators hold is forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- and the invariant after the last point gives it back. -/
theorem hout (c : Dev nD) : (dat V c).Φ (Fin.last cfg3.N) ⊢ Pipeline.ΦA spec3 c :=
  Phi_out V c _ (by rw [Fin.val_last]; have : cfg3.N = 100 := N_3; omega)

/-- Nothing is owed to another core at any point, and every share is full (what the region record's side conditions cite). -/
theorem owed_zero (c : Dev nD) (t) : (dat V c).owed t = 0 := by dsimp only [dat]
theorem q_full (c : Dev nD) (w) : (dat V c).q w = fullShare := by dsimp only [dat]

end Cert.KernelIdeal.Pool

end
-- ==== Proof.KI.Run.lean ====
/-
  The whole run of the program: the contents of the core's buffers at every boundary between two items of the main
  function — a stretch of host operations rewrites the buffers it writes, a kernel region leaves its output array at what
  its write-backs make of it and every other buffer as it found it — and the launch: every weakly fair execution terminates,
  nothing faults, and every buffer that outlives the kernels ends at the last boundary's contents.
-/
import proofs.«417128_j32650341384807_1_alg».proof.Proof.KI.Lin0
import proofs.«417128_j32650341384807_1_alg».proof.Proof.KI.Lin1
import proofs.«417128_j32650341384807_1_alg».proof.Proof.KI.Lin2
import proofs.«417128_j32650341384807_1_alg».proof.Proof.KI.Pool
import proofs.«417128_j32650341384807_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first three stretches of host operations (the edge lists, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references: what region 0 is entered from. -/
abbrev V3 : (c : Dev nD) → (b : Ref sig .tc) → Buf (Elt F) ((c : Thread nD τ).loc b) := fun c b => W3 m c b
/-- After region 0: its arrays at what the pipeline leaves, every other buffer as entered. -/
def W4 (c : Dev nD) : Valuation τ sig (Elt F) :=
  Pipeline.withArrays spec0 c (W3 m c) fun w => (Lin0.dat (V3 m) c).arrAt w cfg0.N
abbrev W5 : Dev nD → Valuation τ sig (Elt F) := fun c => StableHlo.after hostOps1 (W4 m c)
abbrev W6 : Dev nD → Valuation τ sig (Elt F) := fun c => StableHlo.after hostOps1_1 (W5 m c)
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (Lin1.dat (V6 m) c).arrAt w cfg1.N
abbrev W8 : Dev nD → Valuation τ sig (Elt F) := fun c => StableHlo.after hostOps2 (W7 m c)
abbrev W9 : Dev nD → Valuation τ sig (Elt F) := fun c => StableHlo.after hostOps2_1 (W8 m c)
abbrev V9 : (c : Dev nD) → (b : Ref sig .tc) → Buf (Elt F) ((c : Thread nD τ).loc b) := fun c b => W9 m c b
def W10 (c : Dev nD) : Valuation τ sig (Elt F) :=
  Pipeline.withArrays spec2 c (W9 m c) fun w => (Lin2.dat (V9 m) c).arrAt w cfg2.N
abbrev W11 : Dev nD → Valuation τ sig (Elt F) := fun c => StableHlo.after hostOps3 (W10 m c)
abbrev V11 : (c : Dev nD) → (b : Ref sig .tc) → Buf (Elt F) ((c : Thread nD τ).loc b) := fun c b => W11 m c b
def W12 (c : Dev nD) : Valuation τ sig (Elt F) :=
  Pipeline.withArrays spec3 c (W11 m c) fun w => (Pool.dat (V11 m) c).arrAt w cfg3.N

/-! ## What a region changes: its output array only

An input window's array is never written back, so at the region's exit it holds what the region found; the output
window's array holds its write-backs folded over the points; a buffer that is no window's array is not touched. -/

theorem W4_out (c : Dev nD) : W4 m c main_v32 = (Lin0.dat (V3 m) c).arrAt 2 cfg0.N := by
  unfold W4; exact Pipeline.withArrays_arr spec0 launch0.win.arr_inj c _ _ 2
theorem W4_of (c : Dev nD) (b : Ref sig .tc) (hb : b ≠ main_v32) : W4 m c b = W3 m c b := by
  by_cases h0 : b = main_arg0
  · subst h0
    exact ((show W4 m c main_arg0 = (Lin0.dat (V3 m) c).arrAt 0 cfg0.N from by
      unfold W4; exact Pipeline.withArrays_arr spec0 launch0.win.arr_inj c _ _ 0).trans
        ((Lin0.dat (V3 m) c).arrAt_in 0 rfl _)).trans (Lin0.A_eq (V3 m) c 0)
  by_cases h1 : b = main_arg3
  · subst h1
    exact ((show W4 m c main_arg3 = (Lin0.dat (V3 m) c).arrAt 1 cfg0.N from by
      unfold W4; exact Pipeline.withArrays_arr spec0 launch0.win.arr_inj c _ _ 1).trans
        ((Lin0.dat (V3 m) c).arrAt_in 1 rfl _)).trans (Lin0.A_eq (V3 m) c 1)
  unfold W4
  refine Pipeline.withArrays_of_ne spec0 c _ _ b fun w => ?_
  fin_cases w
  · exact fun e => h0 e.symm
  · exact fun e => h1 e.symm
  · exact fun e => hb e.symm
theorem W7_out (c : Dev nD) : W7 m c main_v50 = (Lin1.dat (V6 m) c).arrAt 2 cfg1.N := by
  unfold W7; exact Pipeline.withArrays_arr spec1 launch1.win.arr_inj c _ _ 2
theorem W7_of (c : Dev nD) (b : Ref sig .tc) (hb : b ≠ main_v50) : W7 m c b = W6 m c b := by
  by_cases h0 : b = main_v49
  · subst h0
    exact ((show W7 m c main_v49 = (Lin1.dat (V6 m) c).arrAt 0 cfg1.N from by
      unfold W7; exact Pipeline.withArrays_arr spec1 launch1.win.arr_inj c _ _ 0).trans
        ((Lin1.dat (V6 m) c).arrAt_in 0 rfl _)).trans (Lin1.A_eq (V6 m) c 0)
  by_cases h1 : b = main_arg5
  · subst h1
    exact ((show W7 m c main_arg5 = (Lin1.dat (V6 m) c).arrAt 1 cfg1.N from by
      unfold W7; exact Pipeline.withArrays_arr spec1 launch1.win.arr_inj c _ _ 1).trans
        ((Lin1.dat (V6 m) c).arrAt_in 1 rfl _)).trans (Lin1.A_eq (V6 m) c 1)
  unfold W7
  refine Pipeline.withArrays_of_ne spec1 c _ _ b fun w => ?_
  fin_cases w
  · exact fun e => h0 e.symm
  · exact fun e => h1 e.symm
  · exact fun e => hb e.symm
theorem W10_out (c : Dev nD) : W10 m c main_v68 = (Lin2.dat (V9 m) c).arrAt 2 cfg2.N := by
  unfold W10; exact Pipeline.withArrays_arr spec2 launch2.win.arr_inj c _ _ 2
theorem W10_of (c : Dev nD) (b : Ref sig .tc) (hb : b ≠ main_v68) : W10 m c b = W9 m c b := by
  by_cases h0 : b = main_v67
  · subst h0
    exact ((show W10 m c main_v67 = (Lin2.dat (V9 m) c).arrAt 0 cfg2.N from by
      unfold W10; exact Pipeline.withArrays_arr spec2 launch2.win.arr_inj c _ _ 0).trans
        ((Lin2.dat (V9 m) c).arrAt_in 0 rfl _)).trans (Lin2.A_eq (V9 m) c 0)
  by_cases h1 : b = main_arg7
  · subst h1
    exact ((show W10 m c main_arg7 = (Lin2.dat (V9 m) c).arrAt 1 cfg2.N from by
      unfold W10; exact Pipeline.withArrays_arr spec2 launch2.win.arr_inj c _ _ 1).trans
        ((Lin2.dat (V9 m) c).arrAt_in 1 rfl _)).trans (Lin2.A_eq (V9 m) c 1)
  unfold W10
  refine Pipeline.withArrays_of_ne spec2 c _ _ b fun w => ?_
  fin_cases w
  · exact fun e => h0 e.symm
  · exact fun e => h1 e.symm
  · exact fun e => hb e.symm
theorem W12_out (c : Dev nD) : W12 m c main_v87 = (Pool.dat (V11 m) c).arrAt 4 cfg3.N := by
  unfold W12; exact Pipeline.withArrays_arr spec3 launch3.win.arr_inj c _ _ 4
theorem W12_of (c : Dev nD) (b : Ref sig .tc) (hb : b ≠ main_v87) : W12 m c b = W11 m c b := by
  by_cases h0 : b = main_v85
  · subst h0
    exact ((show W12 m c main_v85 = (Pool.dat (V11 m) c).arrAt 0 cfg3.N from by
      unfold W12; exact Pipeline.withArrays_arr spec3 launch3.win.arr_inj c _ _ 0).trans
        ((Pool.dat (V11 m) c).arrAt_in 0 rfl _)).trans (Pool.A_eq (V11 m) c 0)
  by_cases h1 : b = main_v84
  · subst h1
    exact ((show W12 m c main_v84 = (Pool.dat (V11 m) c).arrAt 1 cfg3.N from by
      unfold W12; exact Pipeline.withArrays_arr spec3 launch3.win.arr_inj c _ _ 1).trans
        ((Pool.dat (V11 m) c).arrAt_in 1 rfl _)).trans (Pool.A_eq (V11 m) c 1)
  by_cases h2 : b = main_arg9
  · subst h2
    exact ((show W12 m c main_arg9 = (Pool.dat (V11 m) c).arrAt 2 cfg3.N from by
      unfold W12; exact Pipeline.withArrays_arr spec3 launch3.win.arr_inj c _ _ 2).trans
        ((Pool.dat (V11 m) c).arrAt_in 2 rfl _)).trans (Pool.A_eq (V11 m) c 2)
  by_cases h3 : b = main_v86
  · subst h3
    exact ((show W12 m c main_v86 = (Pool.dat (V11 m) c).arrAt 3 cfg3.N from by
      unfold W12; exact Pipeline.withArrays_arr spec3 launch3.win.arr_inj c _ _ 3).trans
        ((Pool.dat (V11 m) c).arrAt_in 3 rfl _)).trans (Pool.A_eq (V11 m) c 3)
  unfold W12
  refine Pipeline.withArrays_of_ne spec3 c _ _ b fun w => ?_
  fin_cases w
  · exact fun e => h0 e.symm
  · exact fun e => h1 e.symm
  · exact fun e => h2 e.symm
  · exact fun e => h3 e.symm
  · exact fun e => hb e.symm

/-- A buffer no stretch of host operations writes and no region puts out reaches the end as launched. -/
theorem W12_launch (c : Dev nD) (b : Ref sig .tc)
    (h0 : b ∉ hostOps0_W) (h0_1 : b ∉ hostOps0_1_W) (h0_2 : b ∉ hostOps0_2_W) (hr0 : b ≠ main_v32)
    (h1 : b ∉ hostOps1_W) (h1_1 : b ∉ hostOps1_1_W) (hr1 : b ≠ main_v50)
    (h2 : b ∉ hostOps2_W) (h2_1 : b ∉ hostOps2_1_W) (hr2 : b ≠ main_v68)
    (h3 : b ∉ hostOps3_W) (hr3 : b ≠ main_v87) :
    W12 m c b = m ((c.tc : Thread nD τ).loc b) :=
  calc W12 m c b
    _ = W11 m c b := W12_of m c b hr3
    _ = W10 m c b := StableHlo.after_of_writes_sub hostOps3 _ hostOps3_writes h3
    _ = W9 m c b := W10_of m c b hr2
    _ = W8 m c b := StableHlo.after_of_writes_sub hostOps2_1 _ hostOps2_1_writes h2_1
    _ = W7 m c b := StableHlo.after_of_writes_sub hostOps2 _ hostOps2_writes h2
    _ = W6 m c b := W7_of m c b hr1
    _ = W5 m c b := StableHlo.after_of_writes_sub hostOps1_1 _ hostOps1_1_writes h1_1
    _ = W4 m c b := StableHlo.after_of_writes_sub hostOps1 _ hostOps1_writes h1
    _ = W3 m c b := W4_of m c b hr0
    _ = W2 m c b := StableHlo.after_of_writes_sub hostOps0_2 _ hostOps0_2_writes h0_2
    _ = W1 m c b := StableHlo.after_of_writes_sub hostOps0_1 _ hostOps0_1_writes h0_1
    _ = W0 m c b := StableHlo.after_of_writes_sub hostOps0 _ hostOps0_writes h0
    _ = m ((c.tc : Thread nD τ).loc b) := rfl

/-- No item writes an argument: each ends as launched. -/
theorem W12_arg (c : Dev nD) (b : Ref sig .tc)
    (hb : b ∈ ([main_arg0, main_arg1, main_arg2, main_arg3, main_arg4, main_arg5, main_arg6, main_arg7, main_arg8, main_arg9, main_arg10] : List (Ref sig .tc))) :
    W12 m c b = m ((c.tc : Thread nD τ).loc b) := by
  simp only [List.mem_cons, List.not_mem_nil, or_false] at hb
  rcases hb with rfl | rfl | rfl | rfl | rfl | rfl | rfl | rfl | rfl | rfl | rfl
  all_goals (apply W12_launch <;> decide)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data and the thread state -/

/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => Lin0.dat (V3 m) c
  | ⟨1, _⟩ => fun c => Lin1.dat (V6 m) c
  | ⟨2, _⟩ => fun c => Lin2.dat (V9 m) c
  | ⟨3, _⟩ => fun c => Pool.dat (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along: it
    ends with those references at the contents the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

/-! ## The regions as segments -/

/-- At region 0's exit each of its arrays holds what the pipeline leaves, and every other buffer what it held at entry. -/
theorem hF0 (c : Dev nD) (w : Fin cfg0.W) : (Lin0.dat (V3 m) c).arrAt w cfg0.N = W4 m c (Pipeline.arrRef spec0 w) := by
  unfold W4; exact (Pipeline.withArrays_arr spec0 launch0.win.arr_inj c (W3 m c) (fun w => (Lin0.dat (V3 m) c).arrAt w cfg0.N) w).symm
theorem hrest0 (c : Dev nD) : ∀ b : Ref sig .tc, b ∉ Finset.univ.image (Pipeline.arrRef spec0) → W4 m c b = W3 m c b :=
  fun b hb => by
    unfold W4
    exact Pipeline.withArrays_of_ne spec0 c _ _ b fun w e => hb (Finset.mem_image.mpr ⟨w, Finset.mem_univ _, e⟩)

set_option backward.isDefEq.respectTransparency.types false in
/-- Region 0 over the thread state: entered from every unscoped buffer at the contents before it, left at those after it.
    Its arrays are split out of the unscoped buffers and put back at the exit contents; the generator register goes into
    the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) (Lin0.A_eq (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves, and every other buffer what it held at entry. -/
theorem hF1 (c : Dev nD) (w : Fin cfg1.W) : (Lin1.dat (V6 m) c).arrAt w cfg1.N = W7 m c (Pipeline.arrRef spec1 w) := by
  unfold W7; exact (Pipeline.withArrays_arr spec1 launch1.win.arr_inj c (W6 m c) (fun w => (Lin1.dat (V6 m) c).arrAt w cfg1.N) w).symm
theorem hrest1 (c : Dev nD) : ∀ b : Ref sig .tc, b ∉ Finset.univ.image (Pipeline.arrRef spec1) → W7 m c b = W6 m c b :=
  fun b hb => by
    unfold W7
    exact Pipeline.withArrays_of_ne spec1 c _ _ b fun w e => hb (Finset.mem_image.mpr ⟨w, Finset.mem_univ _, e⟩)

set_option backward.isDefEq.respectTransparency.types false in
/-- Region 1 over the thread state: entered from every unscoped buffer at the contents before it, left at those after it.
    Its arrays are split out of the unscoped buffers and put back at the exit contents; the generator register goes into
    the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) (Lin1.A_eq (V6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (fun b => W7 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves, and every other buffer what it held at entry. -/
theorem hF2 (c : Dev nD) (w : Fin cfg2.W) : (Lin2.dat (V9 m) c).arrAt w cfg2.N = W10 m c (Pipeline.arrRef spec2 w) := by
  unfold W10; exact (Pipeline.withArrays_arr spec2 launch2.win.arr_inj c (W9 m c) (fun w => (Lin2.dat (V9 m) c).arrAt w cfg2.N) w).symm
theorem hrest2 (c : Dev nD) : ∀ b : Ref sig .tc, b ∉ Finset.univ.image (Pipeline.arrRef spec2) → W10 m c b = W9 m c b :=
  fun b hb => by
    unfold W10
    exact Pipeline.withArrays_of_ne spec2 c _ _ b fun w e => hb (Finset.mem_image.mpr ⟨w, Finset.mem_univ _, e⟩)

set_option backward.isDefEq.respectTransparency.types false in
/-- Region 2 over the thread state: entered from every unscoped buffer at the contents before it, left at those after it.
    Its arrays are split out of the unscoped buffers and put back at the exit contents; the generator register goes into
    the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) (Lin2.A_eq (V9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (fun b => W10 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves, and every other buffer what it held at entry. -/
theorem hF3 (c : Dev nD) (w : Fin cfg3.W) : (Pool.dat (V11 m) c).arrAt w cfg3.N = W12 m c (Pipeline.arrRef spec3 w) := by
  unfold W12; exact (Pipeline.withArrays_arr spec3 launch3.win.arr_inj c (W11 m c) (fun w => (Pool.dat (V11 m) c).arrAt w cfg3.N) w).symm
theorem hrest3 (c : Dev nD) : ∀ b : Ref sig .tc, b ∉ Finset.univ.image (Pipeline.arrRef spec3) → W12 m c b = W11 m c b :=
  fun b hb => by
    unfold W12
    exact Pipeline.withArrays_of_ne spec3 c _ _ b fun w e => hb (Finset.mem_image.mpr ⟨w, Finset.mem_univ _, e⟩)

set_option backward.isDefEq.respectTransparency.types false in
/-- Region 3 over the thread state: entered from every unscoped buffer at the contents before it, left at those after it.
    Its arrays are split out of the unscoped buffers and put back at the exit contents; the generator register goes into
    the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Pool.body_obligation (V11 m) c).loose
  hwaits := Pipeline.hwaits_of_owed_zero _ _ _ _ L lv 3 fun c t => Pool.owed_zero (V11 m) c t
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := Pipeline.arrays_of_unscopedBufs (p := 3) (pcfgs (F := F)) adm (pdats m) launch3.win launch3.arr_whole c
      ((pdats m 3 c).share_full (Pool.q_full (V11 m) c)) (V11 m c) (Pool.A_eq (V11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Pool.hin (V11 m) c)
    unfold Pipeline.ΦA
    iintro ⟨Hp, -, Hr⟩
    isplitl [Hr]; · iexact Hr
    iexact Hp
  hout c := by
    rw [Pipeline.ownSems0_none]
    refine (Pool.hout (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full (Pool.q_full (V11 m) c))
      (V11 m c) (fun b => W12 m c b) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

/-- The main function's 12 items in order: a host segment per stretch of host operations, entered from the contents at its
    boundary, and a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)),
    .region (reg3 m) ]

/-- The segments' programs are the main function's items. -/
theorem segs_prog : (segs m).map Pipeline.Seg.prog = [
    StableHlo.seq hostOps0,
    StableHlo.seq hostOps0_1,
    StableHlo.seq hostOps0_2,
    Prog.lift (.customCall (Pipeline.entry 0) ()),
    StableHlo.seq hostOps1,
    StableHlo.seq hostOps1_1,
    Prog.lift (.customCall (Pipeline.entry 1) ()),
    StableHlo.seq hostOps2,
    StableHlo.seq hostOps2_1,
    Prog.lift (.customCall (Pipeline.entry 2) ()),
    StableHlo.seq hostOps3,
    Prog.lift (.customCall (Pipeline.entry 3) ()) ] := rfl

/-- The main function is the run of the segments. -/
theorem main_run (c : Dev nD) : main (F := F) c = Pipeline.Seg.run (segs m) := by
  rw [main_chain c, Pipeline.Seg.run_eq_chain, segs_prog]

set_option backward.isDefEq.respectTransparency.types false in
/-- From any memory with zero counters every weakly fair execution of the main function terminates, nothing faulting, and
    every buffer that outlives the kernels ends at the last boundary's contents. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun _ h => h)

end Cert.KernelIdeal.Run

end
-- ==== Proof.Ref.Spec.lean ====
/-
  The graph-convolution network both programs compute, as pure functions of the argument arrays, spelt with the
  reference program's own operations: the edge lists with the self loops appended, the symmetric normalisation
  `deg^(-1/2)[src] * deg^(-1/2)[dst]`, one propagation layer (gather the transformed rows at the sources, scale by the
  normalisation, scatter-add at the targets, add the bias), and the mean pool over graphs followed by the final
  linear layer.
-/
import proofs.«417128_j32650341384807_1_alg».proof.Proof.Gen.ReferenceIdeal

noncomputable section

namespace Cert.ReferenceIdeal.Spec

open Cert.ReferenceIdeal Cert.ReferenceIdeal.Gen Idealize.ShloMosaic

variable {F : FTy → Type} [FloatOps F]

/-- The contents of a tensor of shape `S` and element type `e`. -/
abbrev T (F : FTy → Type) (S : Shape) (e : EltTy) : Type := (⟨S, e⟩ : BufTy).Contents (Elt F)

/-- The edge sources followed by one self loop per node. -/
def src (ei : T F S2x3200000 .i32) : T F S3300000 .i32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The edge targets followed by one self loop per node. -/
def dst (ei : T F S2x3200000 .i32) : T F S3300000 .i32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A gather index list: a negative index counts from the end, as numpy indexing does; as a column. -/
def wrap (ix : T F S3300000 .i32) : T F S3300000x1 .i32 :=
  broadcastInDim S3300000x1 ![0] bcast_S3300000_S3300000x1_0 (select (cmpi .slt ix (broadcastInDim S3300000 ![] bcast_S_S3300000 (constantI S_ 32 0#32))) (addi ix (broadcastInDim S3300000 ![] bcast_S_S3300000 (constantI S_ 32 100000#32))) ix)

/-- The in-degree of every node, self loops included: a scatter-add of ones at the targets. -/
def deg (d : T F S3300000 .i32) : T F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- `deg^(-1/2)` where the degree is positive, else zero. -/
def dinv (d : T F S3300000 .i32) : T F S100000 .f32 :=
  select (cmpf (F := F) .ogt (deg d) (broadcastInDim S100000 ![] bcast_S_S100000 (constant S_ .f32 0x00000000#32))) (Host.rsqrt (maximumf (deg d) (broadcastInDim S100000 ![] bcast_S_S100000 (constant S_ .f32 0x3F800000#32)))) (broadcastInDim S100000 ![] bcast_S_S100000 (id (constant S_ .f32 0x00000000#32)))

/-- The edge weights of the symmetric normalisation. -/
def norm (s d : T F S3300000 .i32) : T F S3300000 .f32 :=
  mulf (Host.gather gather_S100000_S3300000x1_S3300000_n_0_n_n_0_1_1 (dinv d) (wrap s)) (Host.gather gather_S100000_S3300000x1_S3300000_n_0_n_n_0_1_1 (dinv d) (wrap d))

/-- One propagation step over already transformed rows `hpre`: gather at the sources, scale, scatter-add at the
    targets, add the bias. -/
def layer (hpre : T F S100000x32 .f32) (s d : T F S3300000 .i32) (nrm : T F S3300000 .f32) (b : T F S32 .f32) : T F S100000x32 .f32 :=
  addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 d) (mulf (Host.gather gather_S100000x32_S3300000x1_S3300000x32_1_0_n_n_0_1_132 hpre (wrap s)) (broadcastInDim S3300000x32 ![0, 1] bcast_S3300000x1_S3300000x32_0_1 (broadcastInDim S3300000x1 ![0] bcast_S3300000_S3300000x1_0 nrm)))) (broadcastInDim S100000x32 ![0, 1] bcast_S1x32_S100000x32_0_1 (broadcastInDim S1x32 ![1] bcast_S32_S1x32_1 b))

/-- The rectifier. -/
def relu (h : T F S100000x32 .f32) : T F S100000x32 .f32 :=
  maximumf h (broadcastInDim S100000x32 ![] bcast_S_S100000x32 (constant S_ .f32 0x00000000#32))

/-- The dense transforms: the first layer's over 128 input channels, the later ones' over 32. -/
def dense0 (x : T F S100000x128 .f32) (w : T F S128x32 .f32) : T F S100000x32 .f32 :=
  Host.dotGeneral dot_S100000x128_S128x32_S100000x32_1_0_0_1_n_n none x w
def dense1 (h : T F S100000x32 .f32) (w : T F S32x32 .f32) : T F S100000x32 .f32 :=
  Host.dotGeneral dot_S100000x32_S32x32_S100000x32_1_0_0_1_n_n none h w

/-- The per-graph sums of the node rows. -/
def sums (batch : T F S100000 .i32) (h : T F S100000x32 .f32) : T F S512x32 .f32 :=
  Host.scatterAdd scatter_S512x32_S100000x1_S100000x32_1_0_0_1 (broadcastInDim S512x32 ![] bcast_S_S512x32 (constant S_ .f32 0x00000000#32)) (broadcastInDim S100000x1 ![0] bcast_S100000_S100000x1_0 batch) h

/-- The per-graph node counts. -/
def cnts (batch : T F S100000 .i32) : T F S512 .f32 :=
  Host.scatterAdd scatter_S512_S100000x1_S100000_n_0_0_1 (broadcastInDim S512 ![] bcast_S_S512 (constant S_ .f32 0x00000000#32)) (broadcastInDim S100000x1 ![0] bcast_S100000_S100000x1_0 batch) (broadcastInDim S100000 ![] bcast_S_S100000 (constant S_ .f32 0x3F800000#32))

/-- The mean pool over graphs (an empty graph's count read as one) and the final linear layer. -/
def head (batch : T F S100000 .i32) (h : T F S100000x32 .f32) (wl : T F S32x10 .f32) (bl : T F S10 .f32) : T F S512x10 .f32 :=
  addf (Host.dotGeneral dot_S512x32_S32x10_S512x10_1_0_0_1_n_n none (Host.divf (sums batch h) (broadcastInDim S512x32 ![0, 1] bcast_S512x1_S512x32_0_1 (broadcastInDim S512x1 ![0] bcast_S512_S512x1_0 (maximumf (cnts (F := F) batch) (broadcastInDim S512 ![] bcast_S_S512 (constant S_ .f32 0x3F800000#32)))))) wl) (broadcastInDim S512x10 ![0, 1] bcast_S1x10_S512x10_0_1 (broadcastInDim S1x10 ![1] bcast_S10_S1x10_1 bl))

/-- The third layer's output, before pooling. -/
def feats (x : T F S100000x128 .f32) (ei : T F S2x3200000 .i32) (w1 : T F S128x32 .f32) (b1 : T F S32 .f32) (w2 : T F S32x32 .f32) (b2 : T F S32 .f32)
    (w3 : T F S32x32 .f32) (b3 : T F S32 .f32) : T F S100000x32 .f32 :=
  layer (dense1 (relu (layer (dense1 (relu (layer (dense0 x w1) (src ei) (dst ei) (norm (F := F) (src ei) (dst ei)) b1)) w2) (src ei) (dst ei) (norm (F := F) (src ei) (dst ei)) b2)) w3)
    (src ei) (dst ei) (norm (F := F) (src ei) (dst ei)) b3

/-- The whole network. -/
def net (x : T F S100000x128 .f32) (ei : T F S2x3200000 .i32) (batch : T F S100000 .i32) (w1 : T F S128x32 .f32) (b1 : T F S32 .f32)
    (w2 : T F S32x32 .f32) (b2 : T F S32 .f32) (w3 : T F S32x32 .f32) (b3 : T F S32 .f32) (wl : T F S32x10 .f32) (bl : T F S10 .f32) : T F S512x10 .f32 :=
  head batch (feats x ei w1 b1 w2 b2 w3 b3) wl bl

end Cert.ReferenceIdeal.Spec

end
-- ==== Proof.Val.LinVal0.lean ====
/-
  The first dense layer's kernel region computes the whole matrix product: block t of the output array is what grid point t
  wrote back, the product of rows 4000 t … 4000 t + 3999 of the activations with the weight matrix, the 25 blocks tile the array,
  and at the extended reals a product accumulated into zeros is the plain sum over the contracted axis on both sides.
-/
import proofs.«417128_j32650341384807_1_alg».proof.Proof.KI.Lin0
import proofs.«417128_j32650341384807_1_alg».proof.Proof.Ref.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.LinVal0

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-- The contracted extent; the shapes of the activations' block, of the weight matrix, of the output's block, of the
    whole activations and of the whole output. -/
abbrev K : Nat := 128
abbrev SX : Shape := S4000x128
abbrev SW : Shape := S128x32
abbrev SO : Shape := S4000x32
abbrev SA : Shape := S100000x128
abbrev SR : Shape := S100000x32

/-! ## The block product at an index -/

theorem lhsK_0 (i : SO.Idx) (q : dot_S4000x128_S128x32_S4000x32_1_0_0_1_n_n.contr.Idx) :
    (dot_S4000x128_S128x32_S4000x32_1_0_0_1_n_n.lhsIdx i q 0).val = (i 0).val := by
  unfold DotDims.lhsIdx
  rw [dif_neg (show ¬(0 : Fin SX.rank) ∈ dot_S4000x128_S128x32_S4000x32_1_0_0_1_n_n.lhsBatch by decide),
    dif_pos (show (0 : Fin SX.rank) ∈ dot_S4000x128_S128x32_S4000x32_1_0_0_1_n_n.lhsNonContracting by decide)]
  rfl

theorem lhsK_1 (i : SO.Idx) (q : dot_S4000x128_S128x32_S4000x32_1_0_0_1_n_n.contr.Idx) :
    (dot_S4000x128_S128x32_S4000x32_1_0_0_1_n_n.lhsIdx i q 1).val = (q ⟨0, by decide⟩).val :=
  dot_S4000x128_S128x32_S4000x32_1_0_0_1_n_n.lhsIdx_val_of_single rfl i q

theorem rhsK_0 (i : SO.Idx) (q : dot_S4000x128_S128x32_S4000x32_1_0_0_1_n_n.contr.Idx) :
    (dot_S4000x128_S128x32_S4000x32_1_0_0_1_n_n.rhsIdx i q 0).val = (q ⟨0, by decide⟩).val :=
  dot_S4000x128_S128x32_S4000x32_1_0_0_1_n_n.rhsIdx_val_of_single rfl i q

theorem rhsK_1 (i : SO.Idx) (q : dot_S4000x128_S128x32_S4000x32_1_0_0_1_n_n.contr.Idx) :
    (dot_S4000x128_S128x32_S4000x32_1_0_0_1_n_n.rhsIdx i q 1).val = (i 1).val := by
  unfold DotDims.rhsIdx
  rw [dif_neg (show ¬(1 : Fin SW.rank) ∈ dot_S4000x128_S128x32_S4000x32_1_0_0_1_n_n.rhsBatch by decide),
    dif_pos (show (1 : Fin SW.rank) ∈ dot_S4000x128_S128x32_S4000x32_1_0_0_1_n_n.rhsNonContracting by decide)]
  rfl

/-- A product accumulated into zeros, read at row p and column q of the block: the sum over the contracted axis. -/
theorem block_product_apply (x0 : FVec Ideal SX .bf16) (x1 : FVec Ideal SW .bf16) (p : Fin 4000) (q : Fin 32) :
    matmul dot_S4000x128_S128x32_S4000x32_1_0_0_1_n_n none x0 x1 (constant SO .f32 0x00000000#32) (ix2 p q)
      = ∑ k : Fin K, x0 (ix2 p k) * x1 (ix2 k q) := by
  simp only [matmul]
  rw [Ideal.matmul_constant_zero_apply, ← Equiv.sum_comp (contrEquiv1 dot_S4000x128_S128x32_S4000x32_1_0_0_1_n_n K rfl rfl).symm]
  refine Finset.sum_congr rfl fun k _ => ?_
  have hk := contrEquiv1_symm_val dot_S4000x128_S128x32_S4000x32_1_0_0_1_n_n K rfl rfl k
  have el : dot_S4000x128_S128x32_S4000x32_1_0_0_1_n_n.lhsIdx (ix2 p q) ((contrEquiv1 dot_S4000x128_S128x32_S4000x32_1_0_0_1_n_n K rfl rfl).symm k) = ix2 p k :=
    funext fun a => Fin.ext (by
      match a with
      | ⟨0, _⟩ => exact lhsK_0 _ _
      | ⟨1, _⟩ => exact (lhsK_1 _ _).trans hk)
  have er : dot_S4000x128_S128x32_S4000x32_1_0_0_1_n_n.rhsIdx (ix2 p q) ((contrEquiv1 dot_S4000x128_S128x32_S4000x32_1_0_0_1_n_n K rfl rfl).symm k) = ix2 k q :=
    funext fun a => Fin.ext (by
      match a with
      | ⟨0, _⟩ => exact (rhsK_0 _ _).trans hk
      | ⟨1, _⟩ => exact rhsK_1 _ _)
  rw [el, er]

/-- The body's payload at row p and column q: the casts to the narrower format are the identity on extended reals. -/
theorem pay_apply (x0 : Vec Ideal SX .f32) (x1 : Vec Ideal SW .f32) (p : Fin 4000) (q : Fin 32) :
    k0_pay1 x0 x1 (ix2 p q) = ∑ k : Fin K, x0 (ix2 p k) * x1 (ix2 k q) := by
  unfold k0_pay1
  try simp only [shapeCast_self]
  exact block_product_apply _ _ p q

/-! ## The whole product at an index -/

theorem lhsR_0 (i : SR.Idx) (q : Cert.ReferenceIdeal.dot_S100000x128_S128x32_S100000x32_1_0_0_1_n_n.contr.Idx) :
    (Cert.ReferenceIdeal.dot_S100000x128_S128x32_S100000x32_1_0_0_1_n_n.lhsIdx i q 0).val = (i 0).val := by
  unfold DotDims.lhsIdx
  rw [dif_neg (show ¬(0 : Fin SA.rank) ∈ Cert.ReferenceIdeal.dot_S100000x128_S128x32_S100000x32_1_0_0_1_n_n.lhsBatch by decide),
    dif_pos (show (0 : Fin SA.rank) ∈ Cert.ReferenceIdeal.dot_S100000x128_S128x32_S100000x32_1_0_0_1_n_n.lhsNonContracting by decide)]
  rfl

theorem lhsR_1 (i : SR.Idx) (q : Cert.ReferenceIdeal.dot_S100000x128_S128x32_S100000x32_1_0_0_1_n_n.contr.Idx) :
    (Cert.ReferenceIdeal.dot_S100000x128_S128x32_S100000x32_1_0_0_1_n_n.lhsIdx i q 1).val = (q ⟨0, by decide⟩).val :=
  Cert.ReferenceIdeal.dot_S100000x128_S128x32_S100000x32_1_0_0_1_n_n.lhsIdx_val_of_single rfl i q

theorem rhsR_0 (i : SR.Idx) (q : Cert.ReferenceIdeal.dot_S100000x128_S128x32_S100000x32_1_0_0_1_n_n.contr.Idx) :
    (Cert.ReferenceIdeal.dot_S100000x128_S128x32_S100000x32_1_0_0_1_n_n.rhsIdx i q 0).val = (q ⟨0, by decide⟩).val :=
  Cert.ReferenceIdeal.dot_S100000x128_S128x32_S100000x32_1_0_0_1_n_n.rhsIdx_val_of_single rfl i q

theorem rhsR_1 (i : SR.Idx) (q : Cert.ReferenceIdeal.dot_S100000x128_S128x32_S100000x32_1_0_0_1_n_n.contr.Idx) :
    (Cert.ReferenceIdeal.dot_S100000x128_S128x32_S100000x32_1_0_0_1_n_n.rhsIdx i q 1).val = (i 1).val := by
  unfold DotDims.rhsIdx
  rw [dif_neg (show ¬(1 : Fin SW.rank) ∈ Cert.ReferenceIdeal.dot_S100000x128_S128x32_S100000x32_1_0_0_1_n_n.rhsBatch by decide),
    dif_pos (show (1 : Fin SW.rank) ∈ Cert.ReferenceIdeal.dot_S100000x128_S128x32_S100000x32_1_0_0_1_n_n.rhsNonContracting by decide)]
  rfl

/-- The dense transform of the whole arrays at row r and column q: the same sum over the contracted axis. -/
theorem dense_apply (h : Vec Ideal SA .f32) (w : Vec Ideal SW .f32) (r : Fin 100000) (q : Fin 32) :
    Cert.ReferenceIdeal.Spec.dense0 (F := Ideal) h w (ix2 r q) = ∑ k : Fin K, h (ix2 r k) * w (ix2 k q) := by
  unfold Cert.ReferenceIdeal.Spec.dense0
  simp only [Host.dotGeneral]
  rw [Ideal.dotGeneral_apply, ← Equiv.sum_comp (contrEquiv1 Cert.ReferenceIdeal.dot_S100000x128_S128x32_S100000x32_1_0_0_1_n_n K rfl rfl).symm]
  refine Finset.sum_congr rfl fun k _ => ?_
  have hk := contrEquiv1_symm_val Cert.ReferenceIdeal.dot_S100000x128_S128x32_S100000x32_1_0_0_1_n_n K rfl rfl k
  have el : Cert.ReferenceIdeal.dot_S100000x128_S128x32_S100000x32_1_0_0_1_n_n.lhsIdx (ix2 r q) ((contrEquiv1 Cert.ReferenceIdeal.dot_S100000x128_S128x32_S100000x32_1_0_0_1_n_n K rfl rfl).symm k) = ix2 r k :=
    funext fun a => Fin.ext (by
      match a with
      | ⟨0, _⟩ => exact lhsR_0 _ _
      | ⟨1, _⟩ => exact (lhsR_1 _ _).trans hk)
  have er : Cert.ReferenceIdeal.dot_S100000x128_S128x32_S100000x32_1_0_0_1_n_n.rhsIdx (ix2 r q) ((contrEquiv1 Cert.ReferenceIdeal.dot_S100000x128_S128x32_S100000x32_1_0_0_1_n_n K rfl rfl).symm k) = ix2 k q :=
    funext fun a => Fin.ext (by
      match a with
      | ⟨0, _⟩ => exact (rhsR_0 _ _).trans hk
      | ⟨1, _⟩ => exact rhsR_1 _ _)
  rw [el, er]

/-! ## The blocks as reads of the arrays -/

section Blocks
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the grid: point t takes block row t of the activations and of the output and the one
    block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t is rows 4000 t … 4000 t + 3999 of the array. -/
theorem iblk0_apply (c : Dev nD) (t : Fin cfg0.N) (x : SX.Idx) (i : SA.Idx)
    (h0 : (i 0).val = 4000 * t.val + (x 0).val) (h1 : (i 1).val = (x 1).val) :
    (Lin0.iblk V c 0 t : Vec F SX .f32) x = (V c main_arg0 : SA.Idx → Elt F .f32) i := by
  obtain ⟨e0, e1, -⟩ := idx_facts t
  unfold Lin0.iblk
  rw [View.read_apply]
  show V c main_arg0 _ = V c main_arg0 _
  congr 1
  funext a
  apply Fin.ext
  match a with
  | ⟨0, _⟩ => show win0_0.index t 0 * 4000 + 1 * (x 0).val = (i 0).val; rw [e0, h0]; omega
  | ⟨1, _⟩ => show win0_0.index t 1 * K + 1 * (x 1).val = (i 1).val; rw [e1, h1]; omega

/-- The weights' block at every point is the whole matrix. -/
theorem iblk1_apply (c : Dev nD) (t : Fin cfg0.N) (x : SW.Idx) :
    (Lin0.iblk V c 1 t : Vec F SW .f32) x = (V c main_arg3 : SW.Idx → Elt F .f32) x := by
  obtain ⟨-, -, e0, e1, -⟩ := idx_facts t
  unfold Lin0.iblk
  rw [View.read_apply]
  show V c main_arg3 _ = V c main_arg3 _
  congr 1
  funext a
  apply Fin.ext
  match a with
  | ⟨0, _⟩ => show win0_1.index t 0 * K + 1 * (x 0).val = (x 0).val; rw [e0]; omega
  | ⟨1, _⟩ => show win0_1.index t 1 * 32 + 1 * (x 1).val = (x 1).val; rw [e1]; omega

/-- Where the output's block at point t lies in the array: row p of the block is row 4000 t + p. -/
theorem oblk_emb (t : Fin cfg0.N) (p : Fin 4000) (q : Fin 32) (r : Fin 100000) (hr : r.val = 4000 * t.val + p.val) :
    ((cfg0.win 2).blk t).view.emb (ix2 p q) = (ix2 r q : SR.Idx) := by
  obtain ⟨-, -, -, -, e0, e1⟩ := idx_facts t
  funext a
  apply Fin.ext
  match a with
  | ⟨0, _⟩ => show win0_2.index t 0 * 4000 + 1 * p.val = r.val; rw [e0, hr]; omega
  | ⟨1, _⟩ => show win0_2.index t 1 * 32 + 1 * q.val = q.val; rw [e1]; omega

/-- An index of the output array is in point t's block iff each coordinate is in the block's range on its axis. -/
theorem mem_blk (t : Fin cfg0.N) (i : SR.Idx) :
    i ∈ ((cfg0.win 2).blk t).view.set ↔ ∀ a : Fin 2, win0_2.index t a * SO.size a ≤ (i a).val ∧ (i a).val < win0_2.index t a * SO.size a + SO.size a := by
  show i ∈ ((View.whole main_v32).slice (win0_2.rect t)).set ↔ _
  rw [View.set_slice_whole, Rect.mem_set_unit]
  exact Iff.rfl

/-- The 25 blocks tile the output array: row r is in block r / 4000. -/
theorem cover (i : SR.Idx) : ∃ t : Fin cfg0.N, (cfg0.win 2).flush t = true ∧ i ∈ ((cfg0.win 2).blk t).view.set := by
  have hN : cfg0.N = 25 := N_0
  have hi0 : (i 0).val < 100000 := (i 0).isLt
  have hi1 : (i 1).val < 32 := (i 1).isLt
  refine ⟨⟨(i 0).val / 4000, by rw [hN]; omega⟩, flush0_2 _, ?_⟩
  rw [mem_blk]
  obtain ⟨-, -, -, -, e0, e1⟩ := idx_facts ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e0]; show (i 0).val / 4000 * 4000 ≤ (i 0).val ∧ (i 0).val < (i 0).val / 4000 * 4000 + 4000; omega
  | ⟨1, _⟩ =>
    show win0_2.index _ (1 : Fin 2) * 32 ≤ (i 1).val ∧ (i 1).val < win0_2.index _ (1 : Fin 2) * 32 + 32
    rw [e1]; omega

end Blocks

/-! ## The output array -/

/-- What point t writes back is block t of the dense transform of the arrays as the region found them. -/
theorem flushed_eq (V : (c : Dev nD) → (b : Ref sig .tc) → Buf (Elt Ideal) ((c : Thread nD τ).loc b)) (c : Dev nD) (t : Fin cfg0.N) :
    (Lin0.dat V c).flushed 2 t = ((cfg0.win 2).blk t).view.read (Elt Ideal)
      (Cert.ReferenceIdeal.Spec.dense0 (F := Ideal) (V c main_arg0) (V c main_arg3)) := by
  have hN : cfg0.N = 25 := N_0
  show (cfg0.win 2).cut (grid0.coords t) ((Lin0.dat V c).after 2 t) = _
  rw [Lin0.after_2]
  unfold Lin0.out2
  rw [View.canon_unit_zero hz]
  simp only [View.ld_unit_zero (S := SX) hz, View.ld_unit_zero (S := SW) hz]
  funext j
  obtain ⟨p, q, rfl⟩ : ∃ (p : Fin 4000) (q : Fin 32), j = ix2 p q := ⟨j 0, j 1, eq_ix2 j⟩
  have ht : t.val < 25 := hN ▸ t.isLt
  show k0_pay1 (Lin0.iblk V c 0 t) (Lin0.iblk V c 1 t) (ix2 p q)
    = Cert.ReferenceIdeal.Spec.dense0 (F := Ideal) (V c main_arg0) (V c main_arg3) (((cfg0.win 2).blk t).view.emb (ix2 p q))
  rw [oblk_emb t p q ⟨4000 * t.val + p.val, by omega⟩ rfl, pay_apply, dense_apply]
  refine Finset.sum_congr rfl fun k _ => ?_
  rw [iblk0_apply V c t (ix2 p k) (ix2 ⟨4000 * t.val + p.val, by omega⟩ k) rfl rfl, iblk1_apply V c t (ix2 k q)]

/-- The output array after the region is the dense transform of the activations and the weights as the region found them. -/
theorem final (V : (c : Dev nD) → (b : Ref sig .tc) → Buf (Elt Ideal) ((c : Thread nD τ).loc b)) (c : Dev nD) :
    (Lin0.dat V c).arrAt 2 cfg0.N = Cert.ReferenceIdeal.Spec.dense0 (F := Ideal) (V c main_arg0) (V c main_arg3) :=
  (Lin0.dat V c).arrAt_eq_of_cover 2 _ (fun t _ => flushed_eq V c t) cover

end Cert.KernelIdeal.LinVal0

end
-- ==== Proof.Val.LinVal1.lean ====
/-
  The second dense layer's kernel region computes the whole matrix product: block t of the output array is what grid point t
  wrote back, the product of rows 4000 t … 4000 t + 3999 of the activations with the weight matrix, the 25 blocks tile the array,
  and at the extended reals a product accumulated into zeros is the plain sum over the contracted axis on both sides.
-/
import proofs.«417128_j32650341384807_1_alg».proof.Proof.KI.Lin1
import proofs.«417128_j32650341384807_1_alg».proof.Proof.Ref.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.LinVal1

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-- The contracted extent; the shapes of the activations' block, of the weight matrix, of the output's block, of the
    whole activations and of the whole output. -/
abbrev K : Nat := 32
abbrev SX : Shape := S4000x32
abbrev SW : Shape := S32x32
abbrev SO : Shape := S4000x32
abbrev SA : Shape := S100000x32
abbrev SR : Shape := S100000x32

/-! ## The block product at an index -/

theorem lhsK_0 (i : SO.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin SX.rank) ∈ dot_S4000x32_S32x32_S4000x32_1_0_0_1_n_n.lhsBatch by decide),
    dif_pos (show (0 : Fin SX.rank) ∈ dot_S4000x32_S32x32_S4000x32_1_0_0_1_n_n.lhsNonContracting by decide)]
  rfl

theorem lhsK_1 (i : SO.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q

theorem rhsK_0 (i : SO.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q

theorem rhsK_1 (i : SO.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin SW.rank) ∈ dot_S4000x32_S32x32_S4000x32_1_0_0_1_n_n.rhsBatch by decide),
    dif_pos (show (1 : Fin SW.rank) ∈ dot_S4000x32_S32x32_S4000x32_1_0_0_1_n_n.rhsNonContracting by decide)]
  rfl

/-- A product accumulated into zeros, read at row p and column q of the block: the sum over the contracted axis. -/
theorem block_product_apply (x0 : FVec Ideal SX .bf16) (x1 : FVec Ideal SW .bf16) (p : Fin 4000) (q : Fin 32) :
    matmul dot_S4000x32_S32x32_S4000x32_1_0_0_1_n_n none x0 x1 (constant SO .f32 0x00000000#32) (ix2 p q)
      = ∑ k : Fin K, x0 (ix2 p k) * x1 (ix2 k q) := by
  simp only [matmul]
  rw [Ideal.matmul_constant_zero_apply, ← Equiv.sum_comp (contrEquiv1 dot_S4000x32_S32x32_S4000x32_1_0_0_1_n_n K rfl rfl).symm]
  refine Finset.sum_congr rfl fun k _ => ?_
  have hk := contrEquiv1_symm_val dot_S4000x32_S32x32_S4000x32_1_0_0_1_n_n K rfl rfl k
  have el : dot_S4000x32_S32x32_S4000x32_1_0_0_1_n_n.lhsIdx (ix2 p q) ((contrEquiv1 dot_S4000x32_S32x32_S4000x32_1_0_0_1_n_n K rfl rfl).symm k) = ix2 p k :=
    funext fun a => Fin.ext (by
      match a with
      | ⟨0, _⟩ => exact lhsK_0 _ _
      | ⟨1, _⟩ => exact (lhsK_1 _ _).trans hk)
  have er : dot_S4000x32_S32x32_S4000x32_1_0_0_1_n_n.rhsIdx (ix2 p q) ((contrEquiv1 dot_S4000x32_S32x32_S4000x32_1_0_0_1_n_n K rfl rfl).symm k) = ix2 k q :=
    funext fun a => Fin.ext (by
      match a with
      | ⟨0, _⟩ => exact (rhsK_0 _ _).trans hk
      | ⟨1, _⟩ => exact rhsK_1 _ _)
  rw [el, er]

/-- The body's payload at row p and column q: the casts to the narrower format are the identity on extended reals. -/
theorem pay_apply (x0 : Vec Ideal SX .f32) (x1 : Vec Ideal SW .f32) (p : Fin 4000) (q : Fin 32) :
    k1_pay1 x0 x1 (ix2 p q) = ∑ k : Fin K, x0 (ix2 p k) * x1 (ix2 k q) := by
  unfold k1_pay1
  try simp only [shapeCast_self]
  exact block_product_apply _ _ p q

/-! ## The whole product at an index -/

theorem lhsR_0 (i : SR.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin SA.rank) ∈ Cert.ReferenceIdeal.dot_S100000x32_S32x32_S100000x32_1_0_0_1_n_n.lhsBatch by decide),
    dif_pos (show (0 : Fin SA.rank) ∈ Cert.ReferenceIdeal.dot_S100000x32_S32x32_S100000x32_1_0_0_1_n_n.lhsNonContracting by decide)]
  rfl

theorem lhsR_1 (i : SR.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q

theorem rhsR_0 (i : SR.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q

theorem rhsR_1 (i : SR.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin SW.rank) ∈ Cert.ReferenceIdeal.dot_S100000x32_S32x32_S100000x32_1_0_0_1_n_n.rhsBatch by decide),
    dif_pos (show (1 : Fin SW.rank) ∈ Cert.ReferenceIdeal.dot_S100000x32_S32x32_S100000x32_1_0_0_1_n_n.rhsNonContracting by decide)]
  rfl

/-- The dense transform of the whole arrays at row r and column q: the same sum over the contracted axis. -/
theorem dense_apply (h : Vec Ideal SA .f32) (w : Vec Ideal SW .f32) (r : Fin 100000) (q : Fin 32) :
    Cert.ReferenceIdeal.Spec.dense1 (F := Ideal) h w (ix2 r q) = ∑ k : Fin K, h (ix2 r k) * w (ix2 k q) := by
  unfold Cert.ReferenceIdeal.Spec.dense1
  simp only [Host.dotGeneral]
  rw [Ideal.dotGeneral_apply, ← Equiv.sum_comp (contrEquiv1 Cert.ReferenceIdeal.dot_S100000x32_S32x32_S100000x32_1_0_0_1_n_n K rfl rfl).symm]
  refine Finset.sum_congr rfl fun k _ => ?_
  have hk := contrEquiv1_symm_val Cert.ReferenceIdeal.dot_S100000x32_S32x32_S100000x32_1_0_0_1_n_n K rfl rfl k
  have el : Cert.ReferenceIdeal.dot_S100000x32_S32x32_S100000x32_1_0_0_1_n_n.lhsIdx (ix2 r q) ((contrEquiv1 Cert.ReferenceIdeal.dot_S100000x32_S32x32_S100000x32_1_0_0_1_n_n K rfl rfl).symm k) = ix2 r k :=
    funext fun a => Fin.ext (by
      match a with
      | ⟨0, _⟩ => exact lhsR_0 _ _
      | ⟨1, _⟩ => exact (lhsR_1 _ _).trans hk)
  have er : Cert.ReferenceIdeal.dot_S100000x32_S32x32_S100000x32_1_0_0_1_n_n.rhsIdx (ix2 r q) ((contrEquiv1 Cert.ReferenceIdeal.dot_S100000x32_S32x32_S100000x32_1_0_0_1_n_n K rfl rfl).symm k) = ix2 k q :=
    funext fun a => Fin.ext (by
      match a with
      | ⟨0, _⟩ => exact (rhsR_0 _ _).trans hk
      | ⟨1, _⟩ => exact rhsR_1 _ _)
  rw [el, er]

/-! ## The blocks as reads of the arrays -/

section Blocks
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the grid: point t takes block row t of the activations and of the output and the one
    block of the weights. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The activations' block at point t is rows 4000 t … 4000 t + 3999 of the array. -/
theorem iblk0_apply (c : Dev nD) (t : Fin cfg1.N) (x : SX.Idx) (i : SA.Idx)
    (h0 : (i 0).val = 4000 * t.val + (x 0).val) (h1 : (i 1).val = (x 1).val) :
    (Lin1.iblk V c 0 t : Vec F SX .f32) x = (V c main_v49 : SA.Idx → Elt F .f32) i := by
  obtain ⟨e0, e1, -⟩ := idx_facts t
  unfold Lin1.iblk
  rw [View.read_apply]
  show V c main_v49 _ = V c main_v49 _
  congr 1
  funext a
  apply Fin.ext
  match a with
  | ⟨0, _⟩ => show win1_0.index t 0 * 4000 + 1 * (x 0).val = (i 0).val; rw [e0, h0]; omega
  | ⟨1, _⟩ => show win1_0.index t 1 * K + 1 * (x 1).val = (i 1).val; rw [e1, h1]; omega

/-- The weights' block at every point is the whole matrix. -/
theorem iblk1_apply (c : Dev nD) (t : Fin cfg1.N) (x : SW.Idx) :
    (Lin1.iblk V c 1 t : Vec F SW .f32) x = (V c main_arg5 : SW.Idx → Elt F .f32) x := by
  obtain ⟨-, -, e0, e1, -⟩ := idx_facts t
  unfold Lin1.iblk
  rw [View.read_apply]
  show V c main_arg5 _ = V c main_arg5 _
  congr 1
  funext a
  apply Fin.ext
  match a with
  | ⟨0, _⟩ => show win1_1.index t 0 * K + 1 * (x 0).val = (x 0).val; rw [e0]; omega
  | ⟨1, _⟩ => show win1_1.index t 1 * 32 + 1 * (x 1).val = (x 1).val; rw [e1]; omega

/-- Where the output's block at point t lies in the array: row p of the block is row 4000 t + p. -/
theorem oblk_emb (t : Fin cfg1.N) (p : Fin 4000) (q : Fin 32) (r : Fin 100000) (hr : r.val = 4000 * t.val + p.val) :
    ((cfg1.win 2).blk t).view.emb (ix2 p q) = (ix2 r q : SR.Idx) := by
  obtain ⟨-, -, -, -, e0, e1⟩ := idx_facts t
  funext a
  apply Fin.ext
  match a with
  | ⟨0, _⟩ => show win1_2.index t 0 * 4000 + 1 * p.val = r.val; rw [e0, hr]; omega
  | ⟨1, _⟩ => show win1_2.index t 1 * 32 + 1 * q.val = q.val; rw [e1]; omega

/-- An index of the output array is in point t's block iff each coordinate is in the block's range on its axis. -/
theorem mem_blk (t : Fin cfg1.N) (i : SR.Idx) :
    i ∈ ((cfg1.win 2).blk t).view.set ↔ ∀ a : Fin 2, win1_2.index t a * SO.size a ≤ (i a).val ∧ (i a).val < win1_2.index t a * SO.size a + SO.size a := by
  show i ∈ ((View.whole main_v50).slice (win1_2.rect t)).set ↔ _
  rw [View.set_slice_whole, Rect.mem_set_unit]
  exact Iff.rfl

/-- The 25 blocks tile the output array: row r is in block r / 4000. -/
theorem cover (i : SR.Idx) : ∃ t : Fin cfg1.N, (cfg1.win 2).flush t = true ∧ i ∈ ((cfg1.win 2).blk t).view.set := by
  have hN : cfg1.N = 25 := N_1
  have hi0 : (i 0).val < 100000 := (i 0).isLt
  have hi1 : (i 1).val < 32 := (i 1).isLt
  refine ⟨⟨(i 0).val / 4000, by rw [hN]; omega⟩, flush1_2 _, ?_⟩
  rw [mem_blk]
  obtain ⟨-, -, -, -, e0, e1⟩ := idx_facts ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e0]; show (i 0).val / 4000 * 4000 ≤ (i 0).val ∧ (i 0).val < (i 0).val / 4000 * 4000 + 4000; omega
  | ⟨1, _⟩ =>
    show win1_2.index _ (1 : Fin 2) * 32 ≤ (i 1).val ∧ (i 1).val < win1_2.index _ (1 : Fin 2) * 32 + 32
    rw [e1]; omega

end Blocks

/-! ## The output array -/

/-- What point t writes back is block t of the dense transform of the arrays as the region found them. -/
theorem flushed_eq (V : (c : Dev nD) → (b : Ref sig .tc) → Buf (Elt Ideal) ((c : Thread nD τ).loc b)) (c : Dev nD) (t : Fin cfg1.N) :
    (Lin1.dat V c).flushed 2 t = ((cfg1.win 2).blk t).view.read (Elt Ideal)
      (Cert.ReferenceIdeal.Spec.dense1 (F := Ideal) (V c main_v49) (V c main_arg5)) := by
  have hN : cfg1.N = 25 := N_1
  show (cfg1.win 2).cut (grid1.coords t) ((Lin1.dat V c).after 2 t) = _
  rw [Lin1.after_2]
  unfold Lin1.out2
  rw [View.canon_unit_zero hz]
  simp only [View.ld_unit_zero (S := SX) hz, View.ld_unit_zero (S := SW) hz]
  funext j
  obtain ⟨p, q, rfl⟩ : ∃ (p : Fin 4000) (q : Fin 32), j = ix2 p q := ⟨j 0, j 1, eq_ix2 j⟩
  have ht : t.val < 25 := hN ▸ t.isLt
  show k1_pay1 (Lin1.iblk V c 0 t) (Lin1.iblk V c 1 t) (ix2 p q)
    = Cert.ReferenceIdeal.Spec.dense1 (F := Ideal) (V c main_v49) (V c main_arg5) (((cfg1.win 2).blk t).view.emb (ix2 p q))
  rw [oblk_emb t p q ⟨4000 * t.val + p.val, by omega⟩ rfl, pay_apply, dense_apply]
  refine Finset.sum_congr rfl fun k _ => ?_
  rw [iblk0_apply V c t (ix2 p k) (ix2 ⟨4000 * t.val + p.val, by omega⟩ k) rfl rfl, iblk1_apply V c t (ix2 k q)]

/-- The output array after the region is the dense transform of the activations and the weights as the region found them. -/
theorem final (V : (c : Dev nD) → (b : Ref sig .tc) → Buf (Elt Ideal) ((c : Thread nD τ).loc b)) (c : Dev nD) :
    (Lin1.dat V c).arrAt 2 cfg1.N = Cert.ReferenceIdeal.Spec.dense1 (F := Ideal) (V c main_v49) (V c main_arg5) :=
  (Lin1.dat V c).arrAt_eq_of_cover 2 _ (fun t _ => flushed_eq V c t) cover

end Cert.KernelIdeal.LinVal1

end
-- ==== Proof.Val.LinVal2.lean ====
/-
  The third dense layer's kernel region computes the whole matrix product: block t of the output array is what grid point t
  wrote back, the product of rows 4000 t … 4000 t + 3999 of the activations with the weight matrix, the 25 blocks tile the array,
  and at the extended reals a product accumulated into zeros is the plain sum over the contracted axis on both sides.
-/
import proofs.«417128_j32650341384807_1_alg».proof.Proof.KI.Lin2
import proofs.«417128_j32650341384807_1_alg».proof.Proof.Ref.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.LinVal2

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-- The contracted extent; the shapes of the activations' block, of the weight matrix, of the output's block, of the
    whole activations and of the whole output. -/
abbrev K : Nat := 32
abbrev SX : Shape := S4000x32
abbrev SW : Shape := S32x32
abbrev SO : Shape := S4000x32
abbrev SA : Shape := S100000x32
abbrev SR : Shape := S100000x32

/-! ## The block product at an index -/

theorem lhsK_0 (i : SO.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin SX.rank) ∈ dot_S4000x32_S32x32_S4000x32_1_0_0_1_n_n.lhsBatch by decide),
    dif_pos (show (0 : Fin SX.rank) ∈ dot_S4000x32_S32x32_S4000x32_1_0_0_1_n_n.lhsNonContracting by decide)]
  rfl

theorem lhsK_1 (i : SO.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q

theorem rhsK_0 (i : SO.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q

theorem rhsK_1 (i : SO.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin SW.rank) ∈ dot_S4000x32_S32x32_S4000x32_1_0_0_1_n_n.rhsBatch by decide),
    dif_pos (show (1 : Fin SW.rank) ∈ dot_S4000x32_S32x32_S4000x32_1_0_0_1_n_n.rhsNonContracting by decide)]
  rfl

/-- A product accumulated into zeros, read at row p and column q of the block: the sum over the contracted axis. -/
theorem block_product_apply (x0 : FVec Ideal SX .bf16) (x1 : FVec Ideal SW .bf16) (p : Fin 4000) (q : Fin 32) :
    matmul dot_S4000x32_S32x32_S4000x32_1_0_0_1_n_n none x0 x1 (constant SO .f32 0x00000000#32) (ix2 p q)
      = ∑ k : Fin K, x0 (ix2 p k) * x1 (ix2 k q) := by
  simp only [matmul]
  rw [Ideal.matmul_constant_zero_apply, ← Equiv.sum_comp (contrEquiv1 dot_S4000x32_S32x32_S4000x32_1_0_0_1_n_n K rfl rfl).symm]
  refine Finset.sum_congr rfl fun k _ => ?_
  have hk := contrEquiv1_symm_val dot_S4000x32_S32x32_S4000x32_1_0_0_1_n_n K rfl rfl k
  have el : dot_S4000x32_S32x32_S4000x32_1_0_0_1_n_n.lhsIdx (ix2 p q) ((contrEquiv1 dot_S4000x32_S32x32_S4000x32_1_0_0_1_n_n K rfl rfl).symm k) = ix2 p k :=
    funext fun a => Fin.ext (by
      match a with
      | ⟨0, _⟩ => exact lhsK_0 _ _
      | ⟨1, _⟩ => exact (lhsK_1 _ _).trans hk)
  have er : dot_S4000x32_S32x32_S4000x32_1_0_0_1_n_n.rhsIdx (ix2 p q) ((contrEquiv1 dot_S4000x32_S32x32_S4000x32_1_0_0_1_n_n K rfl rfl).symm k) = ix2 k q :=
    funext fun a => Fin.ext (by
      match a with
      | ⟨0, _⟩ => exact (rhsK_0 _ _).trans hk
      | ⟨1, _⟩ => exact rhsK_1 _ _)
  rw [el, er]

/-- The body's payload at row p and column q: the casts to the narrower format are the identity on extended reals. -/
theorem pay_apply (x0 : Vec Ideal SX .f32) (x1 : Vec Ideal SW .f32) (p : Fin 4000) (q : Fin 32) :
    k2_pay1 x0 x1 (ix2 p q) = ∑ k : Fin K, x0 (ix2 p k) * x1 (ix2 k q) := by
  unfold k2_pay1
  try simp only [shapeCast_self]
  exact block_product_apply _ _ p q

/-! ## The whole product at an index -/

theorem lhsR_0 (i : SR.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin SA.rank) ∈ Cert.ReferenceIdeal.dot_S100000x32_S32x32_S100000x32_1_0_0_1_n_n.lhsBatch by decide),
    dif_pos (show (0 : Fin SA.rank) ∈ Cert.ReferenceIdeal.dot_S100000x32_S32x32_S100000x32_1_0_0_1_n_n.lhsNonContracting by decide)]
  rfl

theorem lhsR_1 (i : SR.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q

theorem rhsR_0 (i : SR.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q

theorem rhsR_1 (i : SR.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin SW.rank) ∈ Cert.ReferenceIdeal.dot_S100000x32_S32x32_S100000x32_1_0_0_1_n_n.rhsBatch by decide),
    dif_pos (show (1 : Fin SW.rank) ∈ Cert.ReferenceIdeal.dot_S100000x32_S32x32_S100000x32_1_0_0_1_n_n.rhsNonContracting by decide)]
  rfl

/-- The dense transform of the whole arrays at row r and column q: the same sum over the contracted axis. -/
theorem dense_apply (h : Vec Ideal SA .f32) (w : Vec Ideal SW .f32) (r : Fin 100000) (q : Fin 32) :
    Cert.ReferenceIdeal.Spec.dense1 (F := Ideal) h w (ix2 r q) = ∑ k : Fin K, h (ix2 r k) * w (ix2 k q) := by
  unfold Cert.ReferenceIdeal.Spec.dense1
  simp only [Host.dotGeneral]
  rw [Ideal.dotGeneral_apply, ← Equiv.sum_comp (contrEquiv1 Cert.ReferenceIdeal.dot_S100000x32_S32x32_S100000x32_1_0_0_1_n_n K rfl rfl).symm]
  refine Finset.sum_congr rfl fun k _ => ?_
  have hk := contrEquiv1_symm_val Cert.ReferenceIdeal.dot_S100000x32_S32x32_S100000x32_1_0_0_1_n_n K rfl rfl k
  have el : Cert.ReferenceIdeal.dot_S100000x32_S32x32_S100000x32_1_0_0_1_n_n.lhsIdx (ix2 r q) ((contrEquiv1 Cert.ReferenceIdeal.dot_S100000x32_S32x32_S100000x32_1_0_0_1_n_n K rfl rfl).symm k) = ix2 r k :=
    funext fun a => Fin.ext (by
      match a with
      | ⟨0, _⟩ => exact lhsR_0 _ _
      | ⟨1, _⟩ => exact (lhsR_1 _ _).trans hk)
  have er : Cert.ReferenceIdeal.dot_S100000x32_S32x32_S100000x32_1_0_0_1_n_n.rhsIdx (ix2 r q) ((contrEquiv1 Cert.ReferenceIdeal.dot_S100000x32_S32x32_S100000x32_1_0_0_1_n_n K rfl rfl).symm k) = ix2 k q :=
    funext fun a => Fin.ext (by
      match a with
      | ⟨0, _⟩ => exact (rhsR_0 _ _).trans hk
      | ⟨1, _⟩ => exact rhsR_1 _ _)
  rw [el, er]

/-! ## The blocks as reads of the arrays -/

section Blocks
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the grid: point t takes block row t of the activations and of the output and the one
    block of the weights. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The activations' block at point t is rows 4000 t … 4000 t + 3999 of the array. -/
theorem iblk0_apply (c : Dev nD) (t : Fin cfg2.N) (x : SX.Idx) (i : SA.Idx)
    (h0 : (i 0).val = 4000 * t.val + (x 0).val) (h1 : (i 1).val = (x 1).val) :
    (Lin2.iblk V c 0 t : Vec F SX .f32) x = (V c main_v67 : SA.Idx → Elt F .f32) i := by
  obtain ⟨e0, e1, -⟩ := idx_facts t
  unfold Lin2.iblk
  rw [View.read_apply]
  show V c main_v67 _ = V c main_v67 _
  congr 1
  funext a
  apply Fin.ext
  match a with
  | ⟨0, _⟩ => show win2_0.index t 0 * 4000 + 1 * (x 0).val = (i 0).val; rw [e0, h0]; omega
  | ⟨1, _⟩ => show win2_0.index t 1 * K + 1 * (x 1).val = (i 1).val; rw [e1, h1]; omega

/-- The weights' block at every point is the whole matrix. -/
theorem iblk1_apply (c : Dev nD) (t : Fin cfg2.N) (x : SW.Idx) :
    (Lin2.iblk V c 1 t : Vec F SW .f32) x = (V c main_arg7 : SW.Idx → Elt F .f32) x := by
  obtain ⟨-, -, e0, e1, -⟩ := idx_facts t
  unfold Lin2.iblk
  rw [View.read_apply]
  show V c main_arg7 _ = V c main_arg7 _
  congr 1
  funext a
  apply Fin.ext
  match a with
  | ⟨0, _⟩ => show win2_1.index t 0 * K + 1 * (x 0).val = (x 0).val; rw [e0]; omega
  | ⟨1, _⟩ => show win2_1.index t 1 * 32 + 1 * (x 1).val = (x 1).val; rw [e1]; omega

/-- Where the output's block at point t lies in the array: row p of the block is row 4000 t + p. -/
theorem oblk_emb (t : Fin cfg2.N) (p : Fin 4000) (q : Fin 32) (r : Fin 100000) (hr : r.val = 4000 * t.val + p.val) :
    ((cfg2.win 2).blk t).view.emb (ix2 p q) = (ix2 r q : SR.Idx) := by
  obtain ⟨-, -, -, -, e0, e1⟩ := idx_facts t
  funext a
  apply Fin.ext
  match a with
  | ⟨0, _⟩ => show win2_2.index t 0 * 4000 + 1 * p.val = r.val; rw [e0, hr]; omega
  | ⟨1, _⟩ => show win2_2.index t 1 * 32 + 1 * q.val = q.val; rw [e1]; omega

/-- An index of the output array is in point t's block iff each coordinate is in the block's range on its axis. -/
theorem mem_blk (t : Fin cfg2.N) (i : SR.Idx) :
    i ∈ ((cfg2.win 2).blk t).view.set ↔ ∀ a : Fin 2, win2_2.index t a * SO.size a ≤ (i a).val ∧ (i a).val < win2_2.index t a * SO.size a + SO.size a := by
  show i ∈ ((View.whole main_v68).slice (win2_2.rect t)).set ↔ _
  rw [View.set_slice_whole, Rect.mem_set_unit]
  exact Iff.rfl

/-- The 25 blocks tile the output array: row r is in block r / 4000. -/
theorem cover (i : SR.Idx) : ∃ t : Fin cfg2.N, (cfg2.win 2).flush t = true ∧ i ∈ ((cfg2.win 2).blk t).view.set := by
  have hN : cfg2.N = 25 := N_2
  have hi0 : (i 0).val < 100000 := (i 0).isLt
  have hi1 : (i 1).val < 32 := (i 1).isLt
  refine ⟨⟨(i 0).val / 4000, by rw [hN]; omega⟩, flush2_2 _, ?_⟩
  rw [mem_blk]
  obtain ⟨-, -, -, -, e0, e1⟩ := idx_facts ⟨(i 0).val / 4000, by rw [hN]; omega⟩
  intro a
  match a with
  | ⟨0, _⟩ =>
    show win2_2.index _ (0 : Fin 2) * 4000 ≤ (i 0).val ∧ (i 0).val < win2_2.index _ (0 : Fin 2) * 4000 + 4000
    rw [e0]; show (i 0).val / 4000 * 4000 ≤ (i 0).val ∧ (i 0).val < (i 0).val / 4000 * 4000 + 4000; omega
  | ⟨1, _⟩ =>
    show win2_2.index _ (1 : Fin 2) * 32 ≤ (i 1).val ∧ (i 1).val < win2_2.index _ (1 : Fin 2) * 32 + 32
    rw [e1]; omega

end Blocks

/-! ## The output array -/

/-- What point t writes back is block t of the dense transform of the arrays as the region found them. -/
theorem flushed_eq (V : (c : Dev nD) → (b : Ref sig .tc) → Buf (Elt Ideal) ((c : Thread nD τ).loc b)) (c : Dev nD) (t : Fin cfg2.N) :
    (Lin2.dat V c).flushed 2 t = ((cfg2.win 2).blk t).view.read (Elt Ideal)
      (Cert.ReferenceIdeal.Spec.dense1 (F := Ideal) (V c main_v67) (V c main_arg7)) := by
  have hN : cfg2.N = 25 := N_2
  show (cfg2.win 2).cut (grid2.coords t) ((Lin2.dat V c).after 2 t) = _
  rw [Lin2.after_2]
  unfold Lin2.out2
  rw [View.canon_unit_zero hz]
  simp only [View.ld_unit_zero (S := SX) hz, View.ld_unit_zero (S := SW) hz]
  funext j
  obtain ⟨p, q, rfl⟩ : ∃ (p : Fin 4000) (q : Fin 32), j = ix2 p q := ⟨j 0, j 1, eq_ix2 j⟩
  have ht : t.val < 25 := hN ▸ t.isLt
  show k2_pay1 (Lin2.iblk V c 0 t) (Lin2.iblk V c 1 t) (ix2 p q)
    = Cert.ReferenceIdeal.Spec.dense1 (F := Ideal) (V c main_v67) (V c main_arg7) (((cfg2.win 2).blk t).view.emb (ix2 p q))
  rw [oblk_emb t p q ⟨4000 * t.val + p.val, by omega⟩ rfl, pay_apply, dense_apply]
  refine Finset.sum_congr rfl fun k _ => ?_
  rw [iblk0_apply V c t (ix2 p k) (ix2 ⟨4000 * t.val + p.val, by omega⟩ k) rfl rfl, iblk1_apply V c t (ix2 k q)]

/-- The output array after the region is the dense transform of the activations and the weights as the region found them. -/
theorem final (V : (c : Dev nD) → (b : Ref sig .tc) → Buf (Elt Ideal) ((c : Thread nD τ).loc b)) (c : Dev nD) :
    (Lin2.dat V c).arrAt 2 cfg2.N = Cert.ReferenceIdeal.Spec.dense1 (F := Ideal) (V c main_v67) (V c main_arg7) :=
  (Lin2.dat V c).arrAt_eq_of_cover 2 _ (fun t _ => flushed_eq V c t) cover

end Cert.KernelIdeal.LinVal2

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«417128_j32650341384807_1_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.Val.PoolVal.lean ====
/-
  The pooling region computes the reference's mean pool and final linear layer: the feature accumulator after the last grid
  point holds, at (g, q), the sum of column q over the nodes whose graph id is g — each block contributes the contraction of
  its one-hot rows against its feature rows, a one is neutral and a zero absorbing for the product of extended reals — which is
  what a scatter-add of the rows into zeros holds; the count accumulator likewise; the finalisation is then the reference's
  quotient, product with the weights and bias, operation for operation.
-/
import proofs.«417128_j32650341384807_1_alg».proof.Proof.KI.Pool
import proofs.«417128_j32650341384807_1_alg».proof.Proof.Ref.Spec
import proofs.«417128_j32650341384807_1_alg».proof.Proof.LibScatter
import Idealize.ShloMosaic.PureOps.Ideal
import Idealize.ShloMosaic.PureOps.Ideal.Laws
import Idealize.ShloMosaic.Lib.ValueIdx
import Idealize.ShloMosaic.Lib.IdealHost
import Idealize.ShloMosaic.Lib.WordArith
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.SL.Sem Idealize.ShloMosaic.ValueIdx
open Idealize.ShloMosaic.Pipeline (Dat Cfg Window)

section Lemmas

/-! ## One block: the one-hot rows, and what the block adds to the accumulators -/

open Idealize.ShloMosaic.WordArith

/-- A row number below 512, as a 32-bit word, is the word whose signed reading is that number. -/
theorem word_eq_iff (x : BitVec 32) (g : Fin 512) : BitVec.ofNat 32 g.val = x ↔ x.toInt = (g.val : Int) := by
  have hg : (BitVec.ofNat 32 g.val).toInt = (g.val : Int) := toInt_ofNat_small g.val (by have := g.isLt; omega)
  constructor
  · intro h; rw [← h, hg]
  · intro h; exact BitVec.eq_of_toInt_eq (by rw [hg, h])

/-- THE ONE-HOT ENTRY: row r of the one-hot matrix has a one in the column of r's graph id, read signed, and zeros elsewhere. -/
theorem onehot_apply (ids : Vec Ideal S1000x1 .i32) (r : Fin 1000) (g : Fin 512) :
    k3_pay3 (F := Ideal) ids (ix2 r g) = if (ids (ix2 r 0)).toInt = (g.val : Int) then (1 : EReal) else 0 := by
  unfold k3_pay3
  dsimp only
  rw [truncf_apply, sitofp_apply, extui_apply]
  show FloatOps.sitofp (F := Ideal) .f32 ((IntOp.cmpi .eq (iota .tc S1000x512 32 [1] iota_S1000x512_d1_w32 (ix2 r g))
    (broadcastTo S1000x512 (shapeCast S1000x1 (shapeCast S1000x1 ids shapeCasts_S1000x1_S1000x1) shapeCasts_S1000x1_S1000x1) broadcasts_S1000x1_S1000x512 (ix2 r g))).setWidth 32) = _
  rw [iota_single_apply, shapeCast_self, shapeCast_self,
    broadcastTo_apply ids broadcasts_S1000x1_S1000x512 (ix2 r g) (ix2 r 0) (fun a => by
      match a with
      | ⟨0, _⟩ => rfl
      | ⟨1, _⟩ => rfl)]
  show ((((IntOp.cmpi .eq (BitVec.ofNat 32 g.val) (ids (ix2 r 0))).setWidth 32).toInt : ℝ) : EReal) = _
  by_cases h : (ids (ix2 r 0)).toInt = (g.val : Int)
  · rw [if_pos h, show IntOp.cmpi .eq (BitVec.ofNat 32 g.val) (ids (ix2 r 0)) = 1#1 from by
      show BitVec.ofBool (BitVec.ofNat 32 g.val == ids (ix2 r 0)) = 1#1
      rw [(word_eq_iff _ g).mpr h, beq_self_eq_true]; rfl]
    norm_num
  · rw [if_neg h, show IntOp.cmpi .eq (BitVec.ofNat 32 g.val) (ids (ix2 r 0)) = 0#1 from by
      show BitVec.ofBool (BitVec.ofNat 32 g.val == ids (ix2 r 0)) = 0#1
      rw [beq_eq_false_iff_ne.mpr (fun e => h ((word_eq_iff _ g).mp e))]; rfl]
    norm_num

/-- The feature contraction: both operands are contracted over their rows. -/
abbrev dF : DotDims S1000x512 S1000x32 S512x32 := dot_S1000x512_S1000x32_S512x32_0_0_1_1_n_n
/-- The count contraction likewise. -/
abbrev dC : DotDims S1000x512 S1000x1 S512x1 := dot_S1000x512_S1000x1_S512x1_0_0_1_1_n_n

/-- The contraction index of either is the block's row number. -/
abbrev eF : dF.contr.Idx ≃ Fin 1000 := contrEquiv1 dF 1000 rfl rfl
abbrev eC : dC.contr.Idx ≃ Fin 1000 := contrEquiv1 dC 1000 rfl rfl

theorem dF_lhs (g : Fin 512) (q : Fin 32) (r : Fin 1000) : dF.lhsIdx (ix2 g q) (eF.symm r) = ix2 r g := by
  refine Shape.idx_ext₂ ?_ ?_
  · exact (dF.lhsIdx_val_of_single (cl := (0 : Fin 2)) rfl _ _).trans (contrEquiv1_symm_val dF 1000 rfl rfl r)
  · rfl

theorem dF_rhs (g : Fin 512) (q : Fin 32) (r : Fin 1000) : dF.rhsIdx (ix2 g q) (eF.symm r) = ix2 r q := by
  refine Shape.idx_ext₂ ?_ ?_
  · exact (dF.rhsIdx_val_of_single (cr := (0 : Fin 2)) rfl _ _).trans (contrEquiv1_symm_val dF 1000 rfl rfl r)
  · rfl

theorem dC_lhs (g : Fin 512) (r : Fin 1000) : dC.lhsIdx (ix2 g 0) (eC.symm r) = ix2 r g := by
  refine Shape.idx_ext₂ ?_ ?_
  · exact (dC.lhsIdx_val_of_single (cl := (0 : Fin 2)) rfl _ _).trans (contrEquiv1_symm_val dC 1000 rfl rfl r)
  · rfl

/-- ONE BLOCK'S FEATURE CONTRIBUTION: what was there plus column q of the block's rows whose graph id is g. -/
theorem pay4_apply (ids : Vec Ideal S1000x1 .i32) (feat : Vec Ideal S1000x32 .f32) (s : Vec Ideal S512x32 .f32)
    (g : Fin 512) (q : Fin 32) :
    k3_pay4 (F := Ideal) ids feat s (ix2 g q)
      = s (ix2 g q) + ∑ r : Fin 1000, (if (ids (ix2 r 0)).toInt = (g.val : Int) then feat (ix2 r q) else 0) := by
  unfold k3_pay4
  rw [shapeCast_self, addf_apply]
  congr 1
  simp only [matmul]
  rw [Ideal.matmul_constant_zero_apply, ← Equiv.sum_comp eF.symm]
  refine Finset.sum_congr rfl fun r _ => ?_
  rw [dF_lhs, dF_rhs, onehot_apply, truncf_apply, shapeCast_self]
  split
  · exact one_mul _
  · exact zero_mul _

/-- ONE BLOCK'S COUNT CONTRIBUTION: what was there plus one for each of the block's rows whose graph id is g. -/
theorem pay5_apply (ids : Vec Ideal S1000x1 .i32) (s : Vec Ideal S512x1 .f32) (g : Fin 512) :
    k3_pay5 (F := Ideal) ids s (ix2 g 0)
      = s (ix2 g 0) + ∑ r : Fin 1000, (if (ids (ix2 r 0)).toInt = (g.val : Int) then (1 : EReal) else 0) := by
  unfold k3_pay5
  rw [shapeCast_self, addf_apply]
  congr 1
  simp only [matmul]
  rw [Ideal.matmul_constant_zero_apply, ← Equiv.sum_comp eC.symm]
  refine Finset.sum_congr rfl fun r _ => ?_
  rw [dC_lhs, onehot_apply, broadcast_apply]
  show _ * Ideal.ofBits .bf16 0x3F80#16 = _
  rw [Ideal.ofBits_one_bf16, mul_one]

/-! ## The finalisation is the reference's head -/

/-- The final layer's contraction, the kernel's record and the reference's: one record. -/
theorem dot_head_eq : Cert.ReferenceIdeal.dot_S512x32_S32x10_S512x10_1_0_0_1_n_n = dot_S512x32_S32x10_S512x10_1_0_0_1_n_n := rfl

/-- THE MEANS: the kernel's quotient of the feature sums by the counts (an empty graph's read as one), broadcast along the
    columns, is the reference's quotient of the same sums and counts. -/
theorem mean_eq (acc0 : Vec Ideal S512x32 .f32) (acc1 : Vec Ideal S512x1 .f32)
    (sums : Cert.ReferenceIdeal.Spec.T Ideal Cert.ReferenceIdeal.S512x32 .f32) (cnts : Cert.ReferenceIdeal.Spec.T Ideal Cert.ReferenceIdeal.S512 .f32)
    (h0 : acc0 = sums) (h1 : ∀ g : Fin 512, acc1 (ix2 g 0) = cnts (ix1 g)) :
    truncf .bf16 (divf acc0 (broadcastTo S512x32 (maximumf acc1 (broadcast S512x1 (Scalar.ofBits (F := Ideal) .f32 0x3F800000#32))) broadcasts_S512x1_S512x32)) bitsLt_bf16_f32
      = Host.divf sums (broadcastInDim Cert.ReferenceIdeal.S512x32 ![0, 1] Cert.ReferenceIdeal.Gen.bcast_S512x1_S512x32_0_1
          (broadcastInDim Cert.ReferenceIdeal.S512x1 ![0] Cert.ReferenceIdeal.Gen.bcast_S512_S512x1_0
            (maximumf cnts (broadcastInDim Cert.ReferenceIdeal.S512 ![] Cert.ReferenceIdeal.Gen.bcast_S_S512 (constant (F := Ideal) Cert.ReferenceIdeal.S_ .f32 0x3F800000#32))))) := by
  subst h0
  funext i
  obtain ⟨g, q, rfl⟩ : ∃ (g : Fin 512) (q : Fin 32), i = ix2 g q := ⟨i 0, i 1, eq_ix2 i⟩
  rw [truncf_apply, divf_apply, hostDivf_apply]
  congr 1
  rw [broadcastTo_apply _ broadcasts_S512x1_S512x32 (ix2 g q) (ix2 g 0) (fun a => by
      match a with
      | ⟨0, _⟩ => rfl
      | ⟨1, _⟩ => rfl),
    broadcastInDim_apply _ Cert.ReferenceIdeal.Gen.bcast_S512x1_S512x32_0_1 _ (ix2 g q) (ix2 g 0) (fun a => by
      match a with
      | ⟨0, _⟩ => rfl
      | ⟨1, _⟩ => rfl),
    broadcastInDim_apply _ Cert.ReferenceIdeal.Gen.bcast_S512_S512x1_0 _ (ix2 g 0) (ix1 g) (fun a => by
      match a with
      | ⟨0, _⟩ => rfl),
    maximumf_apply, maximumf_apply, h1 g, broadcast_apply, broadcastInDim_scalar_apply, constant_apply]
  rfl

/-- THE PRODUCT: accumulated into zeros on the matrix unit or taken on the host, the same sum over the 32 channels. -/
theorem prod_eq (x : FVec Ideal S512x32 .f32) (wl : FVec Ideal S32x10 .f32) :
    matmul (F := Ideal) (φ₁ := .bf16) (φ₂ := .bf16) dot_S512x32_S32x10_S512x10_1_0_0_1_n_n none x (truncf .bf16 wl bitsLt_bf16_f32) (constant S512x10 .f32 0x00000000#32)
      = Host.dotGeneral (F := Ideal) (φ₁ := .f32) (φ₂ := .f32) Cert.ReferenceIdeal.dot_S512x32_S32x10_S512x10_1_0_0_1_n_n none x wl := by
  funext j
  simp only [matmul, Host.dotGeneral]
  rw [Ideal.matmul_constant_zero_apply, Ideal.dotGeneral_apply, dot_head_eq]
  rfl

/-- THE BIAS: the bias row broadcast down the 512 rows, from the row the kernel finds or from the vector. -/
theorem bias_eq (blr : Vec Ideal S1x10 .f32) (bl : Cert.ReferenceIdeal.Spec.T Ideal Cert.ReferenceIdeal.S10 .f32)
    (hbl : blr = shapeCast S1x10 bl shapeCasts_S10_S1x10) :
    broadcastTo S512x10 (shapeCast S1x10 blr shapeCasts_S1x10_S1x10) broadcasts_S1x10_S512x10
      = broadcastInDim Cert.ReferenceIdeal.S512x10 ![0, 1] Cert.ReferenceIdeal.Gen.bcast_S1x10_S512x10_0_1
          (broadcastInDim Cert.ReferenceIdeal.S1x10 ![1] Cert.ReferenceIdeal.Gen.bcast_S10_S1x10_1 bl) := by
  subst hbl
  funext i
  obtain ⟨g, o, rfl⟩ : ∃ (g : Fin 512) (o : Fin 10), i = ix2 g o := ⟨i 0, i 1, eq_ix2 i⟩
  rw [shapeCast_self,
    broadcastTo_apply _ broadcasts_S1x10_S512x10 (ix2 g o) (ix2 (0 : Fin 1) o) (fun a => by
      match a with
      | ⟨0, _⟩ => rfl
      | ⟨1, _⟩ => rfl),
    broadcastInDim_apply _ Cert.ReferenceIdeal.Gen.bcast_S1x10_S512x10_0_1 _ (ix2 g o) (ix2 (0 : Fin 1) o) (fun a => by
      match a with
      | ⟨0, _⟩ => rfl
      | ⟨1, _⟩ => rfl),
    broadcastInDim_apply _ Cert.ReferenceIdeal.Gen.bcast_S10_S1x10_1 _ (ix2 (0 : Fin 1) o) (ix1 o) (fun a => by
      match a with
      | ⟨0, _⟩ => rfl)]
  exact shapeCast_apply bl _ (ix2 (0 : Fin 1) o) (ix1 o) (by
    rw [Shape.rowMajor_val_one, Shape.rowMajor_val_two]
    show o.val = 0 * 10 + o.val
    omega)

/-- THE HEAD: over accumulators that hold the reference's sums and counts, the finalisation is the reference's head. -/
theorem head_eq (acc0 : Vec Ideal S512x32 .f32) (acc1 : Vec Ideal S512x1 .f32) (wl : Vec Ideal S32x10 .f32) (blr : Vec Ideal S1x10 .f32)
    (batch : Cert.ReferenceIdeal.Spec.T Ideal Cert.ReferenceIdeal.S100000 .i32) (hfeat : Cert.ReferenceIdeal.Spec.T Ideal Cert.ReferenceIdeal.S100000x32 .f32)
    (bl : Cert.ReferenceIdeal.Spec.T Ideal Cert.ReferenceIdeal.S10 .f32)
    (h0 : acc0 = Cert.ReferenceIdeal.Spec.sums (F := Ideal) batch hfeat)
    (h1 : ∀ g : Fin 512, acc1 (ix2 g 0) = Cert.ReferenceIdeal.Spec.cnts (F := Ideal) batch (ix1 g))
    (hbl : blr = shapeCast S1x10 bl shapeCasts_S10_S1x10) :
    k3_pay6 (F := Ideal) acc0 acc1 wl blr = Cert.ReferenceIdeal.Spec.head (F := Ideal) batch hfeat wl bl := by
  unfold k3_pay6 Cert.ReferenceIdeal.Spec.head
  dsimp only
  rw [mean_eq acc0 acc1 _ _ h0 h1, prod_eq, bias_eq blr bl hbl]

/-! ## The reference's sums and counts, node by node -/

variable (batch : Cert.ReferenceIdeal.Spec.T Ideal Cert.ReferenceIdeal.S100000 .i32)

/-- Node j's share of graph g's sum of column q: its feature if its graph id, read signed, is g (nothing past the last node). -/
def featTerm (hfeat : S100000x32.Idx → EReal) (g : Fin 512) (q : Fin 32) (j : ℕ) : EReal :=
  if hj : j < 100000 then (if (batch (ix1 ⟨j, hj⟩)).toInt = (g.val : Int) then hfeat (ix2 ⟨j, hj⟩ q) else 0) else 0

/-- Node j's share of graph g's node count. -/
def cntTerm (g : Fin 512) (j : ℕ) : EReal :=
  if hj : j < 100000 then (if (batch (ix1 ⟨j, hj⟩)).toInt = (g.val : Int) then 1 else 0) else 0

/-- The reference's index column reads the graph-id vector, row for row. -/
theorem ref_col : broadcastInDim Cert.ReferenceIdeal.S100000x1 ![0] Cert.ReferenceIdeal.Gen.bcast_S100000_S100000x1_0 batch
    = fun i => batch (ix1 (i 0)) := by
  funext i
  exact broadcastInDim_apply _ _ batch i (ix1 (i 0)) (fun a => by
    match a with
    | ⟨0, _⟩ => rfl)

/-- THE REFERENCE'S SUMS: a scatter-add of the node rows into zeros holds, at (g, q), the shares of all the nodes. -/
theorem sums_apply (hfeat : Cert.ReferenceIdeal.Spec.T Ideal Cert.ReferenceIdeal.S100000x32 .f32) (g : Fin 512) (q : Fin 32) :
    Cert.ReferenceIdeal.Spec.sums (F := Ideal) batch hfeat (ix2 g q) = ∑ j ∈ Finset.range 100000, featTerm batch hfeat g q j := by
  unfold Cert.ReferenceIdeal.Spec.sums
  rw [ref_col]
  show Ideal.hostScatterAdd (Cert.Gcn.rowScatterDims 512 100000 32 _) _ _ _ (ix2 g q) = _
  rw [Cert.Gcn.scatterAddRows_apply, broadcastInDim_scalar_apply, constant_apply, Ideal.ofBits_zero_f32, zero_add,
    Finset.sum_filter, Finset.sum_range]
  refine Finset.sum_congr rfl fun j _ => ?_
  unfold featTerm
  rw [dif_pos j.isLt]

/-- THE REFERENCE'S COUNTS: a scatter-add of ones into zeros holds, at g, the number of nodes whose graph id is g. -/
theorem cnts_apply (g : Fin 512) :
    Cert.ReferenceIdeal.Spec.cnts (F := Ideal) batch (ix1 g) = ∑ j ∈ Finset.range 100000, cntTerm batch g j := by
  unfold Cert.ReferenceIdeal.Spec.cnts
  rw [ref_col]
  show Ideal.hostScatterAdd (Cert.Gcn.vecScatterDims 512 100000 _) _ _ _ (ix1 g) = _
  rw [Cert.Gcn.scatterAddVec_apply, broadcastInDim_scalar_apply, constant_apply, Ideal.ofBits_zero_f32, zero_add,
    Finset.sum_filter, Finset.sum_range]
  refine Finset.sum_congr rfl fun j _ => ?_
  unfold cntTerm
  rw [dif_pos j.isLt, broadcastInDim_scalar_apply, constant_apply, Ideal.ofBits_one_f32]

/-! ## From the last point's staging buffer to the output array -/

variable (V : (c : Dev nD) → (b : Ref sig .tc) → Buf (Elt Ideal) ((c : Thread nD τ).loc b)) (c : Dev nD)

/-- The output's one block is the whole array at every point. -/
theorem idx_out : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem xsize_out : ∀ t : Fin cfg3.N, win3_4.xsize (grid3.coords t) (0 : Fin 2) = 512 ∧ win3_4.xsize (grid3.coords t) (1 : Fin 2) = 10 :=
  (by decide +kernel : ∀ t : Fin grid3.N, win3_4.xsize (grid3.coords t) (0 : Fin 2) = 512 ∧ win3_4.xsize (grid3.coords t) (1 : Fin 2) = 10)

/-- Written back through the output's block, the whole array, a staged result is read back as it is. -/
theorem cut_whole (t : Fin cfg3.N) (G : Vec Ideal S512x10 .f32) :
    (cfg3.win 4).cut (grid3.coords t) G = ((cfg3.win 4).blk t).view.read (Elt Ideal) G := by
  have hz' : (fun a => win3_4.index t a * main_v87.ty.shape.size a) = fun _ => 0 := funext fun a => by
    match a with
    | ⟨0, _⟩ => show win3_4.index t 0 * 512 = 0; rw [(idx_out t).1]
    | ⟨1, _⟩ => show win3_4.index t 1 * 10 = 0; rw [(idx_out t).2]
  exact (Memref.read_access_unit_zero (Elt Ideal) main_v87 hz' (fun a => by rw [congrFun hz' a]; simp) G).symm

/-- The last grid point. -/
abbrev tLast : Fin cfg3.N := ⟨99, by rw [show cfg3.N = 100 from N_3]; omega⟩

/-- The last point writes the output back, and its block covers the array. -/
theorem cover_out (i : S512x10.Idx) : ∃ t : Fin cfg3.N, (cfg3.win 4).flush t = true ∧ i ∈ ((cfg3.win 4).blk t).view.set :=
  ⟨tLast, (flush3_4 tLast).mpr rfl, by
    show i ∈ ((View.whole main_v87).slice (win3_4.rect tLast)).set
    rw [View.set_slice_whole, Rect.mem_set_unit]
    intro a
    have h0 : (i 0 : Nat) < 512 := (i 0).isLt
    have h1 : (i 1 : Nat) < 10 := (i 1).isLt
    match a with
    | ⟨0, _⟩ =>
      show win3_4.index tLast 0 * 512 ≤ (i 0 : Nat) ∧ (i 0 : Nat) < win3_4.index tLast 0 * 512 + win3_4.xsize (grid3.coords tLast) 0
      rw [(idx_out tLast).1, (xsize_out tLast).1]; omega
    | ⟨1, _⟩ =>
      show win3_4.index tLast 1 * 10 ≤ (i 1 : Nat) ∧ (i 1 : Nat) < win3_4.index tLast 1 * 10 + win3_4.xsize (grid3.coords tLast) 1
      rw [(idx_out tLast).2, (xsize_out tLast).2]; omega⟩

/-- So the output array ends holding whatever the output's staging buffer holds after the points. -/
theorem arr_of_after (G : Vec Ideal S512x10 .f32) (hG : ∀ t, (Pool.dat V c).after 4 t = G) :
    (Pool.dat V c).arrAt 4 cfg3.N = G :=
  (Pool.dat V c).arrAt_eq_of_cover 4 G (fun t _ => by
    show (cfg3.win 4).cut (grid3.coords t) ((Pool.dat V c).after 4 t) = _
    rw [hG t]
    exact cut_whole t G) cover_out

/-! ## The blocks are rows of the arrays, and the accumulators' invariant -/

/-- The graph ids' and the features' block at point t starts at row 1000 t. -/
theorem idx_ids : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx_feat : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)

/-- Row r of the ids' block at point t is row 1000 t + r of the ids' column. -/
theorem idsBlk_apply (t : Fin cfg3.N) (r : Fin 1000) (k : Fin 100000) (hk : k.val = 1000 * t.val + r.val) :
    Pool.idsBlk V c t (ix2 r 0) = V c main_v85 (ix2 k 0) := by
  show ((cfg3.win 0).blk t).view.read (Elt Ideal) (V c main_v85) (ix2 r 0) = _
  rw [View.read_apply]
  show V c main_v85 (((cfg3.win 0).blk t).view.emb (ix2 r 0)) = V c main_v85 (ix2 k 0)
  congr 1
  funext a
  apply Fin.ext
  match a with
  | ⟨0, _⟩ => show win3_0.index t 0 * 1000 + 1 * r.val = k.val; rw [(idx_ids t).1]; omega
  | ⟨1, _⟩ => show win3_0.index t 1 * 1 + 1 * 0 = 0; rw [(idx_ids t).2]

/-- Row r of the features' block at point t is row 1000 t + r of the features. -/
theorem featBlk_apply (t : Fin cfg3.N) (r : Fin 1000) (q : Fin 32) (k : Fin 100000) (hk : k.val = 1000 * t.val + r.val) :
    Pool.featBlk V c t (ix2 r q) = V c main_v84 (ix2 k q) := by
  show ((cfg3.win 1).blk t).view.read (Elt Ideal) (V c main_v84) (ix2 r q) = _
  rw [View.read_apply]
  show V c main_v84 (((cfg3.win 1).blk t).view.emb (ix2 r q)) = V c main_v84 (ix2 k q)
  congr 1
  funext a
  apply Fin.ext
  match a with
  | ⟨0, _⟩ => show win3_1.index t 0 * 1000 + 1 * r.val = k.val; rw [(idx_feat t).1]; omega
  | ⟨1, _⟩ => show win3_1.index t 1 * 32 + 1 * q.val = q.val; rw [(idx_feat t).2]; omega

/-- The ids' column is the graph-id vector, row for row. -/
theorem ids_col (hb : V c main_v85 = shapeCast S100000x1 batch shapeCasts_S100000_S100000x1) (k : Fin 100000) :
    V c main_v85 (ix2 k 0) = batch (ix1 k) := by
  rw [hb]
  exact shapeCast_apply batch _ (ix2 k 0) (ix1 k) (by
    rw [Shape.rowMajor_val_one, Shape.rowMajor_val_two]
    show k.val = k.val * 1 + 0
    omega)

/-- The block at point t contributes the shares of nodes 1000 t … 1000 t + 999. -/
theorem block_feat (hb : V c main_v85 = shapeCast S100000x1 batch shapeCasts_S100000_S100000x1)
    (t : Fin cfg3.N) (g : Fin 512) (q : Fin 32) :
    ∑ r : Fin 1000, (if (Pool.idsBlk V c t (ix2 r 0)).toInt = (g.val : Int) then Pool.featBlk V c t (ix2 r q) else 0)
      = ∑ r ∈ Finset.range 1000, featTerm batch (V c main_v84) g q (1000 * t.val + r) := by
  rw [Finset.sum_range]
  refine Finset.sum_congr rfl fun r _ => ?_
  have hN : cfg3.N = 100 := N_3
  have hlt : 1000 * t.val + r.val < 100000 := by have := t.isLt; have := r.isLt; omega
  unfold featTerm
  rw [dif_pos hlt, idsBlk_apply V c t r ⟨_, hlt⟩ rfl, featBlk_apply V c t r q ⟨_, hlt⟩ rfl, ids_col batch V c hb]

theorem block_cnt (hb : V c main_v85 = shapeCast S100000x1 batch shapeCasts_S100000_S100000x1)
    (t : Fin cfg3.N) (g : Fin 512) :
    ∑ r : Fin 1000, (if (Pool.idsBlk V c t (ix2 r 0)).toInt = (g.val : Int) then (1 : EReal) else 0)
      = ∑ r ∈ Finset.range 1000, cntTerm batch g (1000 * t.val + r) := by
  rw [Finset.sum_range]
  refine Finset.sum_congr rfl fun r _ => ?_
  have hN : cfg3.N = 100 := N_3
  have hlt : 1000 * t.val + r.val < 100000 := by have := t.isLt; have := r.isLt; omega
  unfold cntTerm
  rw [dif_pos hlt, idsBlk_apply V c t r ⟨_, hlt⟩ rfl, ids_col batch V c hb]

/-- The cleared accumulators hold zeros. -/
theorem pay1_apply (i : S512x32.Idx) : k3_pay1 (F := Ideal) i = 0 := by
  unfold k3_pay1
  rw [shapeCast_self]
  exact Ideal.ofBits_zero_f32
theorem pay2_apply (i : S512x1.Idx) : k3_pay2 (F := Ideal) i = 0 := by
  unfold k3_pay2
  rw [shapeCast_self]
  exact Ideal.ofBits_zero_f32

/-- THE INVARIANT: after point n the feature accumulator holds, at (g, q), the shares of the nodes below 1000 (n + 1), -/
theorem acc_feat (hb : V c main_v85 = shapeCast S100000x1 batch shapeCasts_S100000_S100000x1) (g : Fin 512) (q : Fin 32) :
    ∀ (n : ℕ) (hn : n < cfg3.N), (Pool.accAt V c n hn).1 (ix2 g q)
      = ∑ j ∈ Finset.range (1000 * (n + 1)), featTerm batch (V c main_v84) g q j
  | 0, hn => by
    show k3_pay4 (F := Ideal) (Pool.idsBlk V c ⟨0, hn⟩) (Pool.featBlk V c ⟨0, hn⟩) (k3_pay1 (F := Ideal)) (ix2 g q) = _
    rw [pay4_apply, pay1_apply, zero_add, block_feat batch V c hb]
    refine Finset.sum_congr rfl fun r _ => ?_
    show featTerm batch (V c main_v84) g q (1000 * 0 + r) = _
    rw [Nat.mul_zero, Nat.zero_add]
  | n + 1, hn => by
    show k3_pay4 (F := Ideal) (Pool.idsBlk V c ⟨n + 1, hn⟩) (Pool.featBlk V c ⟨n + 1, hn⟩)
      (Pool.accAt V c n (Nat.lt_of_succ_lt hn)).1 (ix2 g q) = _
    rw [pay4_apply, acc_feat hb g q n, block_feat batch V c hb, show 1000 * (n + 1 + 1) = 1000 * (n + 1) + 1000 from by omega,
      Finset.sum_range_add]

/-- and the count accumulator, at g, their number among those whose graph id is g. -/
theorem acc_cnt (hb : V c main_v85 = shapeCast S100000x1 batch shapeCasts_S100000_S100000x1) (g : Fin 512) :
    ∀ (n : ℕ) (hn : n < cfg3.N), (Pool.accAt V c n hn).2 (ix2 g 0)
      = ∑ j ∈ Finset.range (1000 * (n + 1)), cntTerm batch g j
  | 0, hn => by
    show k3_pay5 (F := Ideal) (Pool.idsBlk V c ⟨0, hn⟩) (k3_pay2 (F := Ideal)) (ix2 g 0) = _
    rw [pay5_apply, pay2_apply, zero_add, block_cnt batch V c hb]
    refine Finset.sum_congr rfl fun r _ => ?_
    show cntTerm batch g (1000 * 0 + r) = _
    rw [Nat.mul_zero, Nat.zero_add]
  | n + 1, hn => by
    show k3_pay5 (F := Ideal) (Pool.idsBlk V c ⟨n + 1, hn⟩) (Pool.accAt V c n (Nat.lt_of_succ_lt hn)).2 (ix2 g 0) = _
    rw [pay5_apply, acc_cnt hb g n, block_cnt batch V c hb, show 1000 * (n + 1 + 1) = 1000 * (n + 1) + 1000 from by omega,
      Finset.sum_range_add]

/-! ## The weights' and the bias's blocks, and the claim -/

/-- The weights' and the bias's one block is the whole array at every point. -/
theorem idx_wl : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx_bl : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)

theorem wlBlk_eq (t : Fin cfg3.N) : Pool.wlBlk V c t = V c main_arg9 := by
  funext i
  obtain ⟨a, b, rfl⟩ : ∃ (a : Fin 32) (b : Fin 10), i = ix2 a b := ⟨i 0, i 1, eq_ix2 i⟩
  show ((cfg3.win 2).blk t).view.read (Elt Ideal) (V c main_arg9) (ix2 a b) = _
  rw [View.read_apply]
  show V c main_arg9 (((cfg3.win 2).blk t).view.emb (ix2 a b)) = V c main_arg9 (ix2 a b)
  congr 1
  funext ax
  apply Fin.ext
  match ax with
  | ⟨0, _⟩ => show win3_2.index t 0 * 32 + 1 * a.val = a.val; rw [(idx_wl t).1]; omega
  | ⟨1, _⟩ => show win3_2.index t 1 * 10 + 1 * b.val = b.val; rw [(idx_wl t).2]; omega

theorem blBlk_eq (t : Fin cfg3.N) : Pool.blBlk V c t = V c main_v86 := by
  funext i
  obtain ⟨a, b, rfl⟩ : ∃ (a : Fin 1) (b : Fin 10), i = ix2 a b := ⟨i 0, i 1, eq_ix2 i⟩
  show ((cfg3.win 3).blk t).view.read (Elt Ideal) (V c main_v86) (ix2 a b) = _
  rw [View.read_apply]
  show V c main_v86 (((cfg3.win 3).blk t).view.emb (ix2 a b)) = V c main_v86 (ix2 a b)
  congr 1
  funext ax
  apply Fin.ext
  match ax with
  | ⟨0, _⟩ => show win3_3.index t 0 * 1 + 1 * a.val = a.val; rw [(idx_bl t).1]; omega
  | ⟨1, _⟩ => show win3_3.index t 1 * 10 + 1 * b.val = b.val; rw [(idx_bl t).2]; omega

/-- After the last point the accumulators hold the reference's sums and counts. -/
theorem acc_last_feat (hb : V c main_v85 = shapeCast S100000x1 batch shapeCasts_S100000_S100000x1) :
    (Pool.accAt V c tLast.val tLast.isLt).1 = Cert.ReferenceIdeal.Spec.sums (F := Ideal) batch (V c main_v84) := by
  funext i
  obtain ⟨g, q, rfl⟩ : ∃ (g : Fin 512) (q : Fin 32), i = ix2 g q := ⟨i 0, i 1, eq_ix2 i⟩
  rw [sums_apply]
  exact acc_feat batch V c hb g q 99 tLast.isLt

theorem acc_last_cnt (hb : V c main_v85 = shapeCast S100000x1 batch shapeCasts_S100000_S100000x1) (g : Fin 512) :
    (Pool.accAt V c tLast.val tLast.isLt).2 (ix2 g 0) = Cert.ReferenceIdeal.Spec.cnts (F := Ideal) batch (ix1 g) := by
  rw [cnts_apply]
  exact acc_cnt batch V c hb g 99 tLast.isLt

end Lemmas

/-- The output array after the region, when the region finds the graph ids as a column and the bias as a row, is the
    reference's pooled head of the node features and the final layer's weights as the region found them. -/
theorem final (V : (c : Dev nD) → (b : Ref sig .tc) → Buf (Elt Ideal) ((c : Thread nD τ).loc b)) (c : Dev nD)
    (batch : Cert.ReferenceIdeal.Spec.T Ideal Cert.ReferenceIdeal.S100000 .i32) (bl : Cert.ReferenceIdeal.Spec.T Ideal Cert.ReferenceIdeal.S10 .f32)
    (hb : V c main_v85 = shapeCast S100000x1 batch shapeCasts_S100000_S100000x1)
    (hbl : V c main_v86 = shapeCast S1x10 bl shapeCasts_S10_S1x10) :
    (Pool.dat V c).arrAt 4 cfg3.N = Cert.ReferenceIdeal.Spec.head (F := Ideal) batch (V c main_v84) (V c main_arg9) bl := by
  rw [arr_of_after V c (Pool.result V c) (Pool.after_4 V c), Pool.result_eq V c tLast rfl, wlBlk_eq, blBlk_eq]
  exact head_eq _ _ _ _ batch (V c main_v84) bl (acc_last_feat batch V c hb) (acc_last_cnt batch V c hb) hbl

end Cert.KernelIdeal.PoolVal

end
-- ==== Proof.Val.Chain.lean ====
/-
  The kernel program computes the reference's network: following the buffers' contents from boundary to boundary, the host
  stretches are the reference's own operations (the edge lists, the normalisation, a propagation step after each dense
  transform), each dense-transform region leaves the reference's matrix product, and the pooling region the reference's head.
-/
import proofs.«417128_j32650341384807_1_alg».proof.Proof.KI.Run
import proofs.«417128_j32650341384807_1_alg».proof.Proof.Ref.Spec
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-! ## Each stretch of host operations, from any contents `V` -/

section Stretches

variable (V : Valuation τ sig (Elt F))

/-- The first stretch leaves the edge sources, one self loop per node appended, in `main_v3`. -/
theorem first_src :
    (StableHlo.after hostOps0 V main_v3 : Cert.ReferenceIdeal.Spec.T F Cert.ReferenceIdeal.S3300000 .i32)
      = Cert.ReferenceIdeal.Spec.src (V main_arg1) := by
  dsimp only [hostOps0]
  after_results
  rfl

/-- … the edge targets, likewise, in `main_v6`. -/
theorem first_dst :
    (StableHlo.after hostOps0 V main_v6 : Cert.ReferenceIdeal.Spec.T F Cert.ReferenceIdeal.S3300000 .i32)
      = Cert.ReferenceIdeal.Spec.dst (V main_arg1) := by
  dsimp only [hostOps0]
  after_results
  rfl

/-- … where the degree is positive, in `main_v12`. -/
theorem first_mask :
    (StableHlo.after hostOps0 V main_v12 : Cert.ReferenceIdeal.Spec.T F Cert.ReferenceIdeal.S100000 .i1)
      = cmpf (F := F) .ogt (Cert.ReferenceIdeal.Spec.deg (Cert.ReferenceIdeal.Spec.dst (V main_arg1)))
          (broadcastInDim S100000 ![] bcast_S_S100000 (constant S_ .f32 0x00000000#32)) := by
  dsimp only [hostOps0]
  after_results
  rfl

/-- … the inverse square root of the degree, read as at least one, in `main_v15`. -/
theorem first_rsqrt :
    (StableHlo.after hostOps0 V main_v15 : Cert.ReferenceIdeal.Spec.T F Cert.ReferenceIdeal.S100000 .f32)
      = Host.rsqrt (maximumf (Cert.ReferenceIdeal.Spec.deg (Cert.ReferenceIdeal.Spec.dst (V main_arg1)))
          (broadcastInDim S100000 ![] bcast_S_S100000 (constant S_ .f32 0x3F800000#32))) := by
  dsimp only [hostOps0]
  after_results
  rfl

/-- … and a zero in `main_cst_3`. -/
theorem first_zero :
    (StableHlo.after hostOps0 V main_cst_3 : Cert.ReferenceIdeal.Spec.T F Cert.ReferenceIdeal.S_ .f32)
      = constant S_ .f32 0x00000000#32 := by
  dsimp only [hostOps0]
  after_results

/-- The second stretch selects between the last two by the mask. -/
theorem second_dinv :
    (StableHlo.after hostOps0_1 V main_v16 : Cert.ReferenceIdeal.Spec.T F Cert.ReferenceIdeal.S100000 .f32)
      = select (V main_v12) (V main_v15) (broadcastInDim S100000 ![] bcast_S_S100000 (id (V main_cst_3))) := by
  dsimp only [hostOps0_1]
  after_results
  rfl

/-- The third stretch gathers that vector at the wrapped sources and at the wrapped targets and multiplies. -/
theorem third_norm :
    (StableHlo.after hostOps0_2 V main_v31 : Cert.ReferenceIdeal.Spec.T F Cert.ReferenceIdeal.S3300000 .f32)
      = mulf (Host.gather gather_S100000_S3300000x1_S3300000_n_0_n_n_0_1_1 (V main_v16) (Cert.ReferenceIdeal.Spec.wrap (V main_v3)))
          (Host.gather gather_S100000_S3300000x1_S3300000_n_0_n_n_0_1_1 (V main_v16) (Cert.ReferenceIdeal.Spec.wrap (V main_v6))) := by
  dsimp only [hostOps0_2]
  after_results_simp
  rfl

/-- The stretch after the first dense transform is one propagation step. -/
theorem layer1 :
    (StableHlo.after hostOps1 V main_v48 : Cert.ReferenceIdeal.Spec.T F Cert.ReferenceIdeal.S100000x32 .f32)
      = Cert.ReferenceIdeal.Spec.layer (V main_v32) (V main_v3) (V main_v6) (V main_v31) (V main_arg4) := by
  dsimp only [hostOps1]
  after_results_simp
  rfl

/-- … followed by the rectifier. -/
theorem relu1 :
    (StableHlo.after hostOps1_1 V main_v49 : Cert.ReferenceIdeal.Spec.T F Cert.ReferenceIdeal.S100000x32 .f32)
      = Cert.ReferenceIdeal.Spec.relu (V main_v48) := by
  dsimp only [hostOps1_1]
  after_results
  rfl

/-- The stretch after the second dense transform is one propagation step. -/
theorem layer2 :
    (StableHlo.after hostOps2 V main_v66 : Cert.ReferenceIdeal.Spec.T F Cert.ReferenceIdeal.S100000x32 .f32)
      = Cert.ReferenceIdeal.Spec.layer (V main_v50) (V main_v3) (V main_v6) (V main_v31) (V main_arg6) := by
  dsimp only [hostOps2]
  after_results_simp
  rfl

/-- … followed by the rectifier. -/
theorem relu2 :
    (StableHlo.after hostOps2_1 V main_v67 : Cert.ReferenceIdeal.Spec.T F Cert.ReferenceIdeal.S100000x32 .f32)
      = Cert.ReferenceIdeal.Spec.relu (V main_v66) := by
  dsimp only [hostOps2_1]
  after_results
  rfl

/-- The stretch after the third dense transform is one propagation step … -/
theorem layer3 :
    (StableHlo.after hostOps3 V main_v84 : Cert.ReferenceIdeal.Spec.T F Cert.ReferenceIdeal.S100000x32 .f32)
      = Cert.ReferenceIdeal.Spec.layer (V main_v68) (V main_v3) (V main_v6) (V main_v31) (V main_arg8) := by
  dsimp only [hostOps3]
  after_results_simp
  rfl

/-- … the graph ids as a column … -/
theorem last_ids :
    StableHlo.after hostOps3 V main_v85
      = shapeCast S100000x1 (V main_arg2 : Cert.ReferenceIdeal.Spec.T F Cert.ReferenceIdeal.S100000 .i32) shapeCasts_S100000_S100000x1 := by
  dsimp only [hostOps3]
  after_results
  rfl

/-- … and the head's bias as a row. -/
theorem last_bias :
    StableHlo.after hostOps3 V main_v86
      = shapeCast S1x10 (V main_arg10 : Cert.ReferenceIdeal.Spec.T F Cert.ReferenceIdeal.S10 .f32) shapeCasts_S10_S1x10 := by
  dsimp only [hostOps3]
  after_results
  rfl

end Stretches

/-! ## The first three stretches together -/

section Normalisation

variable (V : Valuation τ sig (Elt F))

/-- After the second stretch `main_v16` holds the inverse square roots of the degrees. -/
theorem upto_dinv :
    (StableHlo.after hostOps0_1 (StableHlo.after hostOps0 V) main_v16 : Cert.ReferenceIdeal.Spec.T F Cert.ReferenceIdeal.S100000 .f32)
      = Cert.ReferenceIdeal.Spec.dinv (Cert.ReferenceIdeal.Spec.dst (V main_arg1)) := by
  rw [second_dinv, first_mask, first_rsqrt, first_zero]
  rfl

/-- The later stretches leave the edge lists where the first wrote them. -/
theorem upto_src :
    (StableHlo.after hostOps0_2 (StableHlo.after hostOps0_1 (StableHlo.after hostOps0 V)) main_v3 : Cert.ReferenceIdeal.Spec.T F Cert.ReferenceIdeal.S3300000 .i32)
      = Cert.ReferenceIdeal.Spec.src (V main_arg1) :=
  (StableHlo.after_of_writes_sub hostOps0_2 _ hostOps0_2_writes (by decide)).trans <|
    (StableHlo.after_of_writes_sub hostOps0_1 _ hostOps0_1_writes (by decide)).trans (first_src V)

theorem upto_dst :
    (StableHlo.after hostOps0_2 (StableHlo.after hostOps0_1 (StableHlo.after hostOps0 V)) main_v6 : Cert.ReferenceIdeal.Spec.T F Cert.ReferenceIdeal.S3300000 .i32)
      = Cert.ReferenceIdeal.Spec.dst (V main_arg1) :=
  (StableHlo.after_of_writes_sub hostOps0_2 _ hostOps0_2_writes (by decide)).trans <|
    (StableHlo.after_of_writes_sub hostOps0_1 _ hostOps0_1_writes (by decide)).trans (first_dst V)

/-- After the third stretch `main_v31` holds the edge weights of the symmetric normalisation. -/
theorem upto_norm :
    (StableHlo.after hostOps0_2 (StableHlo.after hostOps0_1 (StableHlo.after hostOps0 V)) main_v31 : Cert.ReferenceIdeal.Spec.T F Cert.ReferenceIdeal.S3300000 .f32)
      = Cert.ReferenceIdeal.Spec.norm (Cert.ReferenceIdeal.Spec.src (V main_arg1)) (Cert.ReferenceIdeal.Spec.dst (V main_arg1)) := by
  rw [third_norm, upto_dinv,
    StableHlo.after_of_writes_sub hostOps0_1 _ hostOps0_1_writes (by decide : main_v3 ∉ hostOps0_1_W), first_src,
    StableHlo.after_of_writes_sub hostOps0_1 _ hostOps0_1_writes (by decide : main_v6 ∉ hostOps0_1_W), first_dst]
  rfl

end Normalisation

/-! ## The run, boundary by boundary -/

section Boundaries

variable (m : (ℓ : Loc nD τ sig) → Buf (Elt F) ℓ) (c : Dev nD)

/-- The references nothing after the third stretch writes: the edge lists, the normalisation and the arguments are among them. -/
def Kept (r : Ref sig .tc) : Prop :=
  r ≠ main_v32 ∧ r ∉ hostOps1_W ∧ r ∉ hostOps1_1_W ∧ r ≠ main_v50 ∧ r ∉ hostOps2_W ∧ r ∉ hostOps2_1_W ∧ r ≠ main_v68 ∧ r ∉ hostOps3_W

instance (r : Ref sig .tc) : Decidable (Kept r) := by unfold Kept; infer_instance

variable {r : Ref sig .tc}

theorem kept4 (h : Kept r) : Run.W4 m c r = Run.W3 m c r := Run.W4_of m c r h.1
theorem kept6 (h : Kept r) : Run.W6 m c r = Run.W3 m c r :=
  (StableHlo.after_of_writes_sub hostOps1_1 _ hostOps1_1_writes h.2.2.1).trans <|
    (StableHlo.after_of_writes_sub hostOps1 _ hostOps1_writes h.2.1).trans (kept4 m c h)
theorem kept7 (h : Kept r) : Run.W7 m c r = Run.W3 m c r := (Run.W7_of m c r h.2.2.2.1).trans (kept6 m c h)
theorem kept9 (h : Kept r) : Run.W9 m c r = Run.W3 m c r :=
  (StableHlo.after_of_writes_sub hostOps2_1 _ hostOps2_1_writes h.2.2.2.2.2.1).trans <|
    (StableHlo.after_of_writes_sub hostOps2 _ hostOps2_writes h.2.2.2.2.1).trans (kept7 m c h)
theorem kept10 (h : Kept r) : Run.W10 m c r = Run.W3 m c r := (Run.W10_of m c r h.2.2.2.2.2.2.1).trans (kept9 m c h)
theorem kept11 (h : Kept r) : Run.W11 m c r = Run.W3 m c r :=
  (StableHlo.after_of_writes_sub hostOps3 _ hostOps3_writes h.2.2.2.2.2.2.2).trans (kept10 m c h)

/-- The first three stretches write no argument. -/
theorem launched (h : r ∉ hostOps0_W ∧ r ∉ hostOps0_1_W ∧ r ∉ hostOps0_2_W) : Run.W3 m c r = m ((c.tc : Thread nD τ).loc r) :=
  (StableHlo.after_of_writes_sub hostOps0_2 _ hostOps0_2_writes h.2.2).trans <|
    (StableHlo.after_of_writes_sub hostOps0_1 _ hostOps0_1_writes h.2.1).trans <|
      (StableHlo.after_of_writes_sub hostOps0 _ hostOps0_writes h.1).trans rfl

end Boundaries

/-! ## The values -/

section Values

variable (m : (ℓ : Loc nD τ sig) → Buf (Elt F) ℓ) (c : Dev nD)

/-- The edge lists and the normalisation after the third stretch are the reference's, of the launched edge index. -/
theorem src3 : (Run.W3 m c main_v3 : Cert.ReferenceIdeal.Spec.T F Cert.ReferenceIdeal.S3300000 .i32) = Cert.ReferenceIdeal.Spec.src (m ((c.tc : Thread nD τ).loc main_arg1)) :=
  upto_src (Run.W0 m c)
theorem dst3 : (Run.W3 m c main_v6 : Cert.ReferenceIdeal.Spec.T F Cert.ReferenceIdeal.S3300000 .i32) = Cert.ReferenceIdeal.Spec.dst (m ((c.tc : Thread nD τ).loc main_arg1)) :=
  upto_dst (Run.W0 m c)
theorem norm3 : (Run.W3 m c main_v31 : Cert.ReferenceIdeal.Spec.T F Cert.ReferenceIdeal.S3300000 .f32) = Cert.ReferenceIdeal.Spec.norm (Cert.ReferenceIdeal.Spec.src (m ((c.tc : Thread nD τ).loc main_arg1))) (Cert.ReferenceIdeal.Spec.dst (m ((c.tc : Thread nD τ).loc main_arg1))) :=
  upto_norm (Run.W0 m c)

/-- Region 0 leaves the first dense transform of the launched features. -/
theorem v32 (h0 : ∀ V : (c : Dev nD) → (b : Ref sig .tc) → Buf (Elt F) ((c : Thread nD τ).loc b),
      (Lin0.dat V c).arrAt 2 cfg0.N = Cert.ReferenceIdeal.Spec.dense0 (F := F) (V c main_arg0) (V c main_arg3)) :
    (Run.W4 m c main_v32 : Cert.ReferenceIdeal.Spec.T F Cert.ReferenceIdeal.S100000x32 .f32) = Cert.ReferenceIdeal.Spec.dense0 (m ((c.tc : Thread nD τ).loc main_arg0)) (m ((c.tc : Thread nD τ).loc main_arg3)) := by
  rw [Run.W4_out, h0 (Run.V3 m)]
  show Cert.ReferenceIdeal.Spec.dense0 (Run.W3 m c main_arg0) (Run.W3 m c main_arg3) = _
  rw [launched m c (r := main_arg0) (by decide), launched m c (r := main_arg3) (by decide)]

/-- The two stretches after it: one propagation step and the rectifier. -/
theorem v49 :
    (Run.W6 m c main_v49 : Cert.ReferenceIdeal.Spec.T F Cert.ReferenceIdeal.S100000x32 .f32)
      = Cert.ReferenceIdeal.Spec.relu (Cert.ReferenceIdeal.Spec.layer (Run.W4 m c main_v32) (Cert.ReferenceIdeal.Spec.src (m ((c.tc : Thread nD τ).loc main_arg1))) (Cert.ReferenceIdeal.Spec.dst (m ((c.tc : Thread nD τ).loc main_arg1))) (Cert.ReferenceIdeal.Spec.norm (F := F) (Cert.ReferenceIdeal.Spec.src (m ((c.tc : Thread nD τ).loc main_arg1))) (Cert.ReferenceIdeal.Spec.dst (m ((c.tc : Thread nD τ).loc main_arg1)))) (m ((c.tc : Thread nD τ).loc main_arg4))) := by
  show StableHlo.after hostOps1_1 (StableHlo.after hostOps1 (Run.W4 m c)) main_v49 = _
  rw [relu1, layer1, kept4 m c (r := main_v3) (by decide), kept4 m c (r := main_v6) (by decide), kept4 m c (r := main_v31) (by decide), kept4 m c (r := main_arg4) (by decide),
    src3, dst3, norm3, launched m c (r := main_arg4) (by decide)]

/-- Region 1 leaves the second dense transform of that. -/
theorem v50 (h1 : ∀ V : (c : Dev nD) → (b : Ref sig .tc) → Buf (Elt F) ((c : Thread nD τ).loc b),
      (Lin1.dat V c).arrAt 2 cfg1.N = Cert.ReferenceIdeal.Spec.dense1 (F := F) (V c main_v49) (V c main_arg5)) :
    (Run.W7 m c main_v50 : Cert.ReferenceIdeal.Spec.T F Cert.ReferenceIdeal.S100000x32 .f32) = Cert.ReferenceIdeal.Spec.dense1 (Run.W6 m c main_v49) (m ((c.tc : Thread nD τ).loc main_arg5)) := by
  rw [Run.W7_out, h1 (Run.V6 m)]
  show Cert.ReferenceIdeal.Spec.dense1 (Run.W6 m c main_v49) (Run.W6 m c main_arg5) = _
  rw [kept6 m c (r := main_arg5) (by decide), launched m c (r := main_arg5) (by decide)]

theorem v67 :
    (Run.W9 m c main_v67 : Cert.ReferenceIdeal.Spec.T F Cert.ReferenceIdeal.S100000x32 .f32)
      = Cert.ReferenceIdeal.Spec.relu (Cert.ReferenceIdeal.Spec.layer (Run.W7 m c main_v50) (Cert.ReferenceIdeal.Spec.src (m ((c.tc : Thread nD τ).loc main_arg1))) (Cert.ReferenceIdeal.Spec.dst (m ((c.tc : Thread nD τ).loc main_arg1))) (Cert.ReferenceIdeal.Spec.norm (F := F) (Cert.ReferenceIdeal.Spec.src (m ((c.tc : Thread nD τ).loc main_arg1))) (Cert.ReferenceIdeal.Spec.dst (m ((c.tc : Thread nD τ).loc main_arg1)))) (m ((c.tc : Thread nD τ).loc main_arg6))) := by
  show StableHlo.after hostOps2_1 (StableHlo.after hostOps2 (Run.W7 m c)) main_v67 = _
  rw [relu2, layer2, kept7 m c (r := main_v3) (by decide), kept7 m c (r := main_v6) (by decide), kept7 m c (r := main_v31) (by decide), kept7 m c (r := main_arg6) (by decide),
    src3, dst3, norm3, launched m c (r := main_arg6) (by decide)]

/-- Region 2 leaves the third dense transform. -/
theorem v68 (h2 : ∀ V : (c : Dev nD) → (b : Ref sig .tc) → Buf (Elt F) ((c : Thread nD τ).loc b),
      (Lin2.dat V c).arrAt 2 cfg2.N = Cert.ReferenceIdeal.Spec.dense1 (F := F) (V c main_v67) (V c main_arg7)) :
    (Run.W10 m c main_v68 : Cert.ReferenceIdeal.Spec.T F Cert.ReferenceIdeal.S100000x32 .f32) = Cert.ReferenceIdeal.Spec.dense1 (Run.W9 m c main_v67) (m ((c.tc : Thread nD τ).loc main_arg7)) := by
  rw [Run.W10_out, h2 (Run.V9 m)]
  show Cert.ReferenceIdeal.Spec.dense1 (Run.W9 m c main_v67) (Run.W9 m c main_arg7) = _
  rw [kept9 m c (r := main_arg7) (by decide), launched m c (r := main_arg7) (by decide)]

/-- The last stretch: the third propagation step, the graph ids as a column, the head's bias as a row. -/
theorem v84 :
    (Run.W11 m c main_v84 : Cert.ReferenceIdeal.Spec.T F Cert.ReferenceIdeal.S100000x32 .f32)
      = Cert.ReferenceIdeal.Spec.layer (Run.W10 m c main_v68) (Cert.ReferenceIdeal.Spec.src (m ((c.tc : Thread nD τ).loc main_arg1))) (Cert.ReferenceIdeal.Spec.dst (m ((c.tc : Thread nD τ).loc main_arg1))) (Cert.ReferenceIdeal.Spec.norm (F := F) (Cert.ReferenceIdeal.Spec.src (m ((c.tc : Thread nD τ).loc main_arg1))) (Cert.ReferenceIdeal.Spec.dst (m ((c.tc : Thread nD τ).loc main_arg1)))) (m ((c.tc : Thread nD τ).loc main_arg8)) := by
  show StableHlo.after hostOps3 (Run.W10 m c) main_v84 = _
  rw [layer3, kept10 m c (r := main_v3) (by decide), kept10 m c (r := main_v6) (by decide), kept10 m c (r := main_v31) (by decide), kept10 m c (r := main_arg8) (by decide),
    src3, dst3, norm3, launched m c (r := main_arg8) (by decide)]

theorem v85 :
    Run.W11 m c main_v85 = shapeCast S100000x1 ((m ((c.tc : Thread nD τ).loc main_arg2)) : Cert.ReferenceIdeal.Spec.T F Cert.ReferenceIdeal.S100000 .i32) shapeCasts_S100000_S100000x1 := by
  show StableHlo.after hostOps3 (Run.W10 m c) main_v85 = _
  rw [last_ids, kept10 m c (r := main_arg2) (by decide), launched m c (r := main_arg2) (by decide)]

theorem v86 :
    Run.W11 m c main_v86 = shapeCast S1x10 ((m ((c.tc : Thread nD τ).loc main_arg10)) : Cert.ReferenceIdeal.Spec.T F Cert.ReferenceIdeal.S10 .f32) shapeCasts_S10_S1x10 := by
  show StableHlo.after hostOps3 (Run.W10 m c) main_v86 = _
  rw [last_bias, kept10 m c (r := main_arg10) (by decide), launched m c (r := main_arg10) (by decide)]

/-- The whole chain, at any float model. -/
theorem value_at (h0 : ∀ V : (c : Dev nD) → (b : Ref sig .tc) → Buf (Elt F) ((c : Thread nD τ).loc b),
      (Lin0.dat V c).arrAt 2 cfg0.N = Cert.ReferenceIdeal.Spec.dense0 (F := F) (V c main_arg0) (V c main_arg3))
    (h1 : ∀ V : (c : Dev nD) → (b : Ref sig .tc) → Buf (Elt F) ((c : Thread nD τ).loc b),
      (Lin1.dat V c).arrAt 2 cfg1.N = Cert.ReferenceIdeal.Spec.dense1 (F := F) (V c main_v49) (V c main_arg5))
    (h2 : ∀ V : (c : Dev nD) → (b : Ref sig .tc) → Buf (Elt F) ((c : Thread nD τ).loc b),
      (Lin2.dat V c).arrAt 2 cfg2.N = Cert.ReferenceIdeal.Spec.dense1 (F := F) (V c main_v67) (V c main_arg7))
    (h3 : ∀ (V : (c : Dev nD) → (b : Ref sig .tc) → Buf (Elt F) ((c : Thread nD τ).loc b))
      (batch : Cert.ReferenceIdeal.Spec.T F Cert.ReferenceIdeal.S100000 .i32) (bl : Cert.ReferenceIdeal.Spec.T F Cert.ReferenceIdeal.S10 .f32),
      V c main_v85 = shapeCast S100000x1 batch shapeCasts_S100000_S100000x1 →
      V c main_v86 = shapeCast S1x10 bl shapeCasts_S10_S1x10 →
      (Pool.dat V c).arrAt 4 cfg3.N = Cert.ReferenceIdeal.Spec.head (F := F) batch (V c main_v84) (V c main_arg9) bl) :
    (Run.W12 m c main_v87 : Cert.ReferenceIdeal.Spec.T F Cert.ReferenceIdeal.S512x10 .f32)
      = Cert.ReferenceIdeal.Spec.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Run.W12_out, h3 (Run.V11 m) (m ((c.tc : Thread nD τ).loc main_arg2)) (m ((c.tc : Thread nD τ).loc main_arg10)) (v85 m c) (v86 m c)]
  show Cert.ReferenceIdeal.Spec.head _ (Run.W11 m c main_v84) (Run.W11 m c main_arg9) _ = _
  rw [v84 m c, v68 m c h2, v67 m c, v50 m c h1, v49 m c, v32 m c h0, kept11 m c (r := main_arg9) (by decide), launched m c (r := main_arg9) (by decide)]
  rfl

end Values

/-- GIVEN what each kernel region leaves in its output array as a function of the contents it is entered from (the three dense
    transforms and the pooled head), the result buffer at the last boundary is the reference's network of the arguments. -/
theorem kernel_value (m : (ℓ : Loc nD τ sig) → Buf (Elt Ideal) ℓ) (c : Dev nD)
    (h0 : ∀ V : (c : Dev nD) → (b : Ref sig .tc) → Buf (Elt Ideal) ((c : Thread nD τ).loc b),
      (Lin0.dat V c).arrAt 2 cfg0.N = Cert.ReferenceIdeal.Spec.dense0 (F := Ideal) (V c main_arg0) (V c main_arg3))
    (h1 : ∀ V : (c : Dev nD) → (b : Ref sig .tc) → Buf (Elt Ideal) ((c : Thread nD τ).loc b),
      (Lin1.dat V c).arrAt 2 cfg1.N = Cert.ReferenceIdeal.Spec.dense1 (F := Ideal) (V c main_v49) (V c main_arg5))
    (h2 : ∀ V : (c : Dev nD) → (b : Ref sig .tc) → Buf (Elt Ideal) ((c : Thread nD τ).loc b),
      (Lin2.dat V c).arrAt 2 cfg2.N = Cert.ReferenceIdeal.Spec.dense1 (F := Ideal) (V c main_v67) (V c main_arg7))
    (h3 : ∀ (V : (c : Dev nD) → (b : Ref sig .tc) → Buf (Elt Ideal) ((c : Thread nD τ).loc b))
      (batch : Cert.ReferenceIdeal.Spec.T Ideal Cert.ReferenceIdeal.S100000 .i32) (bl : Cert.ReferenceIdeal.Spec.T Ideal Cert.ReferenceIdeal.S10 .f32),
      V c main_v85 = shapeCast S100000x1 batch shapeCasts_S100000_S100000x1 →
      V c main_v86 = shapeCast S1x10 bl shapeCasts_S10_S1x10 →
      (Pool.dat V c).arrAt 4 cfg3.N = Cert.ReferenceIdeal.Spec.head (F := Ideal) batch (V c main_v84) (V c main_arg9) bl) :
    Run.W12 m c main_v87
      = Cert.ReferenceIdeal.Spec.net (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10)) :=
  value_at (F := Ideal) m c h0 h1 h2 h3

end Cert.KernelIdeal.Chain

end
-- ==== Proof.Ref.RefRun.lean ====
/-
  The reference program's run read back as the network: on every device, every weakly fair execution of the
  reference's @main ends with its result buffer at `Spec.net` of the eleven argument arrays' launch contents, the
  arguments themselves unchanged. The run states the result as one composed expression of the arguments, in which
  every shared intermediate (the two edge lists, the degrees, the normalisation, each layer's rows) is written out at
  each of its uses; `Spec.net` is that same expression with the intermediates named, so the two agree by opening
  the names.
-/
import proofs.«417128_j32650341384807_1_alg».proof.Proof.Ref.RunP
import proofs.«417128_j32650341384807_1_alg».proof.Proof.Ref.Spec

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 8192 in
/-- The run's composed expression for the result is the network applied to the arguments' launch contents: both
    sides are the same tree of operations over the same eleven leaves. -/
theorem res_eq_net (m : (ℓ : Loc nD τ sig) → Buf (Elt F) ℓ) (c : Dev nD) :
    ValueP.res_main_v100 m c
      = Spec.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

/-- On every device, for any float values, from any memory with zero counters: every weakly fair execution of the
    reference's @main terminates with the result at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
        = Spec.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1).trans (res_eq_net m c), (h c).2⟩) (ValueP.run m ρ)

end Cert.ReferenceIdeal.RefRun

end
-- ==== Proof.lean ====
/-
  A three-layer graph-convolution network with a mean pool over graphs and a final linear layer. The kernel program keeps the
  irregular gathers and scatter-adds on the host and runs the three dense transforms and the pooled head as kernel regions; the
  reference is the same network with the host's own matrix products and scatter-adds.

  The frames of the two kernel programs (the printed one at the word level, its idealization at the extended reals) are one hand
  text, generic in the float instance: per region the proof data (what each window's staging buffer holds after the body at each
  grid point, the pooling region's two accumulators carried between points) and the body obligation, then the launch over the
  list of host stretches and regions, which leaves every buffer that outlives the kernels at the last boundary's contents. No item
  writes an argument, which is the frame. The idealization rewrote nothing, so there is nothing to preserve. At the extended reals
  each dense region's output array is the whole matrix product of what it found (a product accumulated into zeros, block by block,
  is the plain sum over the contracted axis), and the pooling region's is the reference's head: a contraction of one-hot rows
  against the node features adds, per graph, the rows of the nodes in it — a one is neutral and a zero absorbing for the product of
  extended reals — which is what the reference's scatter-add into zeros holds, ids outside the graph range dropped on both sides.
  Between the regions both programs apply the same host operations to the same values.
-/
import proofs.«417128_j32650341384807_1_alg».proof.Defs
import proofs.«417128_j32650341384807_1_alg».proof.Proof.Gen.Kernel
import proofs.«417128_j32650341384807_1_alg».proof.Proof.Gen.KernelIdeal
import proofs.«417128_j32650341384807_1_alg».proof.Proof.Gen.ReferenceIdeal
import proofs.«417128_j32650341384807_1_alg».proof.Proof.Gen.Pre_finite_inputs
import proofs.«417128_j32650341384807_1_alg».proof.Proof.K.Run
import proofs.«417128_j32650341384807_1_alg».proof.Proof.KI.Run
import proofs.«417128_j32650341384807_1_alg».proof.Proof.Val.LinVal0
import proofs.«417128_j32650341384807_1_alg».proof.Proof.Val.LinVal1
import proofs.«417128_j32650341384807_1_alg».proof.Proof.Val.LinVal2
import proofs.«417128_j32650341384807_1_alg».proof.Proof.Val.PoolVal
import proofs.«417128_j32650341384807_1_alg».proof.Proof.Val.Chain
import proofs.«417128_j32650341384807_1_alg».proof.Proof.Ref.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.Run.W12_arg m c Cert.Kernel.main_arg0 (by decide)),
      (h c _ (Cert.Kernel.Run.mem_uc Cert.Kernel.main_arg1 (by decide))).trans (Cert.Kernel.Run.W12_arg m c Cert.Kernel.main_arg1 (by decide)),
      (h c _ (Cert.Kernel.Run.mem_uc Cert.Kernel.main_arg2 (by decide))).trans (Cert.Kernel.Run.W12_arg m c Cert.Kernel.main_arg2 (by decide)),
      (h c _ (Cert.Kernel.Run.mem_uc Cert.Kernel.main_arg3 (by decide))).trans (Cert.Kernel.Run.W12_arg m c Cert.Kernel.main_arg3 (by decide)),
      (h c _ (Cert.Kernel.Run.mem_uc Cert.Kernel.main_arg4 (by decide))).trans (Cert.Kernel.Run.W12_arg m c Cert.Kernel.main_arg4 (by decide)),
      (h c _ (Cert.Kernel.Run.mem_uc Cert.Kernel.main_arg5 (by decide))).trans (Cert.Kernel.Run.W12_arg m c Cert.Kernel.main_arg5 (by decide)),
      (h c _ (Cert.Kernel.Run.mem_uc Cert.Kernel.main_arg6 (by decide))).trans (Cert.Kernel.Run.W12_arg m c Cert.Kernel.main_arg6 (by decide)),
      (h c _ (Cert.Kernel.Run.mem_uc Cert.Kernel.main_arg7 (by decide))).trans (Cert.Kernel.Run.W12_arg m c Cert.Kernel.main_arg7 (by decide)),
      (h c _ (Cert.Kernel.Run.mem_uc Cert.Kernel.main_arg8 (by decide))).trans (Cert.Kernel.Run.W12_arg m c Cert.Kernel.main_arg8 (by decide)),
      (h c _ (Cert.Kernel.Run.mem_uc Cert.Kernel.main_arg9 (by decide))).trans (Cert.Kernel.Run.W12_arg m c Cert.Kernel.main_arg9 (by decide)),
      (h c _ (Cert.Kernel.Run.mem_uc Cert.Kernel.main_arg10 (by decide))).trans (Cert.Kernel.Run.W12_arg m c Cert.Kernel.main_arg10 (by decide))⟩)
    (Cert.Kernel.Run.run_main (F := Bits) m ρ)

/-- So does its idealization. -/
theorem frame_ki : Cert.frame_KernelIdeal := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.Run.W12_arg m c Cert.KernelIdeal.main_arg0 (by decide)),
      (h c _ (Cert.KernelIdeal.Run.mem_uc Cert.KernelIdeal.main_arg1 (by decide))).trans (Cert.KernelIdeal.Run.W12_arg m c Cert.KernelIdeal.main_arg1 (by decide)),
      (h c _ (Cert.KernelIdeal.Run.mem_uc Cert.KernelIdeal.main_arg2 (by decide))).trans (Cert.KernelIdeal.Run.W12_arg m c Cert.KernelIdeal.main_arg2 (by decide)),
      (h c _ (Cert.KernelIdeal.Run.mem_uc Cert.KernelIdeal.main_arg3 (by decide))).trans (Cert.KernelIdeal.Run.W12_arg m c Cert.KernelIdeal.main_arg3 (by decide)),
      (h c _ (Cert.KernelIdeal.Run.mem_uc Cert.KernelIdeal.main_arg4 (by decide))).trans (Cert.KernelIdeal.Run.W12_arg m c Cert.KernelIdeal.main_arg4 (by decide)),
      (h c _ (Cert.KernelIdeal.Run.mem_uc Cert.KernelIdeal.main_arg5 (by decide))).trans (Cert.KernelIdeal.Run.W12_arg m c Cert.KernelIdeal.main_arg5 (by decide)),
      (h c _ (Cert.KernelIdeal.Run.mem_uc Cert.KernelIdeal.main_arg6 (by decide))).trans (Cert.KernelIdeal.Run.W12_arg m c Cert.KernelIdeal.main_arg6 (by decide)),
      (h c _ (Cert.KernelIdeal.Run.mem_uc Cert.KernelIdeal.main_arg7 (by decide))).trans (Cert.KernelIdeal.Run.W12_arg m c Cert.KernelIdeal.main_arg7 (by decide)),
      (h c _ (Cert.KernelIdeal.Run.mem_uc Cert.KernelIdeal.main_arg8 (by decide))).trans (Cert.KernelIdeal.Run.W12_arg m c Cert.KernelIdeal.main_arg8 (by decide)),
      (h c _ (Cert.KernelIdeal.Run.mem_uc Cert.KernelIdeal.main_arg9 (by decide))).trans (Cert.KernelIdeal.Run.W12_arg m c Cert.KernelIdeal.main_arg9 (by decide)),
      (h c _ (Cert.KernelIdeal.Run.mem_uc Cert.KernelIdeal.main_arg10 (by decide))).trans (Cert.KernelIdeal.Run.W12_arg m c Cert.KernelIdeal.main_arg10 (by decide))⟩)
    (Cert.KernelIdeal.Run.run_main (F := Ideal) m ρ)

/-- The reference is host operations only: its run with the result dropped. -/
theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the network of the arguments in their result buffers. -/
theorem algebraic : Cert.algebraic_KernelIdeal_ReferenceIdeal := by
  intro m g m' g' _ hagree
  refine ⟨fun c => Cert.ReferenceIdeal.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run (Cert.KernelIdeal.defs (F := Ideal)) _ _).mono (fun r h c => ⟨?_,
      (h c _ (Cert.KernelIdeal.Run.mem_uc Cert.KernelIdeal.main_arg0 (by decide))).trans (Cert.KernelIdeal.Run.W12_arg m c Cert.KernelIdeal.main_arg0 (by decide)),
      (h c _ (Cert.KernelIdeal.Run.mem_uc Cert.KernelIdeal.main_arg1 (by decide))).trans (Cert.KernelIdeal.Run.W12_arg m c Cert.KernelIdeal.main_arg1 (by decide)),
      (h c _ (Cert.KernelIdeal.Run.mem_uc Cert.KernelIdeal.main_arg2 (by decide))).trans (Cert.KernelIdeal.Run.W12_arg m c Cert.KernelIdeal.main_arg2 (by decide)),
      (h c _ (Cert.KernelIdeal.Run.mem_uc Cert.KernelIdeal.main_arg3 (by decide))).trans (Cert.KernelIdeal.Run.W12_arg m c Cert.KernelIdeal.main_arg3 (by decide)),
      (h c _ (Cert.KernelIdeal.Run.mem_uc Cert.KernelIdeal.main_arg4 (by decide))).trans (Cert.KernelIdeal.Run.W12_arg m c Cert.KernelIdeal.main_arg4 (by decide)),
      (h c _ (Cert.KernelIdeal.Run.mem_uc Cert.KernelIdeal.main_arg5 (by decide))).trans (Cert.KernelIdeal.Run.W12_arg m c Cert.KernelIdeal.main_arg5 (by decide)),
      (h c _ (Cert.KernelIdeal.Run.mem_uc Cert.KernelIdeal.main_arg6 (by decide))).trans (Cert.KernelIdeal.Run.W12_arg m c Cert.KernelIdeal.main_arg6 (by decide)),
      (h c _ (Cert.KernelIdeal.Run.mem_uc Cert.KernelIdeal.main_arg7 (by decide))).trans (Cert.KernelIdeal.Run.W12_arg m c Cert.KernelIdeal.main_arg7 (by decide)),
      (h c _ (Cert.KernelIdeal.Run.mem_uc Cert.KernelIdeal.main_arg8 (by decide))).trans (Cert.KernelIdeal.Run.W12_arg m c Cert.KernelIdeal.main_arg8 (by decide)),
      (h c _ (Cert.KernelIdeal.Run.mem_uc Cert.KernelIdeal.main_arg9 (by decide))).trans (Cert.KernelIdeal.Run.W12_arg m c Cert.KernelIdeal.main_arg9 (by decide)),
      (h c _ (Cert.KernelIdeal.Run.mem_uc Cert.KernelIdeal.main_arg10 (by decide))).trans (Cert.KernelIdeal.Run.W12_arg m c Cert.KernelIdeal.main_arg10 (by decide))⟩)
      (Cert.KernelIdeal.Run.run_main (F := Ideal) m g)
    exact (h c _ (Cert.KernelIdeal.Run.mem_uc Cert.KernelIdeal.main_v87 (by decide))).trans
      (Cert.KernelIdeal.Chain.kernel_value m c (fun V => Cert.KernelIdeal.LinVal0.final V c) (fun V => Cert.KernelIdeal.LinVal1.final V c)
        (fun V => Cert.KernelIdeal.LinVal2.final V c) (fun V batch bl hb hbl => Cert.KernelIdeal.PoolVal.final V c batch bl hb hbl))
  · refine (θ_run (Cert.ReferenceIdeal.defs (F := Ideal)) _ _).mono (fun r h c => ⟨(h c).1.trans ?_, (h c).2⟩)
      (Cert.ReferenceIdeal.RefRun.run (F := Ideal) m' g')
    rw [(hagree c).1, (hagree c).2.1, (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
